-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144x1 : Shape := ⟨2, ![262144, 1]⟩
abbrev S1 : Shape := ⟨1, ![1]⟩
abbrev S8 : Shape := ⟨1, ![8]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S1 : S_.BroadcastsInDim S1 (![] : Fin 0 → Fin S1.rank)
  reducesTo_S1_S_d0 : S1.ReducesTo [0] S_
  bcast_S_S8 : S_.BroadcastsInDim S8 (![] : Fin 0 → Fin S8.rank)
  reducesTo_S8_S_d0 : S8.ReducesTo [0] S_
  bcast_S_S262144x1 : S_.BroadcastsInDim S262144x1 (![] : Fin 0 → Fin S262144x1.rank)
  reducesTo_S262144x1_S_d0_1 : S262144x1.ReducesTo [0, 1] S_

variable [Facts]

def fn_part1 {F : FTy → Type} [FloatOps F] (main_arg1 : IVec S262144x1 32) (main_arg5 : FVec F S8 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_c_8 : IVec S_ 32 := constantI S_ 32 0#32
  let main_v24 : IVec S262144x1 32 := broadcastInDim S262144x1 ![] bcast_S_S262144x1 main_c_8
  let main_v25 : IVec S262144x1 1 := cmpi .sge main_arg1 main_v24
  let main_c_9 : IVec S_ 1 := constantI S_ 1 1#1
  let main_v26 : IVec S_ 1 := (fun x v => Host.reduce IntOp.andi x v reducesTo_S262144x1_S_d0_1 h_S_) main_v25 main_c_9
  let main_v27 : IVec S_ 1 := andi main_v23 main_v26
  let main_c_10 : IVec S_ 32 := constantI S_ 32 8#32
  let main_v28 : IVec S262144x1 32 := broadcastInDim S262144x1 ![] bcast_S_S262144x1 main_c_10
  let main_v29 : IVec S262144x1 1 := cmpi .slt main_arg1 main_v28
  let main_c_11 : IVec S_ 1 := constantI S_ 1 1#1
  let main_v30 : IVec S_ 1 := (fun x v => Host.reduce IntOp.andi x v reducesTo_S262144x1_S_d0_1 h_S_) main_v29 main_c_11
  let main_v31 : IVec S_ 1 := andi main_v27 main_v30
  main_v31

def fn {F : FTy → Type} [FloatOps F] (main_arg0 : FVec F S262144x256 .f32) (main_arg1 : IVec S262144x1 32) (main_arg2 : FVec F S1 .f32) (main_arg3 : FVec F S1 .f32) (main_arg4 : FVec F S8 .f32) (main_arg5 : FVec F S8 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg1 main_arg5 main_v13 main_v16
-- ==== Kernel.lean ====
abbrev S262144x256 : Shape := ⟨2, ![262144, 256]⟩
abbrev S262144x1 : Shape := ⟨2, ![262144, 1]⟩
abbrev S1 : Shape := ⟨1, ![1]⟩
abbrev S8 : Shape := ⟨1, ![8]⟩
abbrev S2x8x256 : Shape := ⟨3, ![2, 8, 256]⟩
abbrev S2x1x8 : Shape := ⟨3, ![2, 1, 8]⟩
abbrev S4096x1 : Shape := ⟨2, ![4096, 1]⟩
abbrev S4096x256 : Shape := ⟨2, ![4096, 256]⟩
abbrev S1x8x256 : Shape := ⟨3, ![1, 8, 256]⟩
abbrev S1x1x8 : Shape := ⟨3, ![1, 1, 8]⟩
abbrev S4096x8 : Shape := ⟨2, ![4096, 8]⟩
abbrev S8x256 : Shape := ⟨2, ![8, 256]⟩
abbrev S1x8 : Shape := ⟨2, ![1, 8]⟩
abbrev S_ : Shape := ⟨0, ![]⟩
abbrev S8x1 : Shape := ⟨2, ![8, 1]⟩

abbrev nBuf : Space → Nat
  | .hbm => 56
  | .vmem => 20
  | .smem => 0
  | _ => 0

abbrev bufTy : (tb : Table) → Fin (tcTables nBuf tb) → BufTy
  | .hbm, ⟨0, _⟩ => ⟨S262144x256, .f32⟩
  | .hbm, ⟨1, _⟩ => ⟨S262144x1, .i32⟩
  | .hbm, ⟨2, _⟩ => ⟨S1, .f32⟩
  | .hbm, ⟨3, _⟩ => ⟨S1, .f32⟩
  | .hbm, ⟨4, _⟩ => ⟨S8, .f32⟩
  | .hbm, ⟨5, _⟩ => ⟨S8, .f32⟩
  | .hbm, ⟨6, _⟩ => ⟨S2x8x256, .f32⟩
  | .hbm, ⟨7, _⟩ => ⟨S2x8x256, .f32⟩
  | .hbm, ⟨8, _⟩ => ⟨S2x1x8, .f32⟩
  | .hbm, ⟨9, _⟩ => ⟨S_, .f32⟩
  | .hbm, ⟨10, _⟩ => ⟨S8x256, .f32⟩
  | .hbm, ⟨11, _⟩ => ⟨S_, .f32⟩
  | .hbm, ⟨12, _⟩ => ⟨S8x256, .f32⟩
  | .hbm, ⟨13, _⟩ => ⟨S_, .f32⟩
  | .hbm, ⟨14, _⟩ => ⟨S1x8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S8x1, .f32⟩
  | .hbm, ⟨20, _⟩ => ⟨S8x256, .f32⟩
  | .hbm, ⟨21, _⟩ => ⟨S8x256, .f32⟩
  | .hbm, ⟨22, _⟩ => ⟨S8x1, .f32⟩
  | .hbm, ⟨23, _⟩ => ⟨S8x256, .f32⟩
  | .hbm, ⟨24, _⟩ => ⟨S8x256, .f32⟩
  | .hbm, ⟨25, _⟩ => ⟨S8x256, .f32⟩
  | .hbm, ⟨26, _⟩ => ⟨S8x256, .f32⟩
  | .hbm, ⟨27, _⟩ => ⟨S_, .f32⟩
  | .hbm, ⟨28, _⟩ => ⟨S8x256, .f32⟩
  | .hbm, ⟨29, _⟩ => ⟨S8x256, .f32⟩
  | .hbm, ⟨30, _⟩ => ⟨S_, .f32⟩
  | .hbm, ⟨31, _⟩ => ⟨S8x256, .f32⟩
  | .hbm, ⟨32, _⟩ => ⟨S8x256, .f32⟩
  | .hbm, ⟨33, _⟩ => ⟨S8x256, .f32⟩
  | .hbm, ⟨34, _⟩ => ⟨S_, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S8x1, .f32⟩
  | .hbm, ⟨39, _⟩ => ⟨S8x256, .f32⟩
  | .hbm, ⟨40, _⟩ => ⟨S8x256, .f32⟩
  | .hbm, ⟨41, _⟩ => ⟨S8x1, .f32⟩
  | .hbm, ⟨42, _⟩ => ⟨S8x1, .f32⟩
  | .hbm, ⟨43, _⟩ => ⟨S8x1, .f32⟩
  | .hbm, ⟨44, _⟩ => ⟨S8x256, .f32⟩
  | .hbm, ⟨45, _⟩ => ⟨S8x256, .f32⟩
  | .hbm, ⟨46, _⟩ => ⟨S8x256, .f32⟩
  | .hbm, ⟨47, _⟩ => ⟨S8x256, .bf16⟩
  | .hbm, ⟨48, _⟩ => ⟨S8x256, .f32⟩
  | .hbm, ⟨49, _⟩ => ⟨S8x256, .f32⟩
  | .hbm, ⟨50, _⟩ => ⟨S8x256, .bf16⟩
  | .hbm, ⟨51, _⟩ => ⟨S8x256, .bf16⟩
  | .hbm, ⟨52, _⟩ => ⟨S8x256, .f32⟩
  | .hbm, ⟨53, _⟩ => ⟨S8x256, .f32⟩
  | .hbm, ⟨54, _⟩ => ⟨S8x256, .bf16⟩
  | .hbm, ⟨55, _⟩ => ⟨S262144x256, .f32⟩
  | .local _ .vmem, ⟨0, _⟩ => ⟨S4096x1, .i32⟩
  | .local _ .vmem, ⟨1, _⟩ => ⟨S4096x1, .i32⟩
  | .local _ .vmem, ⟨2, _⟩ => ⟨S4096x256, .f32⟩
  | .local _ .vmem, ⟨3, _⟩ => ⟨S4096x256, .f32⟩
  | .local _ .vmem, ⟨4, _⟩ => ⟨S1x8x256, .f32⟩
  | .local _ .vmem, ⟨5, _⟩ => ⟨S1x8x256, .f32⟩
  | .local _ .vmem, ⟨6, _⟩ => ⟨S1x8x256, .f32⟩
  | .local _ .vmem, ⟨7, _⟩ => ⟨S1x8x256, .f32⟩
  | .local _ .vmem, ⟨8, _⟩ => ⟨S1x1x8, .f32⟩
  | .local _ .vmem, ⟨9, _⟩ => ⟨S1x1x8, .f32⟩
  | .local _ .vmem, ⟨10, _⟩ => ⟨S4096x1, .i32⟩
  | .local _ .vmem, ⟨11, _⟩ => ⟨S4096x1, .i32⟩
  | .local _ .vmem, ⟨12, _⟩ => ⟨S4096x256, .f32⟩
  | .local _ .vmem, ⟨13, _⟩ => ⟨S4096x256, .f32⟩
  | .local _ .vmem, ⟨14, _⟩ => ⟨S8x256, .bf16⟩
  | .local _ .vmem, ⟨15, _⟩ => ⟨S8x256, .bf16⟩
  | .local _ .vmem, ⟨16, _⟩ => ⟨S8x256, .bf16⟩
  | .local _ .vmem, ⟨17, _⟩ => ⟨S8x256, .bf16⟩
  | .local _ .vmem, ⟨18, _⟩ => ⟨S4096x256, .f32⟩
  | .local _ .vmem, ⟨19, _⟩ => ⟨S4096x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4096x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S1x8x256_S1x8x256_0_0_0 : ∀ a, (![0, 0, 0] : Fin 3 → Nat) a + S1x8x256.size a ≤ S1x8x256.size a
  h_S1x8x256 : 0 < S1x8x256.numel
  inb_S1x1x8_S1x1x8_0_0_0 : ∀ a, (![0, 0, 0] : Fin 3 → Nat) a + S1x1x8.size a ≤ S1x1x8.size a
  h_S1x1x8 : 0 < S1x1x8.numel
  inb_S4096x256_S4096x256_0_0 : ∀ a, (![0, 0] : Fin 2 → Nat) a + S4096x256.size a ≤ S4096x256.size a
  h_S4096x256 : 0 < S4096x256.numel
  inb_S4096x1_S4096x1_0_0 : ∀ a, (![0, 0] : Fin 2 → Nat) a + S4096x1.size a ≤ S4096x1.size a
  h_S4096x1 : 0 < S4096x1.numel
  iota_S4096x8_d1_w32 : S4096x8.Iotas .tc 32 [1]
  broadcasts_S4096x1_S4096x8 : S4096x1.Broadcasts S4096x8
  natLt_1_32 : 1 < 32
  reduces_S4096x8_S8 : S4096x8.Reduces [0] S8
  shapeCasts_S8_S1x8 : S8.ShapeCasts S1x8
  shapeCasts_S1x8x256_S8x256 : S1x8x256.ShapeCasts S8x256
  shapeCasts_S8x256_S1x8x256 : S8x256.ShapeCasts S1x8x256
  shapeCasts_S1x1x8_S1x8 : S1x1x8.ShapeCasts S1x8
  shapeCasts_S1x8_S1x1x8 : S1x8.ShapeCasts S1x1x8
  reducesTo_S2x8x256_S8x256_d0 : S2x8x256.ReducesTo [0] S8x256
  h_S_ : 0 < S_.numel
  reducesTo_S2x1x8_S1x8_d0 : S2x1x8.ReducesTo [0] S1x8
  shapeCasts_S1x8_S8 : S1x8.ShapeCasts S8
  bcast_S_S8 : S_.BroadcastsInDim S8 (![] : Fin 0 → Fin S8.rank)
  bcast_S8_S8x1_0 : S8.BroadcastsInDim S8x1 (![0] : Fin 1 → Fin S8x1.rank)
  bcast_S8x1_S8x256_0_1 : S8x1.BroadcastsInDim S8x256 (![0, 1] : Fin 2 → Fin S8x256.rank)
  bcast_S_S8x256 : S_.BroadcastsInDim S8x256 (![] : Fin 0 → Fin S8x256.rank)
  shapeCasts_S1_S_ : S1.ShapeCasts S_
  bcast_S_S8x1 : S_.BroadcastsInDim S8x1 (![] : Fin 0 → Fin S8x1.rank)
  bitsLt_bf16_f32 : FTy.bits .bf16 < FTy.bits .f32
  inb_S8x256_S8x256_0_0 : ∀ a, (![0, 0] : Fin 2 → Nat) a + S8x256.size a ≤ S8x256.size a
  h_S8x256 : 0 < S8x256.numel
  shapeCasts_S8x256_S8x256 : S8x256.ShapeCasts S8x256
  dot_S4096x8_S4096x256_S8x256_0_0_1_1_n_n_wf : DotDims.WF S4096x8 S4096x256 S8x256 [0] [0] [1] [1] [] []
  dot_S4096x8_S8x256_S4096x256_1_0_0_1_n_n_wf : DotDims.WF S4096x8 S8x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S262144x1.size a
  hwx0_0 : ∀ i : grid0.Coords, EltTy.bits .i32 = 32 ∨ (Rect.block (s := S262144x1) S4096x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S262144x256.size a
  hwx0_1 : ∀ i : grid0.Coords, EltTy.bits .f32 = 32 ∨ (Rect.block (s := S262144x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x256.size a ≤ S2x8x256.size a
  hwx0_2 : ∀ i : grid0.Coords, EltTy.bits .f32 = 32 ∨ (Rect.block (s := S2x8x256) S1x8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x256.size a ≤ S2x8x256.size a
  hwx0_3 : ∀ i : grid0.Coords, EltTy.bits .f32 = 32 ∨ (Rect.block (s := S2x8x256) S1x8x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x8.size a ≤ S2x1x8.size a
  hwx0_4 : ∀ i : grid0.Coords, EltTy.bits .f32 = 32 ∨ (Rect.block (s := S2x1x8) S1x1x8.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x1.size a ≤ S262144x1.size a
  hwx1_0 : ∀ i : grid1.Coords, EltTy.bits .i32 = 32 ∨ (Rect.block (s := S262144x1) S4096x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S262144x256.size a
  hwx1_1 : ∀ i : grid1.Coords, EltTy.bits .f32 = 32 ∨ (Rect.block (s := S262144x256) S4096x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x256.size a ≤ S8x256.size a
  hwx1_2 : ∀ i : grid1.Coords, EltTy.bits .bf16 = 32 ∨ (Rect.block (s := S8x256) S8x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x256.size a ≤ S8x256.size a
  hwx1_3 : ∀ i : grid1.Coords, EltTy.bits .bf16 = 32 ∨ (Rect.block (s := S8x256) S8x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x256.size a ≤ S8x256.size a
  hwx1_4 : ∀ i : grid1.Coords, EltTy.bits .bf16 = 32 ∨ (Rect.block (s := S8x256) S8x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x256.size a ≤ S8x256.size a
  hwx1_5 : ∀ i : grid1.Coords, EltTy.bits .bf16 = 32 ∨ (Rect.block (s := S8x256) S8x256.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4096x256.size a ≤ S262144x256.size a
  hwx1_6 : ∀ i : grid1.Coords, EltTy.bits .f32 = 32 ∨ (Rect.block (s := S262144x256) S4096x256.size (cc1_transform_6 i) (hinb1_6 i)).WholeWords (EltTy.packing .f32)

variable [Facts₀]

def dot_S4096x8_S4096x256_S8x256_0_0_1_1_n_n : DotDims S4096x8 S4096x256 S8x256 where
  lhsContracting := [0]
  rhsContracting := [0]
  lhsNonContracting := [1]
  rhsNonContracting := [1]
  lhsBatch := []
  rhsBatch := []
  wf := dot_S4096x8_S4096x256_S8x256_0_0_1_1_n_n_wf
def dot_S4096x8_S8x256_S4096x256_1_0_0_1_n_n : DotDims S4096x8 S8x256 S4096x256 where
  lhsContracting := [1]
  rhsContracting := [0]
  lhsNonContracting := [0]
  rhsNonContracting := [1]
  lhsBatch := []
  rhsBatch := []
  wf := dot_S4096x8_S8x256_S4096x256_1_0_0_1_n_n_wf

abbrev win0_0 : Pipeline.Window sig grid0 :=
  Pipeline.Window.ofSpec (Memref.whole main_arg1) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x8x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1x8.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S4096x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S8x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S8x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S8x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S8x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S4096x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S262144x256 : Shape := ⟨2, ![262144, 256]⟩
abbrev S262144x1 : Shape := ⟨2, ![262144, 1]⟩
abbrev S1 : Shape := ⟨1, ![1]⟩
abbrev S8 : Shape := ⟨1, ![8]⟩
abbrev S262144 : Shape := ⟨1, ![262144]⟩
abbrev S_ : Shape := ⟨0, ![]⟩
abbrev S8x256 : Shape := ⟨2, ![8, 256]⟩
abbrev S8x1 : Shape := ⟨2, ![8, 1]⟩
abbrev S1x1 : Shape := ⟨2, ![1, 1]⟩

abbrev nBuf : Space → Nat
  | .hbm => 85
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144x1, .i32⟩
  | .hbm, ⟨2, _⟩ => ⟨S1, .f32⟩
  | .hbm, ⟨3, _⟩ => ⟨S1, .f32⟩
  | .hbm, ⟨4, _⟩ => ⟨S8, .f32⟩
  | .hbm, ⟨5, _⟩ => ⟨S8, .f32⟩
  | .hbm, ⟨6, _⟩ => ⟨S262144, .i32⟩
  | .hbm, ⟨7, _⟩ => ⟨S_, .f32⟩
  | .hbm, ⟨8, _⟩ => ⟨S262144, .f32⟩
  | .hbm, ⟨9, _⟩ => ⟨S_, .f32⟩
  | .hbm, ⟨10, _⟩ => ⟨S8, .f32⟩
  | .hbm, ⟨11, _⟩ => ⟨S262144x1, .i32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8x256, .f32⟩
  | .hbm, ⟨18, _⟩ => ⟨S262144x1, .i32⟩
  | .hbm, ⟨19, _⟩ => ⟨S8x256, .f32⟩
  | .hbm, ⟨20, _⟩ => ⟨S8x1, .f32⟩
  | .hbm, ⟨21, _⟩ => ⟨S8x256, .f32⟩
  | .hbm, ⟨22, _⟩ => ⟨S8x256, .f32⟩
  | .hbm, ⟨23, _⟩ => ⟨S_, .i32⟩
  | .hbm, ⟨24, _⟩ => ⟨S262144, .i32⟩
  | .hbm, ⟨25, _⟩ => ⟨S262144, .i1⟩
  | .hbm, ⟨26, _⟩ => ⟨S_, .i32⟩
  | .hbm, ⟨27, _⟩ => ⟨S262144, .i32⟩
  | .hbm, ⟨28, _⟩ => ⟨S262144, .i32⟩
  | .hbm, ⟨29, _⟩ => ⟨S262144, .i32⟩
  | .hbm, ⟨30, _⟩ => ⟨S262144x1, .i32⟩
  | .hbm, ⟨31, _⟩ => ⟨S262144x256, .f32⟩
  | .hbm, ⟨32, _⟩ => ⟨S262144x256, .f32⟩
  | .hbm, ⟨33, _⟩ => ⟨S262144x256, .f32⟩
  | .hbm, ⟨34, _⟩ => ⟨S_, .f32⟩
  | .hbm, ⟨35, _⟩ => ⟨S8x256, .f32⟩
  | .hbm, ⟨36, _⟩ => ⟨S262144x1, .i32⟩
  | .hbm, ⟨37, _⟩ => ⟨S8x256, .f32⟩
  | .hbm, ⟨38, _⟩ => ⟨S8x1, .f32⟩
  | .hbm, ⟨39, _⟩ => ⟨S8x256, .f32⟩
  | .hbm, ⟨40, _⟩ => ⟨S8x256, .f32⟩
  | .hbm, ⟨41, _⟩ => ⟨S_, .i32⟩
  | .hbm, ⟨42, _⟩ => ⟨S262144, .i32⟩
  | .hbm, ⟨43, _⟩ => ⟨S262144, .i1⟩
  | .hbm, ⟨44, _⟩ => ⟨S_, .i32⟩
  | .hbm, ⟨45, _⟩ => ⟨S262144, .i32⟩
  | .hbm, ⟨46, _⟩ => ⟨S262144, .i32⟩
  | .hbm, ⟨47, _⟩ => ⟨S262144, .i32⟩
  | .hbm, ⟨48, _⟩ => ⟨S262144x1, .i32⟩
  | .hbm, ⟨49, _⟩ => ⟨S262144x256, .f32⟩
  | .hbm, ⟨50, _⟩ => ⟨S_, .f32⟩
  | .hbm, ⟨51, _⟩ => ⟨S262144x256, .f32⟩
  | .hbm, ⟨52, _⟩ => ⟨S262144x256, .f32⟩
  | .hbm, ⟨53, _⟩ => ⟨S262144x256, .f32⟩
  | .hbm, ⟨54, _⟩ => ⟨S262144x256, .f32⟩
  | .hbm, ⟨55, _⟩ => ⟨S_, .i32⟩
  | .hbm, ⟨56, _⟩ => ⟨S262144, .i32⟩
  | .hbm, ⟨57, _⟩ => ⟨S262144, .i1⟩
  | .hbm, ⟨58, _⟩ => ⟨S_, .i32⟩
  | .hbm, ⟨59, _⟩ => ⟨S262144, .i32⟩
  | .hbm, ⟨60, _⟩ => ⟨S262144, .i32⟩
  | .hbm, ⟨61, _⟩ => ⟨S262144, .i32⟩
  | .hbm, ⟨62, _⟩ => ⟨S262144x1, .i32⟩
  | .hbm, ⟨63, _⟩ => ⟨S262144, .f32⟩
  | .hbm, ⟨64, _⟩ => ⟨S262144x1, .f32⟩
  | .hbm, ⟨65, _⟩ => ⟨S1x1, .f32⟩
  | .hbm, ⟨66, _⟩ => ⟨S262144x1, .f32⟩
  | .hbm, ⟨67, _⟩ => ⟨S262144x1, .f32⟩
  | .hbm, ⟨68, _⟩ => ⟨S262144x256, .f32⟩
  | .hbm, ⟨69, _⟩ => ⟨S262144x256, .f32⟩
  | .hbm, ⟨70, _⟩ => ⟨S1x1, .f32⟩
  | .hbm, ⟨71, _⟩ => ⟨S262144x256, .f32⟩
  | .hbm, ⟨72, _⟩ => ⟨S262144x256, .f32⟩
  | .hbm, ⟨73, _⟩ => ⟨S_, .i32⟩
  | .hbm, ⟨74, _⟩ => ⟨S262144, .i32⟩
  | .hbm, ⟨75, _⟩ => ⟨S262144, .i1⟩
  | .hbm, ⟨76, _⟩ => ⟨S_, .i32⟩
  | .hbm, ⟨77, _⟩ => ⟨S262144, .i32⟩
  | .hbm, ⟨78, _⟩ => ⟨S262144, .i32⟩
  | .hbm, ⟨79, _⟩ => ⟨S262144, .i32⟩
  | .hbm, ⟨80, _⟩ => ⟨S262144x1, .i32⟩
  | .hbm, ⟨81, _⟩ => ⟨S262144, .f32⟩
  | .hbm, ⟨82, _⟩ => ⟨S262144x1, .f32⟩
  | .hbm, ⟨83, _⟩ => ⟨S262144x256, .f32⟩
  | .hbm, ⟨84, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_c_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_10 : Ref sig .tc := ⟨.hbm, 73, rfl⟩
abbrev main_v55 : Ref sig .tc := ⟨.hbm, 74, rfl⟩
abbrev main_v56 : Ref sig .tc := ⟨.hbm, 75, rfl⟩
abbrev main_c_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]

class Facts₀ : Prop where
  shapeCasts_S262144x1_S262144 : S262144x1.ShapeCasts S262144
  bcast_S_S262144 : S_.BroadcastsInDim S262144 (![] : Fin 0 → Fin S262144.rank)
  bcast_S_S8 : S_.BroadcastsInDim S8 (![] : Fin 0 → Fin S8.rank)
  bcast_S262144_S262144x1_0 : S262144.BroadcastsInDim S262144x1 (![0] : Fin 1 → Fin S262144x1.rank)
  bcast_S_S8x256 : S_.BroadcastsInDim S8x256 (![] : Fin 0 → Fin S8x256.rank)
  bcast_S8_S8x1_0 : S8.BroadcastsInDim S8x1 (![0] : Fin 1 → Fin S8x1.rank)
  bcast_S8x1_S8x256_0_1 : S8x1.BroadcastsInDim S8x256 (![0, 1] : Fin 2 → Fin S8x256.rank)
  bcast_S_S262144x256 : S_.BroadcastsInDim S262144x256 (![] : Fin 0 → Fin S262144x256.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  bcast_S262144x1_S262144x256_0_1 : S262144x1.BroadcastsInDim S262144x256 (![0, 1] : Fin 2 → Fin S262144x256.rank)
  bcast_S1x1_S262144x256_0_1 : S1x1.BroadcastsInDim S262144x256 (![0, 1] : Fin 2 → Fin S262144x256.rank)
  scatter_S8_S262144x1_S262144_n_0_0_1_wf : ScatterDims.WF S8 S262144x1 S262144 [] [0] [0] 1
  scatter_S8x256_S262144x1_S262144x256_1_0_0_1_wf : ScatterDims.WF S8x256 S262144x1 S262144x256 [1] [0] [0] 1
  gather_S8x256_S262144x1_S262144x256_1_0_n_n_0_1_1256_wf : GatherDims.WF S8x256 S262144x1 S262144x256 [1] [0] [] [0] [] 1 ![1, 256]
  gather_S8_S262144x1_S262144_n_0_n_n_0_1_1_wf : GatherDims.WF S8 S262144x1 S262144 [] [0] [] [0] [] 1 ![1]

variable [Facts₀]

def scatter_S8_S262144x1_S262144_n_0_0_1 : ScatterDims S8 S262144x1 S262144 where
  updateWindowDims := []
  insertedWindowDims := [0]
  scatterDimsToOperandDims := [0]
  indexVectorDim := 1
  wf := scatter_S8_S262144x1_S262144_n_0_0_1_wf
def scatter_S8x256_S262144x1_S262144x256_1_0_0_1 : ScatterDims S8x256 S262144x1 S262144x256 where
  updateWindowDims := [1]
  insertedWindowDims := [0]
  scatterDimsToOperandDims := [0]
  indexVectorDim := 1
  wf := scatter_S8x256_S262144x1_S262144x256_1_0_0_1_wf
def gather_S8x256_S262144x1_S262144x256_1_0_n_n_0_1_1256 : GatherDims S8x256 S262144x1 S262144x256 where
  offsetDims := [1]
  collapsedSliceDims := [0]
  operandBatchingDims := []
  startIndicesBatchingDims := []
  startIndexMap := [0]
  indexVectorDim := 1
  sliceSizes := ![1, 256]
  wf := gather_S8x256_S262144x1_S262144x256_1_0_n_n_0_1_1256_wf
def gather_S8_S262144x1_S262144_n_0_n_n_0_1_1 : GatherDims S8 S262144x1 S262144 where
  offsetDims := []
  collapsedSliceDims := [0]
  operandBatchingDims := []
  startIndicesBatchingDims := []
  startIndexMap := [0]
  indexVectorDim := 1
  sliceSizes := ![1]
  wf := gather_S8_S262144x1_S262144_n_0_n_n_0_1_1_wf

class Facts : Prop extends Facts₀ where

variable [Facts]
-- ==== Proof.Spec.lean ====
/-
  Per-domain batch normalisation followed by an affine map, written index by index on the extended reals.

  A row t of the [262144, 256] features carries a domain label; for each label d and feature f the rows of
  that label give a count, a sum and a sum of squares. Two ways of turning these into the output are written
  here: the two-pass one (centre by the mean, average the centred squares, normalise, scale, shift) and the
  one-pass one (mean of squares minus squared mean, clamped at zero, folded with the scale and shift into a
  per-label slope and intercept that a one-hot product then selects). The three f32 words both programs
  carry (0, 1 and the variance guard) are left as words: they are never evaluated here.
-/
import Idealize.ShloMosaic.PureOps.Ideal
import Idealize.ShloMosaic.Lib.ValueIdx

noncomputable section

namespace Cert.Spec

open Idealize.ShloMosaic Idealize.ShloMosaic.ValueIdx

/-- The features, the labels, the two global scalars, the per-label scale and shift, a per-label table. -/
abbrev XArr := (⟨2, ![262144, 256]⟩ : Shape).Idx → EReal
abbrev SegArr := (⟨2, ![262144, 1]⟩ : Shape).Idx → BitVec 32
abbrev Vec1 := (⟨1, ![1]⟩ : Shape).Idx → EReal
abbrev Vec8 := (⟨1, ![8]⟩ : Shape).Idx → EReal
abbrev Tab := (⟨2, ![8, 256]⟩ : Shape).Idx → EReal
/-- One tile of 4096 rows: its labels and its features. -/
abbrev BlkSeg := (⟨2, ![4096, 1]⟩ : Shape).Idx → BitVec 32
abbrev BlkX := (⟨2, ![4096, 256]⟩ : Shape).Idx → EReal

/-- The words 0.0, 1.0 and 1e-3 (as f32 rounds it). -/
def wZero : EReal := Ideal.ofBits .f32 0x00000000#32
def wOne : EReal := Ideal.ofBits .f32 0x3F800000#32
def wEps : EReal := Ideal.ofBits .f32 0x3A83126F#32

/-- Every label is one of 0 … 7. -/
def InRange (seg : SegArr) : Prop := ∀ t : Fin 262144, ∃ d : Fin 8, seg (ix2 t 0) = BitVec.ofNat 32 d.val

/-- Row t's label as a position in a table of 8 (the label itself when it is in range). -/
def dom (seg : SegArr) (t : Fin 262144) : Fin 8 := ⟨(seg (ix2 t 0)).toNat % 8, Nat.mod_lt _ (by decide)⟩

/-- 1 when row t carries label d, else 0. -/
def hot (seg : SegArr) (t : Fin 262144) (d : Fin 8) : EReal :=
  if seg (ix2 t 0) = BitVec.ofNat 32 d.val then 1 else 0

/-- A function of three (two) small coordinates as an array. -/
def arr3 {a b c : Nat} (g : Fin a → Fin b → Fin c → EReal) : (⟨3, ![a, b, c]⟩ : Shape).Idx → EReal :=
  fun i => g ⟨(i 0).val, (i 0).isLt⟩ ⟨(i 1).val, (i 1).isLt⟩ ⟨(i 2).val, (i 2).isLt⟩
def arr2 {a b : Nat} (g : Fin a → Fin b → EReal) : (⟨2, ![a, b]⟩ : Shape).Idx → EReal :=
  fun i => g ⟨(i 0).val, idx2_lt0 i⟩ ⟨(i 1).val, idx2_lt1 i⟩

/-! ## One tile's contribution -/

def bhot (sb : BlkSeg) (k : Fin 4096) (d : Fin 8) : EReal :=
  if sb (ix2 k 0) = BitVec.ofNat 32 d.val then 1 else 0
def bSum1 (sb : BlkSeg) (xb : BlkX) (d : Fin 8) (f : Fin 256) : EReal := ∑ k : Fin 4096, bhot sb k d * xb (ix2 k f)
def bSum2 (sb : BlkSeg) (xb : BlkX) (d : Fin 8) (f : Fin 256) : EReal :=
  ∑ k : Fin 4096, bhot sb k d * (xb (ix2 k f) * xb (ix2 k f))
def bCnt (sb : BlkSeg) (d : Fin 8) : EReal := ∑ k : Fin 4096, bhot sb k d

/-! ## The one-pass form: two halves of 32 tiles each, then the tables, then the one-hot selection -/

/-- Row k of tile s of half c. -/
def rowOf (c : Fin 2) (s : Fin 32) (k : Fin 4096) : Fin 262144 :=
  ⟨(c.val * 32 + s.val) * 4096 + k.val, by have := c.isLt; have := s.isLt; have := k.isLt; omega⟩

/-- Half c's running totals after its 32 tiles, started from the word 0. -/
def pSum1 (x : XArr) (seg : SegArr) (c : Fin 2) (d : Fin 8) (f : Fin 256) : EReal :=
  wZero + ∑ s : Fin 32, ∑ k : Fin 4096, hot seg (rowOf c s k) d * x (ix2 (rowOf c s k) f)
def pSum2 (x : XArr) (seg : SegArr) (c : Fin 2) (d : Fin 8) (f : Fin 256) : EReal :=
  wZero + ∑ s : Fin 32, ∑ k : Fin 4096, hot seg (rowOf c s k) d * (x (ix2 (rowOf c s k) f) * x (ix2 (rowOf c s k) f))
def pCnt (seg : SegArr) (c : Fin 2) (d : Fin 8) : EReal :=
  wZero + ∑ s : Fin 32, ∑ k : Fin 4096, hot seg (rowOf c s k) d

/-- The halves added up (again from the word 0), the count clamped below at 1. -/
def kS1 (x : XArr) (seg : SegArr) (d : Fin 8) (f : Fin 256) : EReal := wZero + ∑ c : Fin 2, pSum1 x seg c d f
def kS2 (x : XArr) (seg : SegArr) (d : Fin 8) (f : Fin 256) : EReal := wZero + ∑ c : Fin 2, pSum2 x seg c d f
def kCnt (seg : SegArr) (d : Fin 8) : EReal := wZero + ∑ c : Fin 2, pCnt seg c d
def kN (seg : SegArr) (d : Fin 8) : EReal := max (kCnt seg d) wOne
def kMean (x : XArr) (seg : SegArr) (d : Fin 8) (f : Fin 256) : EReal := Ideal.div (kS1 x seg d f) (kN seg d)
/-- Mean of squares minus squared mean, clamped below at the word 0. -/
def kVar (x : XArr) (seg : SegArr) (d : Fin 8) (f : Fin 256) : EReal :=
  max (Ideal.div (kS2 x seg d f) (kN seg d) - kMean x seg d f * kMean x seg d f) wZero
def kInv (x : XArr) (seg : SegArr) (d : Fin 8) (f : Fin 256) : EReal := Ideal.rsqrt (kVar x seg d f + wEps)
/-- The slope and the intercept of label d at feature f. -/
def kScale (x : XArr) (seg : SegArr) (gg : Vec1) (dg : Vec8) (d : Fin 8) (f : Fin 256) : EReal :=
  (gg (ix1 0) * dg (ix1 d)) * kInv x seg d f
def kBias (x : XArr) (seg : SegArr) (gg gb : Vec1) (dg db : Vec8) (d : Fin 8) (f : Fin 256) : EReal :=
  (gb (ix1 0) + db (ix1 d)) - kScale x seg gg dg d f * kMean x seg d f

/-- A row against four tables: the one-hot products select the row's label in each, the first pair is the
    slope, the second the intercept. -/
def normAt (seg : SegArr) (x : XArr) (t2 t3 t4 t5 : Tab) (t : Fin 262144) (f : Fin 256) : EReal :=
  x (ix2 t f) * ((∑ d : Fin 8, hot seg t d * t2 (ix2 d f)) + (∑ d : Fin 8, hot seg t d * t3 (ix2 d f)))
    + ((∑ d : Fin 8, hot seg t d * t4 (ix2 d f)) + (∑ d : Fin 8, hot seg t d * t5 (ix2 d f)))
def normOut (seg : SegArr) (x : XArr) (t2 t3 t4 t5 : Tab) : XArr := arr2 (normAt seg x t2 t3 t4 t5)

/-- The one-pass result: slope and intercept each split into itself and the remainder after itself. -/
def Kfun (x : XArr) (seg : SegArr) (gg gb : Vec1) (dg db : Vec8) : XArr :=
  normOut seg x (arr2 (kScale x seg gg dg)) (arr2 fun d f => kScale x seg gg dg d f - kScale x seg gg dg d f)
    (arr2 (kBias x seg gg gb dg db)) (arr2 fun d f => kBias x seg gg gb dg db d f - kBias x seg gg gb dg db d f)

/-! ## The two-pass form -/

def rCnt (seg : SegArr) (d : Fin 8) : EReal :=
  wZero + ∑ t : Fin 262144, if seg (ix2 t 0) = BitVec.ofNat 32 d.val then wOne else 0
def rN (seg : SegArr) (d : Fin 8) : EReal := max (rCnt seg d) wOne
def rS1 (x : XArr) (seg : SegArr) (d : Fin 8) (f : Fin 256) : EReal :=
  wZero + ∑ t : Fin 262144, if seg (ix2 t 0) = BitVec.ofNat 32 d.val then x (ix2 t f) else 0
def rMean (x : XArr) (seg : SegArr) (d : Fin 8) (f : Fin 256) : EReal := Ideal.div (rS1 x seg d f) (rN seg d)
/-- A row centred by its own label's mean. -/
def rCen (x : XArr) (seg : SegArr) (t : Fin 262144) (f : Fin 256) : EReal := x (ix2 t f) - rMean x seg (dom seg t) f
def rS2 (x : XArr) (seg : SegArr) (d : Fin 8) (f : Fin 256) : EReal :=
  wZero + ∑ t : Fin 262144, if seg (ix2 t 0) = BitVec.ofNat 32 d.val then rCen x seg t f * rCen x seg t f else 0
def rVar (x : XArr) (seg : SegArr) (d : Fin 8) (f : Fin 256) : EReal := Ideal.div (rS2 x seg d f) (rN seg d)
def rOut (x : XArr) (seg : SegArr) (gg gb : Vec1) (dg db : Vec8) (t : Fin 262144) (f : Fin 256) : EReal :=
  ((gg (ix1 0) * dg (ix1 (dom seg t))) * (rCen x seg t f * Ideal.rsqrt (rVar x seg (dom seg t) f + wEps)) + gb (ix1 0))
    + db (ix1 (dom seg t))
def Rfun (x : XArr) (seg : SegArr) (gg gb : Vec1) (dg db : Vec8) : XArr := arr2 (rOut x seg gg gb dg db)

end Cert.Spec

end
-- ==== Proof.KStatsStep.lean ====
/-
  One grid point of the statistics pass, read at an index: what each of its three output buffers holds after the
  body, from the tile's labels and features. At the first point of a half (the buffers are zeroed first) each is the
  word 0 plus the tile's contribution; at any other point it is what the point before left plus the tile's
  contribution. The contribution is a one-hot product: for label d, the sum over the tile's rows carrying d of the
  feature (of its square; of 1).
-/
import proofs.«412241_j70480413328182_3_alg».proof.Proof.Gen.KernelIdeal.Frame
import proofs.«412241_j70480413328182_3_alg».proof.Proof.Spec

import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.KStatsStep

open Idealize.ShloMosaic Idealize.ShloMosaic.TcCoe Idealize.SL.Sem Idealize.ShloMosaic.ValueIdx
open Cert.KernelIdeal Cert.KernelIdeal.Gen

variable (c : Dev nD) (i : grid0.Coords) (arg2 : Memref sig .tc .vmem S4096x1 .i32) (harg2 : arg2.IsWhole) (arg3 : Memref sig .tc .vmem S4096x256 .f32) (harg3 : arg3.IsWhole) (arg4 : Memref sig .tc .vmem S1x8x256 .f32) (harg4 : arg4.IsWhole) (arg5 : Memref sig .tc .vmem S1x8x256 .f32) (harg5 : arg5.IsWhole) (arg6 : Memref sig .tc .vmem S1x1x8 .f32) (harg6 : arg6.IsWhole)

/-- The comparison word of two equal words is 1, of two different words 0; widened to 32 bits and read signed it is
    the number 1 or 0. -/
theorem eqWord_toInt {w : Nat} (a b : BitVec w) :
    (((IntOp.cmpi .eq a b).setWidth 32).toInt : ℝ) = if a = b then 1 else 0 := by
  by_cases h : a = b
  · subst h
    have hw : IntOp.cmpi .eq a a = 1#1 := by
      show BitVec.ofBool (a == a) = 1#1
      rw [beq_self_eq_true]; rfl
    rw [hw, if_pos rfl]; norm_num
  · have hb : (a == b) = false := beq_eq_false_iff_ne.mpr h
    have hw : IntOp.cmpi .eq a b = 0#1 := by
      show BitVec.ofBool (a == b) = 0#1
      rw [hb]; rfl
    rw [hw, if_neg h]; norm_num

/-- The one-hot matrix at row k, column d: 1 when row k's label is d, else 0. The label column is broadcast along
    the 8 columns, the iota along axis 1 reads the column number, and the comparison word is widened and converted. -/
theorem hot_entry (x0 : Vec Ideal S4096x1 .i32) (k : Fin 4096) (d : Fin 8) :
    k0_pay5 (F := Ideal) x0 (ix2 k d) = Spec.bhot x0 k d := by
  have hb : broadcastTo S4096x8 x0 broadcasts_S4096x1_S4096x8 (ix2 k d) = x0 (ix2 k 0) :=
    broadcastTo_apply x0 broadcasts_S4096x1_S4096x8 (ix2 k d) (ix2 k 0) (fun a => by
      match a with
      | ⟨0, _⟩ => rfl
      | ⟨1, _⟩ => rfl)
  have hi : iota .tc S4096x8 32 [1] iota_S4096x8_d1_w32 (ix2 k d) = BitVec.ofNat 32 d.val :=
    iota_single_apply .tc S4096x8 32 1 iota_S4096x8_d1_w32 (ix2 k d)
  unfold k0_pay5 Spec.bhot
  show (((((IntOp.cmpi .eq (broadcastTo S4096x8 x0 broadcasts_S4096x1_S4096x8 (ix2 k d))
      (iota .tc S4096x8 32 [1] iota_S4096x8_d1_w32 (ix2 k d))).setWidth 32).toInt : ℝ) : EReal)) = _
  rw [hb, hi, eqWord_toInt]
  split <;> simp

/-! The product's dimension numbers: both operands contract their rows (axis 0) and keep their columns (axis 1). -/

theorem lhs_axis0 (j : S8x256.Idx) (k : dot_S4096x8_S4096x256_S8x256_0_0_1_1_n_n.contr.Idx) :
    (dot_S4096x8_S4096x256_S8x256_0_0_1_1_n_n.lhsIdx j k 0).val = (k ⟨0, by decide⟩).val :=
  DotDims.lhsIdx_val_of_single dot_S4096x8_S4096x256_S8x256_0_0_1_1_n_n (cl := 0) rfl j k
theorem lhs_axis1 (j : S8x256.Idx) (k : dot_S4096x8_S4096x256_S8x256_0_0_1_1_n_n.contr.Idx) :
    (dot_S4096x8_S4096x256_S8x256_0_0_1_1_n_n.lhsIdx j k 1).val = (j 0).val := rfl
theorem rhs_axis0 (j : S8x256.Idx) (k : dot_S4096x8_S4096x256_S8x256_0_0_1_1_n_n.contr.Idx) :
    (dot_S4096x8_S4096x256_S8x256_0_0_1_1_n_n.rhsIdx j k 0).val = (k ⟨0, by decide⟩).val :=
  DotDims.rhsIdx_val_of_single dot_S4096x8_S4096x256_S8x256_0_0_1_1_n_n (cr := 0) rfl j k
theorem rhs_axis1 (j : S8x256.Idx) (k : dot_S4096x8_S4096x256_S8x256_0_0_1_1_n_n.contr.Idx) :
    (dot_S4096x8_S4096x256_S8x256_0_0_1_1_n_n.rhsIdx j k 1).val = (j 1).val := rfl

/-- The product into the zero splat, at (d, f): the sum over the 4096 rows of the left operand's (k, d) entry times
    the right operand's (k, f) entry. -/
theorem rowsProduct_apply (H : FVec Ideal S4096x8 .f32) (X : FVec Ideal S4096x256 .f32) (d : Fin 8) (f : Fin 256) :
    matmul dot_S4096x8_S4096x256_S8x256_0_0_1_1_n_n (some .fp32) H X (constant (F := Ideal) S8x256 .f32 0x00000000#32) (ix2 d f)
      = ∑ k : Fin 4096, H (ix2 k d) * X (ix2 k f) := by
  refine (Ideal.matmul_constant_zero_apply dot_S4096x8_S4096x256_S8x256_0_0_1_1_n_n (some .fp32) H X (ix2 d f)).trans ?_
  rw [← Equiv.sum_comp (contrEquiv1 dot_S4096x8_S4096x256_S8x256_0_0_1_1_n_n 4096 rfl rfl).symm]
  refine Finset.sum_congr rfl fun k _ => ?_
  have hk := contrEquiv1_symm_val dot_S4096x8_S4096x256_S8x256_0_0_1_1_n_n 4096 rfl rfl k
  have hl : dot_S4096x8_S4096x256_S8x256_0_0_1_1_n_n.lhsIdx (ix2 d f)
      ((contrEquiv1 dot_S4096x8_S4096x256_S8x256_0_0_1_1_n_n 4096 rfl rfl).symm k) = ix2 k d :=
    funext fun a => Fin.ext (by
      match a with
      | ⟨0, _⟩ => exact (lhs_axis0 _ _).trans hk
      | ⟨1, _⟩ => exact lhs_axis1 _ _)
  have hr : dot_S4096x8_S4096x256_S8x256_0_0_1_1_n_n.rhsIdx (ix2 d f)
      ((contrEquiv1 dot_S4096x8_S4096x256_S8x256_0_0_1_1_n_n 4096 rfl rfl).symm k) = ix2 k f :=
    funext fun a => Fin.ext (by
      match a with
      | ⟨0, _⟩ => exact (rhs_axis0 _ _).trans hk
      | ⟨1, _⟩ => exact rhs_axis1 _ _)
  rw [hl, hr]

/-- The running sums' update at (0, d, f): what was there plus the one-hot product's (d, f) entry. -/
theorem sums_apply (x1 : Vec Ideal S4096x256 .f32) (x0 : Vec Ideal S4096x1 .i32) (acc : Vec Ideal S1x8x256 .f32) (d : Fin 8) (f : Fin 256) :
    k0_pay6 (F := Ideal) x1 x0 acc (ix3 0 d f) = acc (ix3 0 d f) + Spec.bSum1 x0 x1 d f := by
  unfold k0_pay6 Spec.bSum1
  refine (shapeCast_ab_1ab_apply _ shapeCasts_S8x256_S1x8x256 0 d f).trans ?_
  refine (addf_apply _ _ (ix2 d f)).trans ?_
  refine congrArg₂ (· + ·) (shapeCast_1ab_ab_apply acc shapeCasts_S1x8x256_S8x256 d f) ?_
  refine (rowsProduct_apply (k0_pay5 (F := Ideal) x0) x1 d f).trans ?_
  exact Finset.sum_congr rfl fun k _ => congrArg (· * x1 (ix2 k f)) (hot_entry x0 k d)

/-- The running sums of squares likewise, the features squared entry by entry first. -/
theorem squares_apply (x1 : Vec Ideal S4096x256 .f32) (x0 : Vec Ideal S4096x1 .i32) (acc : Vec Ideal S1x8x256 .f32) (d : Fin 8) (f : Fin 256) :
    k0_pay7 (F := Ideal) x1 x0 acc (ix3 0 d f) = acc (ix3 0 d f) + Spec.bSum2 x0 x1 d f := by
  unfold k0_pay7 Spec.bSum2
  refine (shapeCast_ab_1ab_apply _ shapeCasts_S8x256_S1x8x256 0 d f).trans ?_
  refine (addf_apply _ _ (ix2 d f)).trans ?_
  refine congrArg₂ (· + ·) (shapeCast_1ab_ab_apply acc shapeCasts_S1x8x256_S8x256 d f) ?_
  refine (rowsProduct_apply (k0_pay5 (F := Ideal) x0) (mulf x1 x1) d f).trans ?_
  exact Finset.sum_congr rfl fun k _ => congrArg₂ (· * ·) (hot_entry x0 k d) (mulf_apply x1 x1 (ix2 k f))

/-- The running counts' update at (0, 0, d): what was there plus the number of the tile's rows labelled d (the sum
    of the one-hot matrix's column d over its 4096 rows). -/
theorem counts_apply (x0 : Vec Ideal S4096x1 .i32) (acc : Vec Ideal S1x1x8 .f32) (d : Fin 8) :
    k0_pay1 (F := Ideal) (k0_pay8 (F := Ideal) x0 acc) (ix3 0 0 d) = acc (ix3 0 0 d) + Spec.bCnt x0 d := by
  unfold k0_pay1 k0_pay8 Spec.bCnt
  refine (shapeCast_ab_1ab_apply _ shapeCasts_S1x8_S1x1x8 0 0 d).trans ?_
  refine (addf_apply _ _ (ix2 0 d)).trans ?_
  refine congrArg₂ (· + ·) (shapeCast_1ab_ab_apply acc shapeCasts_S1x1x8_S1x8 0 d) ?_
  refine (shapeCast_a_1a_apply _ shapeCasts_S8_S1x8 0 d).trans ?_
  refine (Ideal.multiReduction_add_single (k0_pay5 (F := Ideal) x0) 0x00000000#32 reduces_S4096x8_S8 (.inl rfl) rfl (ix1 d)).trans ?_
  refine Finset.sum_congr rfl fun k _ => ?_
  have hl : reduces_S4096x8_S8.lift (ix1 d) k = ix2 k d :=
    funext fun a => Fin.ext (by
      match a with
      | ⟨0, _⟩ => rfl
      | ⟨1, _⟩ => rfl)
  rw [hl]
  exact hot_entry x0 k d

/-! The three output buffers after the body, as whole vectors. At a point that is not the first of its half each
    buffer is stored once, with the update of what the point before left; at the first point it is stored twice, the
    zero splat and then the update of that splat read back. -/

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

theorem out0_B_2_eq (hc0 : ¬cond0_0 i) (x0 : Vec F S4096x1 .i32) (x1 : Vec F S4096x256 .f32)
    (xo2 xo3 : Vec F S1x8x256 .f32) (xo4 : Vec F S1x1x8 .f32) :
    out0_B_2 (F := F) c i arg2 harg2 arg3 harg3 arg4 harg4 arg5 harg5 arg6 harg6 hc0 x0 x1 xo2 xo3 xo4 = k0_pay6 x1 x0 xo2 := by
  unfold out0_B_2
  rw [View.read_writes_eq_canon _ _ _ (cover0_B_2 c i arg2 harg2 arg3 harg3 arg4 harg4 arg5 harg5 arg6 harg6 hc0 x0 x1 xo2 xo3 xo4)]
  unfold kernelRun0_B
  dsimp only
  sl_unfold_words
  rw [View.canon_unit_zero hz3]
  simp only [View.readAt_eq_ld, harg2.read_unread, harg3.read_unread, harg4.read_unread, View.ld_unit_zero (S := S4096x256) hz2, View.ld_unit_zero (S := S4096x1) hz2, View.ld_unit_zero (S := S1x8x256) hz3]

theorem out0_B_3_eq (hc0 : ¬cond0_0 i) (x0 : Vec F S4096x1 .i32) (x1 : Vec F S4096x256 .f32)
    (xo2 xo3 : Vec F S1x8x256 .f32) (xo4 : Vec F S1x1x8 .f32) :
    out0_B_3 (F := F) c i arg2 harg2 arg3 harg3 arg4 harg4 arg5 harg5 arg6 harg6 hc0 x0 x1 xo2 xo3 xo4 = k0_pay7 x1 x0 xo3 := by
  unfold out0_B_3
  rw [View.read_writes_eq_canon _ _ _ (cover0_B_3 c i arg2 harg2 arg3 harg3 arg4 harg4 arg5 harg5 arg6 harg6 hc0 x0 x1 xo2 xo3 xo4)]
  unfold kernelRun0_B
  dsimp only
  sl_unfold_words
  rw [View.canon_unit_zero hz3]
  simp only [View.readAt_eq_ld, harg2.read_unread, harg3.read_unread, harg5.read_unread, View.ld_unit_zero (S := S4096x256) hz2, View.ld_unit_zero (S := S4096x1) hz2, View.ld_unit_zero (S := S1x8x256) hz3]

theorem out0_B_4_eq (hc0 : ¬cond0_0 i) (x0 : Vec F S4096x1 .i32) (x1 : Vec F S4096x256 .f32)
    (xo2 xo3 : Vec F S1x8x256 .f32) (xo4 : Vec F S1x1x8 .f32) :
    out0_B_4 (F := F) c i arg2 harg2 arg3 harg3 arg4 harg4 arg5 harg5 arg6 harg6 hc0 x0 x1 xo2 xo3 xo4 = k0_pay1 (k0_pay8 x0 xo4) := by
  unfold out0_B_4
  rw [View.read_writes_eq_canon _ _ _ (cover0_B_4 c i arg2 harg2 arg3 harg3 arg4 harg4 arg5 harg5 arg6 harg6 hc0 x0 x1 xo2 xo3 xo4)]
  unfold kernelRun0_B
  dsimp only
  sl_unfold_words
  rw [View.canon_unit_zero hz3]
  simp only [View.readAt_eq_ld, harg2.read_unread, harg6.read_unread, View.ld_unit_zero (S := S4096x1) hz2, View.ld_unit_zero (S := S1x1x8) hz3]

theorem out0_A_2_eq (hc0 : cond0_0 i) (x0 : Vec F S4096x1 .i32) (x1 : Vec F S4096x256 .f32) :
    out0_A_2 (F := F) c i arg2 harg2 arg3 harg3 arg4 harg4 arg5 harg5 arg6 harg6 hc0 x0 x1 = k0_pay6 x1 x0 (k0_pay2 (F := F)) := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  rw [View.canon_cons_unit_zero (S := S1x8x256) hz3]
  simp only [View.readAt_eq_ld, harg2.read_unread, harg3.read_unread, View.ld_unit_zero (S := S4096x256) hz2, View.ld_unit_zero (S := S4096x1) hz2, View.readCov_unit_zero (S := S1x8x256) _ hz3]

theorem out0_A_3_eq (hc0 : cond0_0 i) (x0 : Vec F S4096x1 .i32) (x1 : Vec F S4096x256 .f32) :
    out0_A_3 (F := F) c i arg2 harg2 arg3 harg3 arg4 harg4 arg5 harg5 arg6 harg6 hc0 x0 x1 = k0_pay7 x1 x0 (k0_pay3 (F := F)) := by
  unfold out0_A_3
  rw [View.read_writes_eq_canon _ _ _ (cover0_A_3 c i arg2 harg2 arg3 harg3 arg4 harg4 arg5 harg5 arg6 harg6 hc0 x0 x1)]
  unfold kernelRun0_A
  dsimp only
  sl_unfold_words
  rw [View.canon_cons_unit_zero (S := S1x8x256) hz3]
  simp only [View.readAt_eq_ld, harg2.read_unread, harg3.read_unread, View.ld_unit_zero (S := S4096x256) hz2, View.ld_unit_zero (S := S4096x1) hz2, View.readCov_unit_zero (S := S1x8x256) _ hz3]

theorem out0_A_4_eq (hc0 : cond0_0 i) (x0 : Vec F S4096x1 .i32) (x1 : Vec F S4096x256 .f32) :
    out0_A_4 (F := F) c i arg2 harg2 arg3 harg3 arg4 harg4 arg5 harg5 arg6 harg6 hc0 x0 x1 = k0_pay1 (k0_pay8 x0 (k0_pay4 (F := F))) := by
  unfold out0_A_4
  rw [View.read_writes_eq_canon _ _ _ (cover0_A_4 c i arg2 harg2 arg3 harg3 arg4 harg4 arg5 harg5 arg6 harg6 hc0 x0 x1)]
  unfold kernelRun0_A
  dsimp only
  sl_unfold_words
  rw [View.canon_cons_unit_zero (S := S1x1x8) hz3]
  simp only [View.readAt_eq_ld, harg2.read_unread, View.ld_unit_zero (S := S4096x1) hz2, View.readCov_unit_zero (S := S1x1x8) _ hz3]

end Pieces

/-- First point of a half: the sums start from the word 0. -/
theorem out0_A_2_apply (hc0 : cond0_0 i) (x0 : Vec Ideal S4096x1 .i32) (x1 : Vec Ideal S4096x256 .f32) (d : Fin 8) (f : Fin 256) :
    out0_A_2 (F := Ideal) c i arg2 harg2 arg3 harg3 arg4 harg4 arg5 harg5 arg6 harg6 hc0 x0 x1 (ix3 0 d f) = Spec.wZero + Spec.bSum1 x0 x1 d f := by
  refine (congrFun (out0_A_2_eq (F := Ideal) c i arg2 harg2 arg3 harg3 arg4 harg4 arg5 harg5 arg6 harg6 hc0 x0 x1) (ix3 0 d f)).trans ?_
  exact sums_apply x1 x0 (k0_pay2 (F := Ideal)) d f

theorem out0_A_3_apply (hc0 : cond0_0 i) (x0 : Vec Ideal S4096x1 .i32) (x1 : Vec Ideal S4096x256 .f32) (d : Fin 8) (f : Fin 256) :
    out0_A_3 (F := Ideal) c i arg2 harg2 arg3 harg3 arg4 harg4 arg5 harg5 arg6 harg6 hc0 x0 x1 (ix3 0 d f) = Spec.wZero + Spec.bSum2 x0 x1 d f := by
  refine (congrFun (out0_A_3_eq (F := Ideal) c i arg2 harg2 arg3 harg3 arg4 harg4 arg5 harg5 arg6 harg6 hc0 x0 x1) (ix3 0 d f)).trans ?_
  exact squares_apply x1 x0 (k0_pay3 (F := Ideal)) d f

theorem out0_A_4_apply (hc0 : cond0_0 i) (x0 : Vec Ideal S4096x1 .i32) (x1 : Vec Ideal S4096x256 .f32) (d : Fin 8) :
    out0_A_4 (F := Ideal) c i arg2 harg2 arg3 harg3 arg4 harg4 arg5 harg5 arg6 harg6 hc0 x0 x1 (ix3 0 0 d) = Spec.wZero + Spec.bCnt x0 d := by
  refine (congrFun (out0_A_4_eq (F := Ideal) c i arg2 harg2 arg3 harg3 arg4 harg4 arg5 harg5 arg6 harg6 hc0 x0 x1) (ix3 0 0 d)).trans ?_
  exact counts_apply x0 (k0_pay4 (F := Ideal)) d

/-- Any other point: the tile's contribution on top of what the point before left. -/
theorem out0_B_2_apply (hc0 : ¬cond0_0 i) (x0 : Vec Ideal S4096x1 .i32) (x1 : Vec Ideal S4096x256 .f32)
    (xo2 xo3 : Vec Ideal S1x8x256 .f32) (xo4 : Vec Ideal S1x1x8 .f32) (d : Fin 8) (f : Fin 256) :
    out0_B_2 (F := Ideal) c i arg2 harg2 arg3 harg3 arg4 harg4 arg5 harg5 arg6 harg6 hc0 x0 x1 xo2 xo3 xo4 (ix3 0 d f) = xo2 (ix3 0 d f) + Spec.bSum1 x0 x1 d f := by
  refine (congrFun (out0_B_2_eq (F := Ideal) c i arg2 harg2 arg3 harg3 arg4 harg4 arg5 harg5 arg6 harg6 hc0 x0 x1 xo2 xo3 xo4) (ix3 0 d f)).trans ?_
  exact sums_apply x1 x0 xo2 d f

theorem out0_B_3_apply (hc0 : ¬cond0_0 i) (x0 : Vec Ideal S4096x1 .i32) (x1 : Vec Ideal S4096x256 .f32)
    (xo2 xo3 : Vec Ideal S1x8x256 .f32) (xo4 : Vec Ideal S1x1x8 .f32) (d : Fin 8) (f : Fin 256) :
    out0_B_3 (F := Ideal) c i arg2 harg2 arg3 harg3 arg4 harg4 arg5 harg5 arg6 harg6 hc0 x0 x1 xo2 xo3 xo4 (ix3 0 d f) = xo3 (ix3 0 d f) + Spec.bSum2 x0 x1 d f := by
  refine (congrFun (out0_B_3_eq (F := Ideal) c i arg2 harg2 arg3 harg3 arg4 harg4 arg5 harg5 arg6 harg6 hc0 x0 x1 xo2 xo3 xo4) (ix3 0 d f)).trans ?_
  exact squares_apply x1 x0 xo3 d f

theorem out0_B_4_apply (hc0 : ¬cond0_0 i) (x0 : Vec Ideal S4096x1 .i32) (x1 : Vec Ideal S4096x256 .f32)
    (xo2 xo3 : Vec Ideal S1x8x256 .f32) (xo4 : Vec Ideal S1x1x8 .f32) (d : Fin 8) :
    out0_B_4 (F := Ideal) c i arg2 harg2 arg3 harg3 arg4 harg4 arg5 harg5 arg6 harg6 hc0 x0 x1 xo2 xo3 xo4 (ix3 0 0 d) = xo4 (ix3 0 0 d) + Spec.bCnt x0 d := by
  refine (congrFun (out0_B_4_eq (F := Ideal) c i arg2 harg2 arg3 harg3 arg4 harg4 arg5 harg5 arg6 harg6 hc0 x0 x1 xo2 xo3 xo4) (ix3 0 0 d)).trans ?_
  exact counts_apply x0 xo4 d

end Cert.KernelIdeal.KStatsStep

end
-- ==== Proof.KStats.lean ====
/-
  The statistics pass as whole arrays. Each half of the grid (32 points) revisits one block of each output: the
  block is zeroed at the half's first point, every point adds its tile's contribution, and the half's last point
  writes the block back. So entry (c, d, f) of the sums array is the word 0 plus, over the 32 tiles of half c and the
  4096 rows of each, the feature f of the rows labelled d; likewise the squares and the counts.
-/
import proofs.«412241_j70480413328182_3_alg».proof.Proof.Gen.KernelIdeal.Frame
import proofs.«412241_j70480413328182_3_alg».proof.Proof.Spec
import proofs.«412241_j70480413328182_3_alg».proof.Proof.KStatsStep
import Idealize.ShloMosaic.Lib.ValueIdx
import Idealize.ShloMosaic.Lib.Pipeline.Value
import Idealize.ShloMosaic.PureOps.Ideal.Laws

set_option maxRecDepth 16384

noncomputable section

namespace Cert.KernelIdeal.KStats

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The labels and the features as whole arrays, and a tile's block of each, named at their literal types. -/
abbrev segArr (c : Dev nD) : Spec.SegArr := V c main_arg1
abbrev xArr (c : Dev nD) : Spec.XArr := V c main_arg0
abbrev segBlk (c : Dev nD) (t : Fin cfg0.N) : Vec Ideal S4096x1 .i32 := iblk0 (F := Ideal) V c 0 t
abbrev xBlk (c : Dev nD) (t : Fin cfg0.N) : Vec Ideal S4096x256 .f32 := iblk0 (F := Ideal) V c 1 t

theorem hN : cfg0.N = 64 := N_0

/-! ## Where a tile sits in the arrays -/

/-- Point t reads tile t of the labels and of the features: block index (t, 0) of both. -/
theorem idx_in : ∀ t : Fin cfg0.N, (win0_0.index t 0 = t.val ∧ win0_0.index t 1 = 0) ∧ (win0_1.index t 0 = t.val ∧ win0_1.index t 1 = 0) :=
  (by decide +kernel : ∀ t : Fin grid0.N, (win0_0.index t 0 = t.val ∧ win0_0.index t 1 = 0) ∧ (win0_1.index t 0 = t.val ∧ win0_1.index t 1 = 0))

/-- Every point of half c revisits block (c, 0, 0) of each output, c = t / 32. -/
theorem idx_out : ∀ t : Fin cfg0.N, (win0_2.index t 0 = t.val / 32 ∧ win0_2.index t 1 = 0 ∧ win0_2.index t 2 = 0)
      ∧ (win0_3.index t 0 = t.val / 32 ∧ win0_3.index t 1 = 0 ∧ win0_3.index t 2 = 0)
      ∧ (win0_4.index t 0 = t.val / 32 ∧ win0_4.index t 1 = 0 ∧ win0_4.index t 2 = 0) :=
  (by decide +kernel : ∀ t : Fin grid0.N, (win0_2.index t 0 = t.val / 32 ∧ win0_2.index t 1 = 0 ∧ win0_2.index t 2 = 0)
      ∧ (win0_3.index t 0 = t.val / 32 ∧ win0_3.index t 1 = 0 ∧ win0_3.index t 2 = 0)
      ∧ (win0_4.index t 0 = t.val / 32 ∧ win0_4.index t 1 = 0 ∧ win0_4.index t 2 = 0))

/-- Row k of tile t's labels is row 4096 t + k of the labels. -/
theorem segBlk_apply (c : Dev nD) (t : Fin cfg0.N) (k : Fin 4096) (r : Fin 262144) (hr : r.val = t.val * 4096 + k.val) :
    segBlk V c t (ix2 k 0) = segArr V c (ix2 r 0) := by
  unfold segBlk iblk0
  rw [View.read_apply]
  show V c main_arg1 (((cfg0.win 0).blk t).view.emb (ix2 k 0)) = V c main_arg1 (ix2 r 0)
  congr 1
  funext a
  apply Fin.ext
  match a with
  | ⟨0, _⟩ => show win0_0.index t 0 * 4096 + 1 * k.val = r.val; rw [(idx_in t).1.1]; omega
  | ⟨1, _⟩ => show win0_0.index t 1 * 1 + 1 * 0 = 0; rw [(idx_in t).1.2]

/-- Row k of tile t's features is row 4096 t + k of the features, feature by feature. -/
theorem xBlk_apply (c : Dev nD) (t : Fin cfg0.N) (k : Fin 4096) (f : Fin 256) (r : Fin 262144) (hr : r.val = t.val * 4096 + k.val) :
    xBlk V c t (ix2 k f) = xArr V c (ix2 r f) := by
  unfold xBlk iblk0
  rw [View.read_apply]
  show V c main_arg0 (((cfg0.win 1).blk t).view.emb (ix2 k f)) = V c main_arg0 (ix2 r f)
  congr 1
  funext a
  apply Fin.ext
  match a with
  | ⟨0, _⟩ => show win0_1.index t 0 * 4096 + 1 * k.val = r.val; rw [(idx_in t).2.1]; omega
  | ⟨1, _⟩ => show win0_1.index t 1 * 256 + 1 * f.val = f.val; rw [(idx_in t).2.2]; omega

/-- A tile's indicator of label d at its row k is the array's at the row the tile's row is. -/
theorem bhot_eq (sb : Spec.BlkSeg) (seg : Spec.SegArr) (k : Fin 4096) (r : Fin 262144) (d : Fin 8)
    (h : sb (ix2 k 0) = seg (ix2 r 0)) : Spec.bhot sb k d = Spec.hot seg r d := by
  unfold Spec.bhot Spec.hot; rw [h]

/-- Row k of tile s of half c is row k of the tile read at point 32 c + s. -/
theorem row_val (cc : Fin 2) (s : Fin 32) (k : Fin 4096) (h : 32 * cc.val + s.val < cfg0.N) :
    (Spec.rowOf cc s k).val = (⟨32 * cc.val + s.val, h⟩ : Fin cfg0.N).val * 4096 + k.val := by
  show (cc.val * 32 + s.val) * 4096 + k.val = (32 * cc.val + s.val) * 4096 + k.val
  omega

/-! ## The accumulation over a half -/

/-- A quantity of the grid's points that is the word 0 plus the point's addend at the first point of each half, and
    its predecessor's value plus the point's addend elsewhere, is at a half's last point the word 0 plus the half's
    32 addends. -/
theorem fold_half {ι : Type} (f : (n : ℕ) → n < cfg0.N → ι → EReal) (M : ℕ → ι → EReal)
    (h0 : ∀ (n : ℕ) (h : n < cfg0.N), n % 32 = 0 → ∀ i, f n h i = Spec.wZero + M n i)
    (hs : ∀ (n : ℕ) (h : n + 1 < cfg0.N), ¬(n + 1) % 32 = 0 → ∀ i, f (n + 1) h i = f n (Nat.lt_of_succ_lt h) i + M (n + 1) i)
    (q : ℕ) (h : 32 * q + 31 < cfg0.N) (i : ι) :
    f (32 * q + 31) h i = Spec.wZero + ∑ s ∈ Finset.range 32, M (32 * q + s) i := by
  have e := Pipeline.eq_accAt (N := cfg0.N) f 32 (fun n _ i => Spec.wZero + M n i) (fun n _ acc i => acc i + M n i)
    (fun n hn hm => funext (h0 n hn hm)) (fun n hn hm => funext (hs n hn hm)) q 31 (by decide) h
  rw [e]
  exact Pipeline.accAt_add_apply (N := cfg0.N) (fun n _ i => Spec.wZero + M n i) (fun n _ acc i => acc i + M n i)
    (fun _ => Spec.wZero) M (32 * q) 31 (fun _ _ => rfl) (fun _ _ _ _ _ _ => rfl) 31 le_rfl h i

/-- Tile n's addends: to the sums, to the squares, to the counts (nothing past the grid). -/
def tile1 (c : Dev nD) (n : ℕ) (p : Fin 8 × Fin 256) : EReal :=
  if h : n < cfg0.N then Spec.bSum1 (segBlk V c ⟨n, h⟩) (xBlk V c ⟨n, h⟩) p.1 p.2 else 0
def tile2 (c : Dev nD) (n : ℕ) (p : Fin 8 × Fin 256) : EReal :=
  if h : n < cfg0.N then Spec.bSum2 (segBlk V c ⟨n, h⟩) (xBlk V c ⟨n, h⟩) p.1 p.2 else 0
def tileC (c : Dev nD) (n : ℕ) (d : Fin 8) : EReal :=
  if h : n < cfg0.N then Spec.bCnt (segBlk V c ⟨n, h⟩) d else 0

/-- After the last point of half q the sums block holds the word 0 plus the half's 32 tile sums. -/
theorem run1 (c : Dev nD) (q : ℕ) (h : 32 * q + 31 < cfg0.N) (d : Fin 8) (f : Fin 256) :
    (outsAt0 V c (32 * q + 31) h).1 (ix3 0 d f) = Spec.wZero + ∑ s ∈ Finset.range 32, tile1 V c (32 * q + s) (d, f) := by
  refine fold_half (fun n hn (p : Fin 8 × Fin 256) => ((outsAt0 V c n hn).1 (ix3 0 p.1 p.2) : EReal)) (tile1 V c) ?_ ?_ q h (d, f)
  · intro n hn hm p
    show (outsAt0 V c n hn).1 (ix3 0 p.1 p.2) = Spec.wZero + tile1 V c n p
    rw [outsAt0_A V c ⟨n, hn⟩ hm]
    dsimp only
    rw [tile1, dif_pos hn]
    exact KStatsStep.out0_A_2_apply c (grid0.coords ⟨n, hn⟩) (ms0_0 ⟨n, hn⟩) (hs0_0 ⟨n, hn⟩) (ms0_1 ⟨n, hn⟩) (hs0_1 ⟨n, hn⟩)
      (ms0_2 ⟨n, hn⟩) (hs0_2 ⟨n, hn⟩) (ms0_3 ⟨n, hn⟩) (hs0_3 ⟨n, hn⟩) (ms0_4 ⟨n, hn⟩) (hs0_4 ⟨n, hn⟩)
      ((hcond0_0 ⟨n, hn⟩).mpr hm) (segBlk V c ⟨n, hn⟩) (xBlk V c ⟨n, hn⟩) p.1 p.2
  · intro n hn hm p
    show (outsAt0 V c (n + 1) hn).1 (ix3 0 p.1 p.2) = (outsAt0 V c n (Nat.lt_of_succ_lt hn)).1 (ix3 0 p.1 p.2) + tile1 V c (n + 1) p
    rw [outsAt0_B V c ⟨n + 1, hn⟩ hm]
    dsimp only
    rw [tile1, dif_pos hn]
    exact KStatsStep.out0_B_2_apply c (grid0.coords ⟨n + 1, hn⟩) (ms0_0 ⟨n + 1, hn⟩) (hs0_0 ⟨n + 1, hn⟩) (ms0_1 ⟨n + 1, hn⟩) (hs0_1 ⟨n + 1, hn⟩)
      (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩)
      (fun hc => hm ((hcond0_0 ⟨n + 1, hn⟩).mp hc)) (segBlk V c ⟨n + 1, hn⟩) (xBlk V c ⟨n + 1, hn⟩)
      (outsAt0 V c n (Nat.lt_of_succ_lt hn)).1 (outsAt0 V c n (Nat.lt_of_succ_lt hn)).2.1 (outsAt0 V c n (Nat.lt_of_succ_lt hn)).2.2 p.1 p.2

/-- After the last point of half q the squares block holds the word 0 plus the half's 32 tile sums of squares. -/
theorem run2 (c : Dev nD) (q : ℕ) (h : 32 * q + 31 < cfg0.N) (d : Fin 8) (f : Fin 256) :
    (outsAt0 V c (32 * q + 31) h).2.1 (ix3 0 d f) = Spec.wZero + ∑ s ∈ Finset.range 32, tile2 V c (32 * q + s) (d, f) := by
  refine fold_half (fun n hn (p : Fin 8 × Fin 256) => ((outsAt0 V c n hn).2.1 (ix3 0 p.1 p.2) : EReal)) (tile2 V c) ?_ ?_ q h (d, f)
  · intro n hn hm p
    show (outsAt0 V c n hn).2.1 (ix3 0 p.1 p.2) = Spec.wZero + tile2 V c n p
    rw [outsAt0_A V c ⟨n, hn⟩ hm]
    dsimp only
    rw [tile2, dif_pos hn]
    exact KStatsStep.out0_A_3_apply c (grid0.coords ⟨n, hn⟩) (ms0_0 ⟨n, hn⟩) (hs0_0 ⟨n, hn⟩) (ms0_1 ⟨n, hn⟩) (hs0_1 ⟨n, hn⟩)
      (ms0_2 ⟨n, hn⟩) (hs0_2 ⟨n, hn⟩) (ms0_3 ⟨n, hn⟩) (hs0_3 ⟨n, hn⟩) (ms0_4 ⟨n, hn⟩) (hs0_4 ⟨n, hn⟩)
      ((hcond0_0 ⟨n, hn⟩).mpr hm) (segBlk V c ⟨n, hn⟩) (xBlk V c ⟨n, hn⟩) p.1 p.2
  · intro n hn hm p
    show (outsAt0 V c (n + 1) hn).2.1 (ix3 0 p.1 p.2) = (outsAt0 V c n (Nat.lt_of_succ_lt hn)).2.1 (ix3 0 p.1 p.2) + tile2 V c (n + 1) p
    rw [outsAt0_B V c ⟨n + 1, hn⟩ hm]
    dsimp only
    rw [tile2, dif_pos hn]
    exact KStatsStep.out0_B_3_apply c (grid0.coords ⟨n + 1, hn⟩) (ms0_0 ⟨n + 1, hn⟩) (hs0_0 ⟨n + 1, hn⟩) (ms0_1 ⟨n + 1, hn⟩) (hs0_1 ⟨n + 1, hn⟩)
      (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩)
      (fun hc => hm ((hcond0_0 ⟨n + 1, hn⟩).mp hc)) (segBlk V c ⟨n + 1, hn⟩) (xBlk V c ⟨n + 1, hn⟩)
      (outsAt0 V c n (Nat.lt_of_succ_lt hn)).1 (outsAt0 V c n (Nat.lt_of_succ_lt hn)).2.1 (outsAt0 V c n (Nat.lt_of_succ_lt hn)).2.2 p.1 p.2

/-- After the last point of half q the counts block holds the word 0 plus the half's 32 tile counts. -/
theorem runC (c : Dev nD) (q : ℕ) (h : 32 * q + 31 < cfg0.N) (d : Fin 8) :
    (outsAt0 V c (32 * q + 31) h).2.2 (ix3 0 0 d) = Spec.wZero + ∑ s ∈ Finset.range 32, tileC V c (32 * q + s) d := by
  refine fold_half (fun n hn (p : Fin 8) => ((outsAt0 V c n hn).2.2 (ix3 0 0 p) : EReal)) (tileC V c) ?_ ?_ q h d
  · intro n hn hm p
    show (outsAt0 V c n hn).2.2 (ix3 0 0 p) = Spec.wZero + tileC V c n p
    rw [outsAt0_A V c ⟨n, hn⟩ hm]
    dsimp only
    rw [tileC, dif_pos hn]
    exact KStatsStep.out0_A_4_apply c (grid0.coords ⟨n, hn⟩) (ms0_0 ⟨n, hn⟩) (hs0_0 ⟨n, hn⟩) (ms0_1 ⟨n, hn⟩) (hs0_1 ⟨n, hn⟩)
      (ms0_2 ⟨n, hn⟩) (hs0_2 ⟨n, hn⟩) (ms0_3 ⟨n, hn⟩) (hs0_3 ⟨n, hn⟩) (ms0_4 ⟨n, hn⟩) (hs0_4 ⟨n, hn⟩)
      ((hcond0_0 ⟨n, hn⟩).mpr hm) (segBlk V c ⟨n, hn⟩) (xBlk V c ⟨n, hn⟩) p
  · intro n hn hm p
    show (outsAt0 V c (n + 1) hn).2.2 (ix3 0 0 p) = (outsAt0 V c n (Nat.lt_of_succ_lt hn)).2.2 (ix3 0 0 p) + tileC V c (n + 1) p
    rw [outsAt0_B V c ⟨n + 1, hn⟩ hm]
    dsimp only
    rw [tileC, dif_pos hn]
    exact KStatsStep.out0_B_4_apply c (grid0.coords ⟨n + 1, hn⟩) (ms0_0 ⟨n + 1, hn⟩) (hs0_0 ⟨n + 1, hn⟩) (ms0_1 ⟨n + 1, hn⟩) (hs0_1 ⟨n + 1, hn⟩)
      (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩)
      (fun hc => hm ((hcond0_0 ⟨n + 1, hn⟩).mp hc)) (segBlk V c ⟨n + 1, hn⟩) (xBlk V c ⟨n + 1, hn⟩)
      (outsAt0 V c n (Nat.lt_of_succ_lt hn)).1 (outsAt0 V c n (Nat.lt_of_succ_lt hn)).2.1 (outsAt0 V c n (Nat.lt_of_succ_lt hn)).2.2 p

/-! ## A tile's addends over the arrays' rows -/

theorem tile1_eq (c : Dev nD) (cc : Fin 2) (s : Fin 32) (d : Fin 8) (f : Fin 256) :
    tile1 V c (32 * cc.val + s.val) (d, f)
      = ∑ k : Fin 4096, Spec.hot (segArr V c) (Spec.rowOf cc s k) d * xArr V c (ix2 (Spec.rowOf cc s k) f) := by
  have h : 32 * cc.val + s.val < cfg0.N := by rw [hN]; omega
  rw [tile1, dif_pos h]
  unfold Spec.bSum1
  refine Finset.sum_congr rfl fun k _ => ?_
  rw [bhot_eq _ (segArr V c) k (Spec.rowOf cc s k) d (segBlk_apply V c ⟨_, h⟩ k (Spec.rowOf cc s k) (row_val cc s k h)),
    xBlk_apply V c ⟨_, h⟩ k f (Spec.rowOf cc s k) (row_val cc s k h)]

theorem tile2_eq (c : Dev nD) (cc : Fin 2) (s : Fin 32) (d : Fin 8) (f : Fin 256) :
    tile2 V c (32 * cc.val + s.val) (d, f)
      = ∑ k : Fin 4096, Spec.hot (segArr V c) (Spec.rowOf cc s k) d
          * (xArr V c (ix2 (Spec.rowOf cc s k) f) * xArr V c (ix2 (Spec.rowOf cc s k) f)) := by
  have h : 32 * cc.val + s.val < cfg0.N := by rw [hN]; omega
  rw [tile2, dif_pos h]
  unfold Spec.bSum2
  refine Finset.sum_congr rfl fun k _ => ?_
  rw [bhot_eq _ (segArr V c) k (Spec.rowOf cc s k) d (segBlk_apply V c ⟨_, h⟩ k (Spec.rowOf cc s k) (row_val cc s k h)),
    xBlk_apply V c ⟨_, h⟩ k f (Spec.rowOf cc s k) (row_val cc s k h)]

theorem tileC_eq (c : Dev nD) (cc : Fin 2) (s : Fin 32) (d : Fin 8) :
    tileC V c (32 * cc.val + s.val) d = ∑ k : Fin 4096, Spec.hot (segArr V c) (Spec.rowOf cc s k) d := by
  have h : 32 * cc.val + s.val < cfg0.N := by rw [hN]; omega
  rw [tileC, dif_pos h]
  unfold Spec.bCnt
  refine Finset.sum_congr rfl fun k _ => ?_
  exact bhot_eq _ (segArr V c) k (Spec.rowOf cc s k) d (segBlk_apply V c ⟨_, h⟩ k (Spec.rowOf cc s k) (row_val cc s k h))

/-- So the blocks a half's last point leaves are the half's totals. -/
theorem last1 (c : Dev nD) (cc : Fin 2) (d : Fin 8) (f : Fin 256) (h : 32 * cc.val + 31 < cfg0.N) :
    (outsAt0 V c (32 * cc.val + 31) h).1 (ix3 0 d f) = Spec.pSum1 (xArr V c) (segArr V c) cc d f := by
  rw [run1 V c cc.val h d f, Finset.sum_range]
  unfold Spec.pSum1
  exact congrArg _ (Finset.sum_congr rfl fun s _ => tile1_eq V c cc s d f)

theorem last2 (c : Dev nD) (cc : Fin 2) (d : Fin 8) (f : Fin 256) (h : 32 * cc.val + 31 < cfg0.N) :
    (outsAt0 V c (32 * cc.val + 31) h).2.1 (ix3 0 d f) = Spec.pSum2 (xArr V c) (segArr V c) cc d f := by
  rw [run2 V c cc.val h d f, Finset.sum_range]
  unfold Spec.pSum2
  exact congrArg _ (Finset.sum_congr rfl fun s _ => tile2_eq V c cc s d f)

theorem lastC (c : Dev nD) (cc : Fin 2) (d : Fin 8) (h : 32 * cc.val + 31 < cfg0.N) :
    (outsAt0 V c (32 * cc.val + 31) h).2.2 (ix3 0 0 d) = Spec.pCnt (segArr V c) cc d := by
  rw [runC V c cc.val h d, Finset.sum_range]
  unfold Spec.pCnt
  exact congrArg _ (Finset.sum_congr rfl fun s _ => tileC_eq V c cc s d)

/-! ## The whole arrays -/

theorem same_point (c : Dev nD) (t : Fin cfg0.N) (u : ℕ) (hu : u < cfg0.N) (e : u = t.val) :
    outsAt0 V c u hu = outsAt0 V c t.val t.isLt := by subst e; rfl

/-- What a half's last point writes back is block (c, 0, 0) of the array of the halves' totals. -/
theorem flushed1 (c : Dev nD) (t : Fin cfg0.N) (hf : (cfg0.win 2).flush t = true) :
    (dat0 (F := Ideal) V c).flushed 2 t
      = ((cfg0.win 2).blk t).view.read (Elt Ideal) (Spec.arr3 (Spec.pSum1 (xArr V c) (segArr V c))) := by
  have h31 : t.val % 32 = 31 := (flush0_2 t).mp hf
  have hq : t.val / 32 < 2 := by have := lt_of_lt_of_eq t.isLt hN; omega
  have ht : 32 * (t.val / 32) + 31 = t.val := by omega
  funext y
  have hy0 : (y 0).val = 0 := by have : (y 0).val < 1 := (y 0).isLt; omega
  have hd : (y 1).val < 8 := (y 1).isLt
  have hf : (y 2).val < 256 := (y 2).isLt
  show (cfg0.win 2).cut (grid0.coords t) ((dat0 (F := Ideal) V c).after 2 t) y = _
  rw [after0_2, View.read_apply]
  show (outsAt0 V c t.val t.isLt).1 ((cfg0.win 2).xinj (grid0.coords t) y)
    = Spec.arr3 (Spec.pSum1 (xArr V c) (segArr V c)) (((cfg0.win 2).blk t).view.emb y)
  have L := last1 V c ⟨t.val / 32, hq⟩ ⟨(y 1).val, hd⟩ ⟨(y 2).val, hf⟩ (by show 32 * (t.val / 32) + 31 < cfg0.N; rw [ht]; exact t.isLt)
  rw [same_point V c t _ _ ht] at L
  refine Eq.trans (congrArg _ ?_) (L.trans ?_)
  · funext a; apply Fin.ext
    match a with
    | ⟨0, _⟩ => exact hy0
    | ⟨1, _⟩ => rfl
    | ⟨2, _⟩ => rfl
  · unfold Spec.arr3
    refine congr (congr (congrArg _ (Fin.ext ?_)) (Fin.ext ?_)) (Fin.ext ?_)
    · show t.val / 32 = win0_2.index t 0 * 1 + 1 * (y 0).val; rw [(idx_out t).1.1, hy0]; omega
    · show (y 1).val = win0_2.index t 1 * 8 + 1 * (y 1).val; rw [(idx_out t).1.2.1]; omega
    · show (y 2).val = win0_2.index t 2 * 256 + 1 * (y 2).val; rw [(idx_out t).1.2.2]; omega

theorem flushed2 (c : Dev nD) (t : Fin cfg0.N) (hf : (cfg0.win 3).flush t = true) :
    (dat0 (F := Ideal) V c).flushed 3 t
      = ((cfg0.win 3).blk t).view.read (Elt Ideal) (Spec.arr3 (Spec.pSum2 (xArr V c) (segArr V c))) := by
  have h31 : t.val % 32 = 31 := (flush0_3 t).mp hf
  have hq : t.val / 32 < 2 := by have := lt_of_lt_of_eq t.isLt hN; omega
  have ht : 32 * (t.val / 32) + 31 = t.val := by omega
  funext y
  have hy0 : (y 0).val = 0 := by have : (y 0).val < 1 := (y 0).isLt; omega
  have hd : (y 1).val < 8 := (y 1).isLt
  have hf : (y 2).val < 256 := (y 2).isLt
  show (cfg0.win 3).cut (grid0.coords t) ((dat0 (F := Ideal) V c).after 3 t) y = _
  rw [after0_3, View.read_apply]
  show (outsAt0 V c t.val t.isLt).2.1 ((cfg0.win 3).xinj (grid0.coords t) y)
    = Spec.arr3 (Spec.pSum2 (xArr V c) (segArr V c)) (((cfg0.win 3).blk t).view.emb y)
  have L := last2 V c ⟨t.val / 32, hq⟩ ⟨(y 1).val, hd⟩ ⟨(y 2).val, hf⟩ (by show 32 * (t.val / 32) + 31 < cfg0.N; rw [ht]; exact t.isLt)
  rw [same_point V c t _ _ ht] at L
  refine Eq.trans (congrArg _ ?_) (L.trans ?_)
  · funext a; apply Fin.ext
    match a with
    | ⟨0, _⟩ => exact hy0
    | ⟨1, _⟩ => rfl
    | ⟨2, _⟩ => rfl
  · unfold Spec.arr3
    refine congr (congr (congrArg _ (Fin.ext ?_)) (Fin.ext ?_)) (Fin.ext ?_)
    · show t.val / 32 = win0_3.index t 0 * 1 + 1 * (y 0).val; rw [(idx_out t).2.1.1, hy0]; omega
    · show (y 1).val = win0_3.index t 1 * 8 + 1 * (y 1).val; rw [(idx_out t).2.1.2.1]; omega
    · show (y 2).val = win0_3.index t 2 * 256 + 1 * (y 2).val; rw [(idx_out t).2.1.2.2]; omega

theorem flushedC (c : Dev nD) (t : Fin cfg0.N) (hf : (cfg0.win 4).flush t = true) :
    (dat0 (F := Ideal) V c).flushed 4 t
      = ((cfg0.win 4).blk t).view.read (Elt Ideal) (Spec.arr3 (fun cc (_ : Fin 1) d => Spec.pCnt (segArr V c) cc d)) := by
  have h31 : t.val % 32 = 31 := (flush0_4 t).mp hf
  have hq : t.val / 32 < 2 := by have := lt_of_lt_of_eq t.isLt hN; omega
  have ht : 32 * (t.val / 32) + 31 = t.val := by omega
  funext y
  have hy0 : (y 0).val = 0 := by have : (y 0).val < 1 := (y 0).isLt; omega
  have hy1 : (y 1).val = 0 := by have : (y 1).val < 1 := (y 1).isLt; omega
  have hd : (y 2).val < 8 := (y 2).isLt
  show (cfg0.win 4).cut (grid0.coords t) ((dat0 (F := Ideal) V c).after 4 t) y = _
  rw [after0_4, View.read_apply]
  show (outsAt0 V c t.val t.isLt).2.2 ((cfg0.win 4).xinj (grid0.coords t) y)
    = Spec.arr3 (fun cc (_ : Fin 1) d => Spec.pCnt (segArr V c) cc d) (((cfg0.win 4).blk t).view.emb y)
  have L := lastC V c ⟨t.val / 32, hq⟩ ⟨(y 2).val, hd⟩ (by show 32 * (t.val / 32) + 31 < cfg0.N; rw [ht]; exact t.isLt)
  rw [same_point V c t _ _ ht] at L
  refine Eq.trans (congrArg _ ?_) (L.trans ?_)
  · funext a; apply Fin.ext
    match a with
    | ⟨0, _⟩ => exact hy0
    | ⟨1, _⟩ => exact hy1
    | ⟨2, _⟩ => rfl
  · unfold Spec.arr3
    show Spec.pCnt (segArr V c) _ _ = Spec.pCnt (segArr V c) _ _
    refine congr (congrArg _ (Fin.ext ?_)) (Fin.ext ?_)
    · show t.val / 32 = win0_4.index t 0 * 1 + 1 * (y 0).val; rw [(idx_out t).2.2.1, hy0]; omega
    · show (y 2).val = win0_4.index t 2 * 8 + 1 * (y 2).val; rw [(idx_out t).2.2.2.2]; omega

/-- Entry (c, d, f) of an output lies in the block the last point of half c writes back. -/
theorem stats_sum1 (c : Dev nD) :
    (dat0 (F := Ideal) V c).arrAt 2 cfg0.N = Spec.arr3 (Spec.pSum1 (V c main_arg0) (V c main_arg1)) :=
  (dat0 (F := Ideal) V c).arrAt_eq_of_cover 2 (Spec.arr3 (Spec.pSum1 (xArr V c) (segArr V c))) (flushed1 V c) fun i => by
    have h0 : (i 0).val < 2 := (i 0).isLt
    have h1 : (i 1).val < 8 := (i 1).isLt
    have h2 : (i 2).val < 256 := (i 2).isLt
    have hlt : 32 * (i 0).val + 31 < cfg0.N := by rw [hN]; omega
    refine ⟨⟨32 * (i 0).val + 31, hlt⟩, (flush0_2 _).mpr (by show (32 * (i 0).val + 31) % 32 = 31; omega), ?_⟩
    show i ∈ ((View.whole main_v0_0).slice (win0_2.rect ⟨32 * (i 0).val + 31, hlt⟩)).set
    rw [View.set_slice_whole, Rect.mem_set_unit]
    intro a
    have hdiv : (⟨32 * (i 0).val + 31, hlt⟩ : Fin cfg0.N).val / 32 = (i 0).val := by show (32 * (i 0).val + 31) / 32 = (i 0).val; omega
    match a with
    | ⟨0, _⟩ =>
      show win0_2.index ⟨32 * (i 0).val + 31, hlt⟩ 0 * 1 ≤ (i 0).val ∧ (i 0).val < win0_2.index ⟨32 * (i 0).val + 31, hlt⟩ 0 * 1 + 1
      rw [(idx_out _).1.1, hdiv]; omega
    | ⟨1, _⟩ =>
      show win0_2.index ⟨32 * (i 0).val + 31, hlt⟩ 1 * 8 ≤ (i 1).val ∧ (i 1).val < win0_2.index ⟨32 * (i 0).val + 31, hlt⟩ 1 * 8 + 8
      rw [(idx_out _).1.2.1]; omega
    | ⟨2, _⟩ =>
      show win0_2.index ⟨32 * (i 0).val + 31, hlt⟩ 2 * 256 ≤ (i 2).val ∧ (i 2).val < win0_2.index ⟨32 * (i 0).val + 31, hlt⟩ 2 * 256 + 256
      rw [(idx_out _).1.2.2]; omega

theorem stats_sum2 (c : Dev nD) :
    (dat0 (F := Ideal) V c).arrAt 3 cfg0.N = Spec.arr3 (Spec.pSum2 (V c main_arg0) (V c main_arg1)) :=
  (dat0 (F := Ideal) V c).arrAt_eq_of_cover 3 (Spec.arr3 (Spec.pSum2 (xArr V c) (segArr V c))) (flushed2 V c) fun i => by
    have h0 : (i 0).val < 2 := (i 0).isLt
    have h1 : (i 1).val < 8 := (i 1).isLt
    have h2 : (i 2).val < 256 := (i 2).isLt
    have hlt : 32 * (i 0).val + 31 < cfg0.N := by rw [hN]; omega
    refine ⟨⟨32 * (i 0).val + 31, hlt⟩, (flush0_3 _).mpr (by show (32 * (i 0).val + 31) % 32 = 31; omega), ?_⟩
    show i ∈ ((View.whole main_v0_1).slice (win0_3.rect ⟨32 * (i 0).val + 31, hlt⟩)).set
    rw [View.set_slice_whole, Rect.mem_set_unit]
    intro a
    have hdiv : (⟨32 * (i 0).val + 31, hlt⟩ : Fin cfg0.N).val / 32 = (i 0).val := by show (32 * (i 0).val + 31) / 32 = (i 0).val; omega
    match a with
    | ⟨0, _⟩ =>
      show win0_3.index ⟨32 * (i 0).val + 31, hlt⟩ 0 * 1 ≤ (i 0).val ∧ (i 0).val < win0_3.index ⟨32 * (i 0).val + 31, hlt⟩ 0 * 1 + 1
      rw [(idx_out _).2.1.1, hdiv]; omega
    | ⟨1, _⟩ =>
      show win0_3.index ⟨32 * (i 0).val + 31, hlt⟩ 1 * 8 ≤ (i 1).val ∧ (i 1).val < win0_3.index ⟨32 * (i 0).val + 31, hlt⟩ 1 * 8 + 8
      rw [(idx_out _).2.1.2.1]; omega
    | ⟨2, _⟩ =>
      show win0_3.index ⟨32 * (i 0).val + 31, hlt⟩ 2 * 256 ≤ (i 2).val ∧ (i 2).val < win0_3.index ⟨32 * (i 0).val + 31, hlt⟩ 2 * 256 + 256
      rw [(idx_out _).2.1.2.2]; omega

theorem stats_cnt (c : Dev nD) :
    (dat0 (F := Ideal) V c).arrAt 4 cfg0.N = Spec.arr3 (fun cc (_ : Fin 1) d => Spec.pCnt (V c main_arg1) cc d) :=
  (dat0 (F := Ideal) V c).arrAt_eq_of_cover 4 (Spec.arr3 (fun cc (_ : Fin 1) d => Spec.pCnt (segArr V c) cc d)) (flushedC V c) fun i => by
    have h0 : (i 0).val < 2 := (i 0).isLt
    have h1 : (i 1).val < 1 := (i 1).isLt
    have h2 : (i 2).val < 8 := (i 2).isLt
    have hlt : 32 * (i 0).val + 31 < cfg0.N := by rw [hN]; omega
    refine ⟨⟨32 * (i 0).val + 31, hlt⟩, (flush0_4 _).mpr (by show (32 * (i 0).val + 31) % 32 = 31; omega), ?_⟩
    show i ∈ ((View.whole main_v0_2).slice (win0_4.rect ⟨32 * (i 0).val + 31, hlt⟩)).set
    rw [View.set_slice_whole, Rect.mem_set_unit]
    intro a
    have hdiv : (⟨32 * (i 0).val + 31, hlt⟩ : Fin cfg0.N).val / 32 = (i 0).val := by show (32 * (i 0).val + 31) / 32 = (i 0).val; omega
    match a with
    | ⟨0, _⟩ =>
      show win0_4.index ⟨32 * (i 0).val + 31, hlt⟩ 0 * 1 ≤ (i 0).val ∧ (i 0).val < win0_4.index ⟨32 * (i 0).val + 31, hlt⟩ 0 * 1 + 1
      rw [(idx_out _).2.2.1, hdiv]; omega
    | ⟨1, _⟩ =>
      show win0_4.index ⟨32 * (i 0).val + 31, hlt⟩ 1 * 1 ≤ (i 1).val ∧ (i 1).val < win0_4.index ⟨32 * (i 0).val + 31, hlt⟩ 1 * 1 + 1
      rw [(idx_out _).2.2.2.1]; omega
    | ⟨2, _⟩ =>
      show win0_4.index ⟨32 * (i 0).val + 31, hlt⟩ 2 * 8 ≤ (i 2).val ∧ (i 2).val < win0_4.index ⟨32 * (i 0).val + 31, hlt⟩ 2 * 8 + 8
      rw [(idx_out _).2.2.2.2]; omega

end Cert.KernelIdeal.KStats

end
-- ==== Proof.KTables.lean ====
/-
  The host operations between the two passes, read at an index: the two halves' totals added, the count clamped
  below at 1, the mean, the one-pass variance clamped at 0, its guarded inverse square root, and from these the
  per-label slope and intercept, each handed to the second pass as itself (narrowing a float is the identity on the
  extended reals) and as the remainder after itself. The two argument arrays the second pass reads are untouched.
-/
import proofs.«412241_j70480413328182_3_alg».proof.Proof.Gen.KernelIdeal.Frame
import proofs.«412241_j70480413328182_3_alg».proof.Proof.Spec
import proofs.«412241_j70480413328182_3_alg».proof.Proof.KStats
import Idealize.ShloMosaic.Lib.ValueIdx
import Idealize.ShloMosaic.Lib.Pipeline.Value
import Idealize.ShloMosaic.PureOps.Ideal.Laws

set_option maxRecDepth 16384

noncomputable section

namespace Cert.KernelIdeal.KTables

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-! ## The host operations as composed terms, stage by stage -/

section Terms

variable {F : FTy → Type} [FloatOps F]

/-- The two halves of a [2, 8, 256] array of totals added, from the word 0. -/
def tSum (s : (⟨S2x8x256, .f32⟩ : BufTy).Contents (Elt F)) : (⟨S8x256, .f32⟩ : BufTy).Contents (Elt F) :=
  Host.reduceAdd s (constant S_ .f32 0x00000000#32) reducesTo_S2x8x256_S8x256_d0 h_S_

/-- The two halves of the counts added, from the word 0, as a vector of 8. -/
def tCnt (cn : (⟨S2x1x8, .f32⟩ : BufTy).Contents (Elt F)) : (⟨S8, .f32⟩ : BufTy).Contents (Elt F) :=
  fun i => shapeCast S8 (Host.reduceAdd cn (constant S_ .f32 0x00000000#32) reducesTo_S2x1x8_S1x8_d0 h_S_) shapeCasts_S1x8_S8 i

/-- The count clamped below at the word 1. -/
def tN (cn : (⟨S2x1x8, .f32⟩ : BufTy).Contents (Elt F)) : (⟨S8, .f32⟩ : BufTy).Contents (Elt F) :=
  maximumf (tCnt cn) (broadcastInDim S8 ![] bcast_S_S8 (constant S_ .f32 0x3F800000#32))

/-- A vector of 8 laid along the rows of an [8, 256] table. -/
def tRows (v : (⟨S8, .f32⟩ : BufTy).Contents (Elt F)) : (⟨S8x256, .f32⟩ : BufTy).Contents (Elt F) :=
  broadcastInDim S8x256 ![0, 1] bcast_S8x1_S8x256_0_1 (broadcastInDim S8x1 ![0] bcast_S8_S8x1_0 v)

/-- The mean: the sum over the clamped count. -/
def tMean (s1 : (⟨S2x8x256, .f32⟩ : BufTy).Contents (Elt F)) (cn : (⟨S2x1x8, .f32⟩ : BufTy).Contents (Elt F)) :
    (⟨S8x256, .f32⟩ : BufTy).Contents (Elt F) :=
  Host.divf (tSum s1) (tRows (tN cn))

/-- The mean of squares minus the squared mean, clamped below at the word 0. -/
def tVar (s1 s2 : (⟨S2x8x256, .f32⟩ : BufTy).Contents (Elt F)) (cn : (⟨S2x1x8, .f32⟩ : BufTy).Contents (Elt F)) :
    (⟨S8x256, .f32⟩ : BufTy).Contents (Elt F) :=
  maximumf (subf (Host.divf (tSum s2) (tRows (tN cn))) (mulf (tMean s1 cn) (tMean s1 cn)))
    (broadcastInDim S8x256 ![] bcast_S_S8x256 (constant S_ .f32 0x00000000#32))

/-- The inverse square root of the guarded variance. -/
def tInv (s1 s2 : (⟨S2x8x256, .f32⟩ : BufTy).Contents (Elt F)) (cn : (⟨S2x1x8, .f32⟩ : BufTy).Contents (Elt F)) :
    (⟨S8x256, .f32⟩ : BufTy).Contents (Elt F) :=
  Host.rsqrt (addf (tVar s1 s2 cn) (broadcastInDim S8x256 ![] bcast_S_S8x256 (constant S_ .f32 0x3A83126F#32)))

/-- The global scale times the per-label scale, along the rows. -/
def tGam (a2 : (⟨S1, .f32⟩ : BufTy).Contents (Elt F)) (a4 : (⟨S8, .f32⟩ : BufTy).Contents (Elt F)) :
    (⟨S8x256, .f32⟩ : BufTy).Contents (Elt F) :=
  tRows (mulf (broadcastInDim S8 ![] bcast_S_S8 fun i => shapeCast S_ a2 shapeCasts_S1_S_ i) a4)

/-- The slope table. -/
def tScale (s1 s2 : (⟨S2x8x256, .f32⟩ : BufTy).Contents (Elt F)) (cn : (⟨S2x1x8, .f32⟩ : BufTy).Contents (Elt F))
    (a2 : (⟨S1, .f32⟩ : BufTy).Contents (Elt F)) (a4 : (⟨S8, .f32⟩ : BufTy).Contents (Elt F)) :
    (⟨S8x256, .f32⟩ : BufTy).Contents (Elt F) :=
  mulf (tGam a2 a4) (tInv s1 s2 cn)

/-- The global shift plus the per-label shift, along the rows. -/
def tBeta (a3 : (⟨S1, .f32⟩ : BufTy).Contents (Elt F)) (a5 : (⟨S8, .f32⟩ : BufTy).Contents (Elt F)) :
    (⟨S8x256, .f32⟩ : BufTy).Contents (Elt F) :=
  broadcastInDim S8x256 ![0, 1] bcast_S8x1_S8x256_0_1
    (addf (broadcastInDim S8x1 ![] bcast_S_S8x1 fun i => shapeCast S_ a3 shapeCasts_S1_S_ i)
      (broadcastInDim S8x1 ![0] bcast_S8_S8x1_0 a5))

/-- The intercept table. -/
def tBias (s1 s2 : (⟨S2x8x256, .f32⟩ : BufTy).Contents (Elt F)) (cn : (⟨S2x1x8, .f32⟩ : BufTy).Contents (Elt F))
    (a2 a3 : (⟨S1, .f32⟩ : BufTy).Contents (Elt F)) (a4 a5 : (⟨S8, .f32⟩ : BufTy).Contents (Elt F)) :
    (⟨S8x256, .f32⟩ : BufTy).Contents (Elt F) :=
  subf (tBeta a3 a5) (mulf (tScale s1 s2 cn a2 a4) (tMean s1 cn))

/-- A table narrowed, and the narrowed remainder after widening it back. -/
def tHi (t : (⟨S8x256, .f32⟩ : BufTy).Contents (Elt F)) : (⟨S8x256, .bf16⟩ : BufTy).Contents (Elt F) :=
  truncf .bf16 t bitsLt_bf16_f32
def tLo (t : (⟨S8x256, .f32⟩ : BufTy).Contents (Elt F)) : (⟨S8x256, .bf16⟩ : BufTy).Contents (Elt F) :=
  truncf .bf16 (subf t (extf .f32 (tHi t) bitsLt_bf16_f32)) bitsLt_bf16_f32

end Terms

section TermThms
variable {F : FTy → Type} [FloatOps F]
variable (W : Valuation τ sig (Elt F))

open Idealize.ShloMosaic.StableHlo in
theorem term_v33 :
    StableHlo.after (hostOps1 (F := F)) W (Proc.devRef .tc main_v33)
      = tHi (tScale (W (Proc.devRef .tc main_v0_0)) (W (Proc.devRef .tc main_v0_1)) (W (Proc.devRef .tc main_v0_2))
          (W (Proc.devRef .tc main_arg2)) (W (Proc.devRef .tc main_arg4))) := by
  simp only [hostOps1]
  after_results_simp
  rfl

open Idealize.ShloMosaic.StableHlo in
theorem term_v36 :
    StableHlo.after (hostOps1 (F := F)) W (Proc.devRef .tc main_v36)
      = tLo (tScale (W (Proc.devRef .tc main_v0_0)) (W (Proc.devRef .tc main_v0_1)) (W (Proc.devRef .tc main_v0_2))
          (W (Proc.devRef .tc main_arg2)) (W (Proc.devRef .tc main_arg4))) := by
  simp only [hostOps1]
  after_results_simp
  rfl

open Idealize.ShloMosaic.StableHlo in
theorem term_v37 :
    StableHlo.after (hostOps1 (F := F)) W (Proc.devRef .tc main_v37)
      = tHi (tBias (W (Proc.devRef .tc main_v0_0)) (W (Proc.devRef .tc main_v0_1)) (W (Proc.devRef .tc main_v0_2))
          (W (Proc.devRef .tc main_arg2)) (W (Proc.devRef .tc main_arg3)) (W (Proc.devRef .tc main_arg4)) (W (Proc.devRef .tc main_arg5))) := by
  simp only [hostOps1]
  after_results_simp
  rfl

open Idealize.ShloMosaic.StableHlo in
theorem term_v40 :
    StableHlo.after (hostOps1 (F := F)) W (Proc.devRef .tc main_v40)
      = tLo (tBias (W (Proc.devRef .tc main_v0_0)) (W (Proc.devRef .tc main_v0_1)) (W (Proc.devRef .tc main_v0_2))
          (W (Proc.devRef .tc main_arg2)) (W (Proc.devRef .tc main_arg3)) (W (Proc.devRef .tc main_arg4)) (W (Proc.devRef .tc main_arg5))) := by
  simp only [hostOps1]
  after_results_simp
  rfl

end TermThms

/-! ## The stages read at an index, on the extended reals -/

section Read

/-- The index a sum over the first of three axes inserts. -/
theorem lift_sum (h : Shape.Reduces S2x8x256 [0] S8x256) (d : Fin 8) (f : Fin 256) (k : Fin 2) :
    h.lift (ix2 d f) k = ix3 k d f := by
  funext a
  match a with
  | ⟨0, _⟩ => exact Fin.ext rfl
  | ⟨1, _⟩ => exact Fin.ext rfl
  | ⟨2, _⟩ => exact Fin.ext rfl

theorem lift_cnt (h : Shape.Reduces S2x1x8 [0] S1x8) (d : Fin 8) (k : Fin 2) :
    h.lift (ix2 (0 : Fin 1) d) k = ix3 k (0 : Fin 1) d := by
  funext a
  match a with
  | ⟨0, _⟩ => exact Fin.ext rfl
  | ⟨1, _⟩ => exact Fin.ext rfl
  | ⟨2, _⟩ => exact Fin.ext rfl

theorem tSum_apply (s : (⟨S2x8x256, .f32⟩ : BufTy).Contents (Elt Ideal)) (d : Fin 8) (f : Fin 256) :
    tSum (F := Ideal) s (ix2 d f) = Spec.wZero + ∑ c : Fin 2, s (ix3 c d f) := by
  unfold tSum Host.reduceAdd
  rw [Ideal.hostReduceAdd_def, Ideal.hostReduceAdd_single _ (by decide : Shape.Reduces S2x8x256 [0] S8x256)]
  exact congrArg₂ (· + ·) rfl (Finset.sum_congr rfl fun k _ => congrArg s (lift_sum _ d f k))

theorem tCnt_apply (cn : (⟨S2x1x8, .f32⟩ : BufTy).Contents (Elt Ideal)) (d : Fin 8) :
    tCnt (F := Ideal) cn (ix1 d) = Spec.wZero + ∑ c : Fin 2, cn (ix3 c (0 : Fin 1) d) := by
  unfold tCnt
  rw [shapeCast_apply _ shapeCasts_S1x8_S8 (ix1 d) (ix2 (0 : Fin 1) d) (by
    rewrite [Shape.rowMajor_val_two, Shape.rowMajor_val_one]; show 0 * 8 + d.val = d.val; omega)]
  unfold Host.reduceAdd
  rw [Ideal.hostReduceAdd_def, Ideal.hostReduceAdd_single _ (by decide : Shape.Reduces S2x1x8 [0] S1x8)]
  exact congrArg₂ (· + ·) rfl (Finset.sum_congr rfl fun k _ => congrArg cn (lift_cnt _ d k))

theorem tN_apply (cn : (⟨S2x1x8, .f32⟩ : BufTy).Contents (Elt Ideal)) (d : Fin 8) :
    tN (F := Ideal) cn (ix1 d) = max (Spec.wZero + ∑ c : Fin 2, cn (ix3 c (0 : Fin 1) d)) Spec.wOne := by
  unfold tN
  rw [maximumf_apply, tCnt_apply, broadcastInDim_apply _ bcast_S_S8 _ (ix1 d) ix0 (fun a => a.elim0)]
  rfl

theorem tRows_apply (v : (⟨S8, .f32⟩ : BufTy).Contents (Elt Ideal)) (d : Fin 8) (f : Fin 256) :
    tRows (F := Ideal) v (ix2 d f) = v (ix1 d) := by
  unfold tRows
  rw [broadcastInDim_apply _ bcast_S8x1_S8x256_0_1 _ (ix2 d f) (ix2 d (0 : Fin 1)) (fun a => match a with
        | ⟨0, _⟩ => by show d.val = if (8 : Nat) = 1 then 0 else d.val; rw [if_neg (by decide)]
        | ⟨1, _⟩ => by show 0 = if (1 : Nat) = 1 then 0 else f.val; rw [if_pos rfl]),
      broadcastInDim_apply _ bcast_S8_S8x1_0 _ (ix2 d (0 : Fin 1)) (ix1 d) (fun a => match a with
        | ⟨0, _⟩ => by show d.val = if (8 : Nat) = 1 then 0 else d.val; rw [if_neg (by decide)])]

end Read

section Read2

theorem hostDivf_apply {s : Shape} {φ : FTy} (a b : FVec Ideal s φ) (i : s.Idx) : Host.divf a b i = Ideal.div (a i) (b i) := rfl
theorem hostRsqrt_apply {s : Shape} {φ : FTy} (a : FVec Ideal s φ) (i : s.Idx) : Host.rsqrt a i = Ideal.rsqrt (a i) := rfl

/-- A word spread over a whole table reads the word everywhere. -/
theorem tWord_apply (b : BitVec 32) (j : S8x256.Idx) :
    broadcastInDim S8x256 ![] bcast_S_S8x256 (constant (F := Ideal) S_ .f32 b) j = Ideal.ofBits .f32 b := by
  rw [broadcastInDim_apply _ bcast_S_S8x256 _ j ix0 (fun a => a.elim0)]
  rfl

/-- A one-element vector read as a scalar. -/
theorem tScalar_apply (a : (⟨S1, .f32⟩ : BufTy).Contents (Elt Ideal)) (i : S_.Idx) :
    shapeCast S_ a shapeCasts_S1_S_ i = a (ix1 (0 : Fin 1)) :=
  shapeCast_apply a shapeCasts_S1_S_ i (ix1 (0 : Fin 1)) (by
    rewrite [Shape.rowMajor_val_one]; exact (Shape.rowMajorPi_zero _ _).symm)

variable (s1 s2 : (⟨S2x8x256, .f32⟩ : BufTy).Contents (Elt Ideal)) (cn : (⟨S2x1x8, .f32⟩ : BufTy).Contents (Elt Ideal))
  (a2 a3 : (⟨S1, .f32⟩ : BufTy).Contents (Elt Ideal)) (a4 a5 : (⟨S8, .f32⟩ : BufTy).Contents (Elt Ideal)) (d : Fin 8) (f : Fin 256)

/-- The pointwise statistics over arrays of totals. -/
def pN : EReal := max (Spec.wZero + ∑ c : Fin 2, cn (ix3 c (0 : Fin 1) d)) Spec.wOne
def pMean : EReal := Ideal.div (Spec.wZero + ∑ c : Fin 2, s1 (ix3 c d f)) (pN cn d)
def pVar : EReal := max (Ideal.div (Spec.wZero + ∑ c : Fin 2, s2 (ix3 c d f)) (pN cn d) - pMean s1 cn d f * pMean s1 cn d f) Spec.wZero
def pInv : EReal := Ideal.rsqrt (pVar s1 s2 cn d f + Spec.wEps)
def pScale : EReal := (a2 (ix1 (0 : Fin 1)) * a4 (ix1 d)) * pInv s1 s2 cn d f
def pBias : EReal := (a3 (ix1 (0 : Fin 1)) + a5 (ix1 d)) - pScale s1 s2 cn a2 a4 d f * pMean s1 cn d f

theorem tMean_apply : tMean (F := Ideal) s1 cn (ix2 d f) = pMean s1 cn d f := by
  unfold tMean pMean pN
  rw [hostDivf_apply, tSum_apply, tRows_apply, tN_apply]

theorem tVar_apply : tVar (F := Ideal) s1 s2 cn (ix2 d f) = pVar s1 s2 cn d f := by
  unfold tVar pVar
  rw [maximumf_apply, subf_apply, mulf_apply, tMean_apply, hostDivf_apply, tSum_apply, tRows_apply, tN_apply, tWord_apply]
  rfl

theorem tInv_apply : tInv (F := Ideal) s1 s2 cn (ix2 d f) = pInv s1 s2 cn d f := by
  unfold tInv pInv
  rw [hostRsqrt_apply, addf_apply, tVar_apply, tWord_apply]
  rfl

theorem tGam_apply : tGam (F := Ideal) a2 a4 (ix2 d f) = a2 (ix1 (0 : Fin 1)) * a4 (ix1 d) := by
  unfold tGam
  rw [tRows_apply, mulf_apply, broadcastInDim_apply _ bcast_S_S8 _ (ix1 d) ix0 (fun a => a.elim0), tScalar_apply]

theorem tScale_apply : tScale (F := Ideal) s1 s2 cn a2 a4 (ix2 d f) = pScale s1 s2 cn a2 a4 d f := by
  unfold tScale pScale
  rw [mulf_apply, tGam_apply, tInv_apply]

theorem tBeta_apply : tBeta (F := Ideal) a3 a5 (ix2 d f) = a3 (ix1 (0 : Fin 1)) + a5 (ix1 d) := by
  unfold tBeta
  rw [broadcastInDim_apply _ bcast_S8x1_S8x256_0_1 _ (ix2 d f) (ix2 d (0 : Fin 1)) (fun a => match a with
        | ⟨0, _⟩ => by show d.val = if (8 : Nat) = 1 then 0 else d.val; rw [if_neg (by decide)]
        | ⟨1, _⟩ => by show 0 = if (1 : Nat) = 1 then 0 else f.val; rw [if_pos rfl]),
      addf_apply,
      broadcastInDim_apply _ bcast_S_S8x1 _ (ix2 d (0 : Fin 1)) ix0 (fun a => a.elim0), tScalar_apply,
      broadcastInDim_apply _ bcast_S8_S8x1_0 _ (ix2 d (0 : Fin 1)) (ix1 d) (fun a => match a with
        | ⟨0, _⟩ => by show d.val = if (8 : Nat) = 1 then 0 else d.val; rw [if_neg (by decide)])]

theorem tBias_apply : tBias (F := Ideal) s1 s2 cn a2 a3 a4 a5 (ix2 d f) = pBias s1 s2 cn a2 a3 a4 a5 d f := by
  unfold tBias pBias
  rw [subf_apply, mulf_apply, tBeta_apply, tScale_apply, tMean_apply]

theorem tHi_apply (t : (⟨S8x256, .f32⟩ : BufTy).Contents (Elt Ideal)) (j : S8x256.Idx) : tHi (F := Ideal) t j = t j := rfl
theorem tLo_apply (t : (⟨S8x256, .f32⟩ : BufTy).Contents (Elt Ideal)) (j : S8x256.Idx) : tLo (F := Ideal) t j = t j - t j := rfl

end Read2

/-! ## Against the specification, stage by stage -/

section SpecCmp

variable (X : Spec.XArr) (SEG : Spec.SegArr) (GG GB : Spec.Vec1) (DG DB : Spec.Vec8) (d : Fin 8) (f : Fin 256)

theorem pN_spec : pN (Spec.arr3 (fun cc (_ : Fin 1) d => Spec.pCnt SEG cc d)) d = Spec.kN SEG d := rfl

theorem pMean_spec :
    pMean (Spec.arr3 (Spec.pSum1 X SEG)) (Spec.arr3 (fun cc (_ : Fin 1) d => Spec.pCnt SEG cc d)) d f = Spec.kMean X SEG d f := by
  unfold pMean Spec.kMean
  rw [pN_spec]
  rfl

theorem pVar_spec :
    pVar (Spec.arr3 (Spec.pSum1 X SEG)) (Spec.arr3 (Spec.pSum2 X SEG)) (Spec.arr3 (fun cc (_ : Fin 1) d => Spec.pCnt SEG cc d)) d f
      = Spec.kVar X SEG d f := by
  unfold pVar Spec.kVar
  rw [pN_spec, pMean_spec]
  rfl

theorem pInv_spec :
    pInv (Spec.arr3 (Spec.pSum1 X SEG)) (Spec.arr3 (Spec.pSum2 X SEG)) (Spec.arr3 (fun cc (_ : Fin 1) d => Spec.pCnt SEG cc d)) d f
      = Spec.kInv X SEG d f := by
  unfold pInv Spec.kInv
  rw [pVar_spec]

theorem pScale_spec :
    pScale (Spec.arr3 (Spec.pSum1 X SEG)) (Spec.arr3 (Spec.pSum2 X SEG)) (Spec.arr3 (fun cc (_ : Fin 1) d => Spec.pCnt SEG cc d)) GG DG d f
      = Spec.kScale X SEG GG DG d f := by
  unfold pScale Spec.kScale
  rw [pInv_spec]

theorem pBias_spec :
    pBias (Spec.arr3 (Spec.pSum1 X SEG)) (Spec.arr3 (Spec.pSum2 X SEG)) (Spec.arr3 (fun cc (_ : Fin 1) d => Spec.pCnt SEG cc d)) GG GB DG DB d f
      = Spec.kBias X SEG GG GB DG DB d f := by
  unfold pBias Spec.kBias
  rw [pScale_spec, pMean_spec]

end SpecCmp

/-! ## The buffers the host operations read, after the first pass -/

section Leaves

theorem leaf_sum1 (c : Dev nD) :
    W1 m ρ c (Proc.devRef .tc main_v0_0)
      = Spec.arr3 (Spec.pSum1 (m ((c.tc : Thread nD τ).loc main_arg0)) (m ((c.tc : Thread nD τ).loc main_arg1))) :=
  (W1_arr m ρ c 2).trans (KStats.stats_sum1 (V0 m ρ) c)
theorem leaf_sum2 (c : Dev nD) :
    W1 m ρ c (Proc.devRef .tc main_v0_1)
      = Spec.arr3 (Spec.pSum2 (m ((c.tc : Thread nD τ).loc main_arg0)) (m ((c.tc : Thread nD τ).loc main_arg1))) :=
  (W1_arr m ρ c 3).trans (KStats.stats_sum2 (V0 m ρ) c)
theorem leaf_cnt (c : Dev nD) :
    W1 m ρ c (Proc.devRef .tc main_v0_2)
      = Spec.arr3 (fun cc (_ : Fin 1) d => Spec.pCnt (m ((c.tc : Thread nD τ).loc main_arg1)) cc d) :=
  (W1_arr m ρ c 4).trans (KStats.stats_cnt (V0 m ρ) c)
theorem leaf_arg2 (c : Dev nD) : W1 m ρ c (Proc.devRef .tc main_arg2) = m ((c.tc : Thread nD τ).loc main_arg2) :=
  W1_of_ne m ρ c main_arg2 (by decide)
theorem leaf_arg3 (c : Dev nD) : W1 m ρ c (Proc.devRef .tc main_arg3) = m ((c.tc : Thread nD τ).loc main_arg3) :=
  W1_of_ne m ρ c main_arg3 (by decide)
theorem leaf_arg4 (c : Dev nD) : W1 m ρ c (Proc.devRef .tc main_arg4) = m ((c.tc : Thread nD τ).loc main_arg4) :=
  W1_of_ne m ρ c main_arg4 (by decide)
theorem leaf_arg5 (c : Dev nD) : W1 m ρ c (Proc.devRef .tc main_arg5) = m ((c.tc : Thread nD τ).loc main_arg5) :=
  W1_of_ne m ρ c main_arg5 (by decide)

end Leaves

theorem V2_arg0 (c : Dev nD) : V2 m ρ c main_arg0 = m ((c.tc : Thread nD τ).loc main_arg0) := by
  calc V2 m ρ c main_arg0
    _ = W1 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W0 m ρ c (Proc.devRef .tc main_arg0) := (W1_arr m ρ c 1).trans (((dat0 (V0 m ρ) c).arrAt_in 1 rfl _).trans (A_eq0 (V0 m ρ) c 1))
    _ = m ((c.tc : Thread nD τ).loc main_arg0) := rfl
theorem V2_arg1 (c : Dev nD) : V2 m ρ c main_arg1 = m ((c.tc : Thread nD τ).loc main_arg1) := by
  calc V2 m ρ c main_arg1
    _ = W1 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W0 m ρ c (Proc.devRef .tc main_arg1) := (W1_arr m ρ c 0).trans (((dat0 (V0 m ρ) c).arrAt_in 0 rfl _).trans (A_eq0 (V0 m ρ) c 0))
    _ = m ((c.tc : Thread nD τ).loc main_arg1) := rfl

theorem V2_scale_hi (c : Dev nD) :
    V2 m ρ c main_v33 = Spec.arr2 (Spec.kScale (m ((c.tc : Thread nD τ).loc main_arg0)) (m ((c.tc : Thread nD τ).loc main_arg1))
      (m ((c.tc : Thread nD τ).loc main_arg2)) (m ((c.tc : Thread nD τ).loc main_arg4))) := by
  show StableHlo.after hostOps1 (W1 m ρ c) (Proc.devRef .tc main_v33) = _
  rw [term_v33, leaf_sum1, leaf_sum2, leaf_cnt, leaf_arg2, leaf_arg4]
  funext j
  obtain ⟨d, f, rfl⟩ : ∃ d f, j = ix2 d f := ⟨j 0, j 1, eq_ix2 j⟩
  rw [tHi_apply, tScale_apply, pScale_spec]
  rfl
theorem V2_scale_lo (c : Dev nD) :
    V2 m ρ c main_v36 = Spec.arr2 (fun d f =>
      Spec.kScale (m ((c.tc : Thread nD τ).loc main_arg0)) (m ((c.tc : Thread nD τ).loc main_arg1)) (m ((c.tc : Thread nD τ).loc main_arg2)) (m ((c.tc : Thread nD τ).loc main_arg4)) d f
      - Spec.kScale (m ((c.tc : Thread nD τ).loc main_arg0)) (m ((c.tc : Thread nD τ).loc main_arg1)) (m ((c.tc : Thread nD τ).loc main_arg2)) (m ((c.tc : Thread nD τ).loc main_arg4)) d f) := by
  show StableHlo.after hostOps1 (W1 m ρ c) (Proc.devRef .tc main_v36) = _
  rw [term_v36, leaf_sum1, leaf_sum2, leaf_cnt, leaf_arg2, leaf_arg4]
  funext j
  obtain ⟨d, f, rfl⟩ : ∃ d f, j = ix2 d f := ⟨j 0, j 1, eq_ix2 j⟩
  rw [tLo_apply, tScale_apply, pScale_spec]
  rfl
theorem V2_bias_hi (c : Dev nD) :
    V2 m ρ c main_v37 = Spec.arr2 (Spec.kBias (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg5))) := by
  show StableHlo.after hostOps1 (W1 m ρ c) (Proc.devRef .tc main_v37) = _
  rw [term_v37, leaf_sum1, leaf_sum2, leaf_cnt, leaf_arg2, leaf_arg3, leaf_arg4, leaf_arg5]
  funext j
  obtain ⟨d, f, rfl⟩ : ∃ d f, j = ix2 d f := ⟨j 0, j 1, eq_ix2 j⟩
  rw [tHi_apply, tBias_apply, pBias_spec]
  rfl
theorem V2_bias_lo (c : Dev nD) :
    V2 m ρ c main_v40 = Spec.arr2 (fun d f =>
      Spec.kBias (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) d f
      - Spec.kBias (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) d f) := by
  show StableHlo.after hostOps1 (W1 m ρ c) (Proc.devRef .tc main_v40) = _
  rw [term_v40, leaf_sum1, leaf_sum2, leaf_cnt, leaf_arg2, leaf_arg3, leaf_arg4, leaf_arg5]
  funext j
  obtain ⟨d, f, rfl⟩ : ∃ d f, j = ix2 d f := ⟨j 0, j 1, eq_ix2 j⟩
  rw [tLo_apply, tBias_apply, pBias_spec]
  rfl

end Cert.KernelIdeal.KTables

end
-- ==== Proof.KNorm.lean ====
/-
  The normalisation pass as a whole array. Point t of its 64 writes rows 4096·t … 4096·t + 4095 of the result; each
  row is the features' row times the slope its label selects in the first two tables, plus the intercept it selects
  in the last two (each selection a product with the one-hot row of the label). The blocks tile the result.
-/
import proofs.«412241_j70480413328182_3_alg».proof.Proof.Gen.KernelIdeal.Frame
import proofs.«412241_j70480413328182_3_alg».proof.Proof.Spec

import Idealize.ShloMosaic.Lib.ValueIdx
import Idealize.ShloMosaic.Lib.Pipeline.Value
import Idealize.ShloMosaic.PureOps.Ideal.Laws

set_option maxRecDepth 16384

noncomputable section

namespace Cert.KernelIdeal.KNorm

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The zero offsets of a whole-block access, however they are spelt. -/
theorem hz : (![0, 0] : Fin 2 → Nat) = fun _ => 0 := funext fun a => by fin_cases a <;> rfl

/-! ## The one-hot product at an index

The product contracts the second axis of the [4096,8] one-hot rows against the first axis of an [8,256] table: at
output (k, f) and contraction position d the left operand is read at (k, d) and the right at (d, f). -/

theorem lhs_sel_0 (i : S4096x256.Idx) (q : dot_S4096x8_S8x256_S4096x256_1_0_0_1_n_n.contr.Idx) :
    (dot_S4096x8_S8x256_S4096x256_1_0_0_1_n_n.lhsIdx i q 0).val = (i 0).val := by
  unfold DotDims.lhsIdx
  rw [dif_neg (show ¬(0 : Fin S4096x8.rank) ∈ dot_S4096x8_S8x256_S4096x256_1_0_0_1_n_n.lhsBatch by decide),
    dif_pos (show (0 : Fin S4096x8.rank) ∈ dot_S4096x8_S8x256_S4096x256_1_0_0_1_n_n.lhsNonContracting by decide)]
  rfl
theorem lhs_sel_1 (i : S4096x256.Idx) (q : dot_S4096x8_S8x256_S4096x256_1_0_0_1_n_n.contr.Idx) :
    (dot_S4096x8_S8x256_S4096x256_1_0_0_1_n_n.lhsIdx i q 1).val = (q ⟨0, by decide⟩).val :=
  dot_S4096x8_S8x256_S4096x256_1_0_0_1_n_n.lhsIdx_val_of_single rfl i q
theorem rhs_sel_0 (i : S4096x256.Idx) (q : dot_S4096x8_S8x256_S4096x256_1_0_0_1_n_n.contr.Idx) :
    (dot_S4096x8_S8x256_S4096x256_1_0_0_1_n_n.rhsIdx i q 0).val = (q ⟨0, by decide⟩).val :=
  dot_S4096x8_S8x256_S4096x256_1_0_0_1_n_n.rhsIdx_val_of_single rfl i q
theorem rhs_sel_1 (i : S4096x256.Idx) (q : dot_S4096x8_S8x256_S4096x256_1_0_0_1_n_n.contr.Idx) :
    (dot_S4096x8_S8x256_S4096x256_1_0_0_1_n_n.rhsIdx i q 1).val = (i 1).val := by
  unfold DotDims.rhsIdx
  rw [dif_neg (show ¬(1 : Fin S8x256.rank) ∈ dot_S4096x8_S8x256_S4096x256_1_0_0_1_n_n.rhsBatch by decide),
    dif_pos (show (1 : Fin S8x256.rank) ∈ dot_S4096x8_S8x256_S4096x256_1_0_0_1_n_n.rhsNonContracting by decide)]
  rfl

/-- A [4096,8] by [8,256] product into the zero splat, at row k and feature f: the sum over the 8 labels. -/
theorem sel_apply (oh : FVec Ideal S4096x8 .bf16) (tab : FVec Ideal S8x256 .bf16) (k : Fin 4096) (f : Fin 256) :
    matmul dot_S4096x8_S8x256_S4096x256_1_0_0_1_n_n none oh tab (constant (F := Ideal) S4096x256 .f32 0x00000000#32) (ix2 k f)
      = ∑ d : Fin 8, oh (ix2 k d) * tab (ix2 d f) := by
  simp only [matmul]
  rw [Ideal.matmul_constant_zero_apply,
    ← Equiv.sum_comp (contrEquiv1 dot_S4096x8_S8x256_S4096x256_1_0_0_1_n_n 8 rfl rfl).symm]
  refine Finset.sum_congr rfl fun d _ => ?_
  have hd := contrEquiv1_symm_val dot_S4096x8_S8x256_S4096x256_1_0_0_1_n_n 8 rfl rfl d
  have el : dot_S4096x8_S8x256_S4096x256_1_0_0_1_n_n.lhsIdx (ix2 k f)
      ((contrEquiv1 dot_S4096x8_S8x256_S4096x256_1_0_0_1_n_n 8 rfl rfl).symm d) = ix2 k d := funext fun a => Fin.ext (by
    match a with
    | ⟨0, _⟩ => exact lhs_sel_0 _ _
    | ⟨1, _⟩ => exact (lhs_sel_1 _ _).trans hd)
  have er : dot_S4096x8_S8x256_S4096x256_1_0_0_1_n_n.rhsIdx (ix2 k f)
      ((contrEquiv1 dot_S4096x8_S8x256_S4096x256_1_0_0_1_n_n 8 rfl rfl).symm d) = ix2 d f := funext fun a => Fin.ext (by
    match a with
    | ⟨0, _⟩ => exact (rhs_sel_0 _ _).trans hd
    | ⟨1, _⟩ => exact rhs_sel_1 _ _)
  rw [el, er]

/-- The one-hot row of a label, at row k and position d: 1 where the label is d, else 0. -/
theorem onehot_apply (x0 : Vec Ideal S4096x1 .i32) (hb : S4096x1.Broadcasts S4096x8) (hi : S4096x8.Iotas .tc 32 [1])
    (h1 : 1 < 32) (ht : FTy.bits .bf16 < FTy.bits .f32) (k : Fin 4096) (d : Fin 8) :
    (truncf .bf16 (sitofp (F := Ideal) .f32 (extui 32 (cmpi .eq (broadcastTo S4096x8 x0 hb) (iota .tc S4096x8 32 [1] hi)) h1)) ht
        : FVec Ideal S4096x8 .bf16) (ix2 k d)
      = if x0 (ix2 k 0) = BitVec.ofNat 32 d.val then 1 else 0 := by
  rw [truncf_apply, sitofp_apply, extui_apply]
  have hbc : broadcastTo S4096x8 x0 hb (ix2 k d) = x0 (ix2 k 0) :=
    broadcastTo_apply x0 hb (ix2 k d) (ix2 k 0) (fun a => by
      match a with
      | ⟨0, _⟩ => rfl
      | ⟨1, _⟩ => rfl)
  have hio : iota .tc S4096x8 32 [1] hi (ix2 k d) = BitVec.ofNat 32 d.val := iota_single_apply _ _ _ _ _ _
  show FloatOps.sitofp .f32 (BitVec.setWidth 32 (IntOp.cmpi .eq (broadcastTo S4096x8 x0 hb (ix2 k d)) (iota .tc S4096x8 32 [1] hi (ix2 k d)))) = _
  rw [hbc, hio]
  by_cases h : x0 (ix2 k 0) = BitVec.ofNat 32 d.val
  · rw [if_pos h, h]
    have e : IntOp.cmpi .eq (BitVec.ofNat 32 d.val) (BitVec.ofNat 32 d.val) = 1#1 := by simp [IntOp.cmpi]
    rw [e]
    show (((BitVec.setWidth 32 1#1).toInt : ℝ) : EReal) = 1
    have e1 : (BitVec.setWidth 32 1#1).toInt = 1 := by decide
    rw [e1]; simp
  · rw [if_neg h]
    have e : IntOp.cmpi .eq (x0 (ix2 k 0)) (BitVec.ofNat 32 d.val) = 0#1 := by
      have hne : (x0 (ix2 k 0) == BitVec.ofNat 32 d.val) = false := beq_eq_false_iff_ne.mpr h
      show BitVec.ofBool (x0 (ix2 k 0) == BitVec.ofNat 32 d.val) = 0#1
      rw [hne]; rfl
    rw [e]
    show (((BitVec.setWidth 32 0#1).toInt : ℝ) : EReal) = 0
    have e0 : (BitVec.setWidth 32 0#1).toInt = 0 := by decide
    rw [e0]; simp

/-! ## One point's block -/

/-- What a point leaves in the result's block, at row k of the block and feature f: the features' entry times the
    slope the row's label selects, plus the intercept it selects. -/
theorem out_apply (x0 : Vec Ideal S4096x1 .i32) (x1 : Vec Ideal S4096x256 .f32)
    (x2 x3 x4 x5 : Vec Ideal S8x256 .bf16) (k : Fin 4096) (f : Fin 256) :
    out1_6 x0 x1 x2 x3 x4 x5 (ix2 k f)
      = x1 (ix2 k f) * ((∑ d : Fin 8, (if x0 (ix2 k 0) = BitVec.ofNat 32 d.val then 1 else 0) * x2 (ix2 d f))
            + (∑ d : Fin 8, (if x0 (ix2 k 0) = BitVec.ofNat 32 d.val then 1 else 0) * x3 (ix2 d f)))
          + ((∑ d : Fin 8, (if x0 (ix2 k 0) = BitVec.ofNat 32 d.val then 1 else 0) * x4 (ix2 d f))
            + (∑ d : Fin 8, (if x0 (ix2 k 0) = BitVec.ofNat 32 d.val then 1 else 0) * x5 (ix2 d f))) := by
  unfold out1_6
  rw [View.canon_unit_zero hz]
  simp only [View.ld_unit_zero (S := S4096x1) hz, View.ld_unit_zero (S := S4096x256) hz, View.ld_unit_zero (S := S8x256) hz]
  unfold k1_pay1
  simp only [shapeCast_self]
  rw [addf_apply, mulf_apply, addf_apply, addf_apply, sel_apply, sel_apply, sel_apply, sel_apply]
  refine congrArg₂ (· + ·) (congrArg (x1 (ix2 k f) * ·) (congrArg₂ (· + ·) ?_ ?_)) (congrArg₂ (· + ·) ?_ ?_) <;>
    exact Finset.sum_congr rfl fun d _ => congrArg (· * _) (onehot_apply x0 _ _ _ _ k d)

/-! ## The blocks of a point, as parts of the arrays -/

/-- The arrays the pass reads, at their literal types. -/
abbrev segArr (c : Dev nD) : Spec.SegArr := V c main_arg1
abbrev xArr (c : Dev nD) : Spec.XArr := V c main_arg0
abbrev tab2 (c : Dev nD) : Spec.Tab := V c main_v33
abbrev tab3 (c : Dev nD) : Spec.Tab := V c main_v36
abbrev tab4 (c : Dev nD) : Spec.Tab := V c main_v37
abbrev tab5 (c : Dev nD) : Spec.Tab := V c main_v40
/-- The blocks a point reads, at their literal types. -/
abbrev segBlk (c : Dev nD) (t : Fin cfg1.N) : Vec Ideal S4096x1 .i32 := iblk1 V c 0 t
abbrev xBlk (c : Dev nD) (t : Fin cfg1.N) : Vec Ideal S4096x256 .f32 := iblk1 V c 1 t
abbrev tBlk2 (c : Dev nD) (t : Fin cfg1.N) : Vec Ideal S8x256 .bf16 := iblk1 V c 2 t
abbrev tBlk3 (c : Dev nD) (t : Fin cfg1.N) : Vec Ideal S8x256 .bf16 := iblk1 V c 3 t
abbrev tBlk4 (c : Dev nD) (t : Fin cfg1.N) : Vec Ideal S8x256 .bf16 := iblk1 V c 4 t
abbrev tBlk5 (c : Dev nD) (t : Fin cfg1.N) : Vec Ideal S8x256 .bf16 := iblk1 V c 5 t

/-- The block index of each window at point t, decided over the 64 points: the labels, the features and the result
    move with the point along the rows; the four tables stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row k of point t's label block is row 4096·t + k of the labels. -/
theorem segBlk_apply (c : Dev nD) (t : Fin cfg1.N) (k : Fin 4096) (r : Fin 262144) (hr : r.val = 4096 * t.val + k.val) :
    segBlk V c t (ix2 k 0) = segArr V c (ix2 r 0) := by
  obtain ⟨e0, e1, -⟩ := idx_facts t
  show segArr V c (((cfg1.win 0).blk t).view.emb (ix2 k 0)) = segArr V c (ix2 r 0)
  refine congrArg (segArr V c) (funext fun a => Fin.ext ?_)
  match a with
  | ⟨0, _⟩ => show win1_0.index t (0 : Fin 2) * 4096 + 1 * k.val = r.val; rw [e0, hr]; omega
  | ⟨1, _⟩ => show win1_0.index t (1 : Fin 2) * 1 + 1 * 0 = 0; rw [e1]

/-- Row k of point t's feature block is row 4096·t + k of the features. -/
theorem xBlk_apply (c : Dev nD) (t : Fin cfg1.N) (k : Fin 4096) (f : Fin 256) (r : Fin 262144)
    (hr : r.val = 4096 * t.val + k.val) : xBlk V c t (ix2 k f) = xArr V c (ix2 r f) := by
  obtain ⟨-, -, e2, e3, -⟩ := idx_facts t
  show xArr V c (((cfg1.win 1).blk t).view.emb (ix2 k f)) = xArr V c (ix2 r f)
  refine congrArg (xArr V c) (funext fun a => Fin.ext ?_)
  match a with
  | ⟨0, _⟩ => show win1_1.index t (0 : Fin 2) * 4096 + 1 * k.val = r.val; rw [e2, hr]; omega
  | ⟨1, _⟩ => show win1_1.index t (1 : Fin 2) * 256 + 1 * f.val = f.val; rw [e3]; omega

/-- Each table's block is the whole table, at every point. -/
theorem tBlk2_eq (c : Dev nD) (t : Fin cfg1.N) : tBlk2 V c t = tab2 V c := by
  obtain ⟨-, -, -, -, e4, e5, -⟩ := idx_facts t
  funext y
  show tab2 V c (((cfg1.win 2).blk t).view.emb y) = tab2 V c y
  refine congrArg (tab2 V c) (funext fun a => Fin.ext ?_)
  match a with
  | ⟨0, _⟩ => show win1_2.index t (0 : Fin 2) * 8 + 1 * (y 0).val = (y 0).val; rw [e4]; omega
  | ⟨1, _⟩ => show win1_2.index t (1 : Fin 2) * 256 + 1 * (y 1).val = (y 1).val; rw [e5]; omega
theorem tBlk3_eq (c : Dev nD) (t : Fin cfg1.N) : tBlk3 V c t = tab3 V c := by
  obtain ⟨-, -, -, -, -, -, e6, e7, -⟩ := idx_facts t
  funext y
  show tab3 V c (((cfg1.win 3).blk t).view.emb y) = tab3 V c y
  refine congrArg (tab3 V c) (funext fun a => Fin.ext ?_)
  match a with
  | ⟨0, _⟩ => show win1_3.index t (0 : Fin 2) * 8 + 1 * (y 0).val = (y 0).val; rw [e6]; omega
  | ⟨1, _⟩ => show win1_3.index t (1 : Fin 2) * 256 + 1 * (y 1).val = (y 1).val; rw [e7]; omega
theorem tBlk4_eq (c : Dev nD) (t : Fin cfg1.N) : tBlk4 V c t = tab4 V c := by
  obtain ⟨-, -, -, -, -, -, -, -, e8, e9, -⟩ := idx_facts t
  funext y
  show tab4 V c (((cfg1.win 4).blk t).view.emb y) = tab4 V c y
  refine congrArg (tab4 V c) (funext fun a => Fin.ext ?_)
  match a with
  | ⟨0, _⟩ => show win1_4.index t (0 : Fin 2) * 8 + 1 * (y 0).val = (y 0).val; rw [e8]; omega
  | ⟨1, _⟩ => show win1_4.index t (1 : Fin 2) * 256 + 1 * (y 1).val = (y 1).val; rw [e9]; omega
theorem tBlk5_eq (c : Dev nD) (t : Fin cfg1.N) : tBlk5 V c t = tab5 V c := by
  obtain ⟨-, -, -, -, -, -, -, -, -, -, e10, e11, -⟩ := idx_facts t
  funext y
  show tab5 V c (((cfg1.win 5).blk t).view.emb y) = tab5 V c y
  refine congrArg (tab5 V c) (funext fun a => Fin.ext ?_)
  match a with
  | ⟨0, _⟩ => show win1_5.index t (0 : Fin 2) * 8 + 1 * (y 0).val = (y 0).val; rw [e10]; omega
  | ⟨1, _⟩ => show win1_5.index t (1 : Fin 2) * 256 + 1 * (y 1).val = (y 1).val; rw [e11]; omega

/-! ## What a point writes back, and the whole array -/

/-- Point t writes back block t of the row-by-row function of the arrays. -/
theorem flushed_eq (c : Dev nD) (t : Fin cfg1.N) :
    (dat1 (F := Ideal) V c).flushed 6 t
      = ((cfg1.win 6).blk t).view.read (Elt Ideal)
          (Spec.normOut (V c main_arg1) (V c main_arg0) (V c main_v33) (V c main_v36) (V c main_v37) (V c main_v40)) := by
  show (cfg1.win 6).cut (grid1.coords t) ((dat1 V c).after 6 t) = _
  rw [after1_6]
  funext j
  obtain ⟨k, f, rfl⟩ : ∃ (k : Fin 4096) (f : Fin 256), j = ix2 k f := ⟨j 0, j 1, eq_ix2 j⟩
  have ht : t.val < 64 := Nat.lt_of_lt_of_eq t.isLt N_1
  have hr : 4096 * t.val + k.val < 262144 := by have := k.isLt; omega
  obtain ⟨-, -, -, -, -, -, -, -, -, -, -, -, e12, e13⟩ := idx_facts t
  have hemb : ((cfg1.win 6).blk t).view.emb (ix2 k f) = ix2 (⟨4096 * t.val + k.val, hr⟩ : Fin 262144) f :=
    funext fun a => Fin.ext (by
      match a with
      | ⟨0, _⟩ => show win1_6.index t (0 : Fin 2) * 4096 + 1 * k.val = 4096 * t.val + k.val; rw [e12]; omega
      | ⟨1, _⟩ => show win1_6.index t (1 : Fin 2) * 256 + 1 * f.val = f.val; rw [e13]; omega)
  show out1_6 (segBlk V c t) (xBlk V c t) (tBlk2 V c t) (tBlk3 V c t) (tBlk4 V c t) (tBlk5 V c t) (ix2 k f)
    = Spec.normOut (segArr V c) (xArr V c) (tab2 V c) (tab3 V c) (tab4 V c) (tab5 V c) (((cfg1.win 6).blk t).view.emb (ix2 k f))
  refine (out_apply (segBlk V c t) (xBlk V c t) (tBlk2 V c t) (tBlk3 V c t) (tBlk4 V c t) (tBlk5 V c t) k f).trans ?_
  rw [hemb, segBlk_apply V c t k ⟨4096 * t.val + k.val, hr⟩ rfl, xBlk_apply V c t k f ⟨4096 * t.val + k.val, hr⟩ rfl,
    tBlk2_eq V c t, tBlk3_eq V c t, tBlk4_eq V c t, tBlk5_eq V c t]
  rfl

/-- Row r of the result lies in the block of point r / 4096: the 64 blocks tile the array. -/
theorem cover (i : S262144x256.Idx) :
    ∃ t : Fin cfg1.N, (cfg1.win 6).flush t = true ∧ i ∈ ((cfg1.win 6).blk t).view.set := by
  have hi0 : (i 0).val < 262144 := idx2_lt0 i
  have hi1 : (i 1).val < 256 := idx2_lt1 i
  obtain ⟨t, ht⟩ : ∃ t : Fin cfg1.N, t.val = (i 0).val / 4096 :=
    ⟨⟨(i 0).val / 4096, Nat.lt_of_lt_of_eq (by omega : (i 0).val / 4096 < 64) N_1.symm⟩, rfl⟩
  obtain ⟨-, -, -, -, -, -, -, -, -, -, -, -, e12, e13⟩ := idx_facts t
  refine ⟨t, flush1_6 t, ?_⟩
  show i ∈ ((View.whole main_v41).slice (win1_6.rect t)).set
  rw [View.set_slice_whole, Rect.mem_set_unit]
  intro a
  match a with
  | ⟨0, _⟩ =>
    show win1_6.index t (0 : Fin 2) * 4096 ≤ (i 0).val ∧ (i 0).val < win1_6.index t (0 : Fin 2) * 4096 + 4096
    rw [e12, ht]; omega
  | ⟨1, _⟩ =>
    show win1_6.index t (1 : Fin 2) * 256 ≤ (i 1).val ∧ (i 1).val < win1_6.index t (1 : Fin 2) * 256 + 256
    rw [e13]; omega

/-- The result array after the pass is the row-by-row function of the arrays the pass found. -/
theorem norm_out (c : Dev nD) :
    (dat1 (F := Ideal) V c).arrAt 6 cfg1.N
      = Spec.normOut (V c main_arg1) (V c main_arg0) (V c main_v33) (V c main_v36) (V c main_v37) (V c main_v40) :=
  (dat1 (F := Ideal) V c).arrAt_eq_of_cover 6
    (Spec.normOut (V c main_arg1) (V c main_arg0) (V c main_v33) (V c main_v36) (V c main_v37) (V c main_v40))
    (fun t _ => flushed_eq V c t) (fun i => cover i)

end Cert.KernelIdeal.KNorm

end
-- ==== Proof.KValue.lean ====
/-
  The idealized kernel's run with its result as one function of the arguments: the second pass's array, whose
  tables are the host stretch's slope and intercept of the first pass's totals.
-/
import proofs.«412241_j70480413328182_3_alg».proof.Proof.Gen.KernelIdeal.Frame
import proofs.«412241_j70480413328182_3_alg».proof.Proof.Spec
import proofs.«412241_j70480413328182_3_alg».proof.Proof.KRun
import proofs.«412241_j70480413328182_3_alg».proof.Proof.KTables
import proofs.«412241_j70480413328182_3_alg».proof.Proof.KNorm
import Idealize.ShloMosaic.Lib.ValueIdx
import Idealize.ShloMosaic.Lib.Pipeline.Value
import Idealize.ShloMosaic.PureOps.Ideal.Laws

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The last boundary's contents at the result buffer are the one-pass function of the arguments. -/
theorem W3_result (c : Dev nD) :
    W3 m ρ c (Proc.devRef .tc main_v41) = Spec.Kfun (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have h6 : W3 m ρ c (Proc.devRef .tc main_v41) = (dat1 (F := Ideal) (V2 m ρ) c).arrAt 6 cfg1.N := W3_arr m ρ c 6
  rw [h6, KNorm.norm_out (V2 m ρ) c, KTables.V2_arg0, KTables.V2_arg1, KTables.V2_scale_hi, KTables.V2_scale_lo,
    KTables.V2_bias_hi, KTables.V2_bias_lo]
  rfl

theorem run :
    θ_run defs (onTc (τ := τ) (main (F := Ideal))) ⟨m, fun _ => 0, ρ⟩ (fun r => ∀ c : Dev nD,
      r.2.mem ((c.tc : Thread nD τ).loc main_v41) = Spec.Kfun (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W3_result m ρ c), (h c).2⟩) (run_named (F := Ideal) m ρ)

end Cert.KernelIdeal.KValue

end
-- ==== Proof.LibIndexed.lean ====
/-
  Two host operations read at an index, for any sizes.

  TAKING ROWS. jnp's `table[idx]` over a table of N rows of C entries prints as a gather whose start indices are the
  [n, 1] column of row numbers: axis 0 of the table collapsed and start-indexed, axis 1 the offset axis, slices one
  row wide. Result entry (p, q) is the table's entry (r, q), where r is position p's row number read signed and
  clamped into 0 … N - 1.

  ADDING INTO ROWS. A scatter with an add body over the same column of row numbers, at the extended reals: entry
  (r, q) of the result is the operand's plus the sum, over the positions p whose row number read signed is r, of the
  update's entry (p, q); and likewise for a vector of N entries and a vector of n updates. A row number outside
  0 … N - 1 names no row, and its update is dropped.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibIndexed

open Idealize.ShloMosaic Idealize.ShloMosaic.ValueIdx Idealize.ShloMosaic.StableHlo.Predicate

/-! ## Taking rows -/

/-- Rows taken from a table: entry (p, q) is the table at (row number of p, clamped; q). -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![n, 1]⟩ w) (p : Fin n) (q : Fin C) (hN : 0 < N) :
    Host.gather d x idx (ix2 p q) = x (ix2 ⟨min (idx (ixP p)).toInt.toNat (N - 1), by omega⟩ q) := by
  unfold Host.gather
  congr 1
  funext a
  apply Fin.ext
  have hb : ∀ a : Fin 2, a ∉ d.operandBatchingDims := by intro a; rw [hob]; exact List.not_mem_nil
  match a with
  | ⟨0, _⟩ =>
    -- the row axis: collapsed (slice size 1, no offset coordinate), not batching, and the one start-indexed axis
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = min (idx (ixP p)).toInt.toNat (N - 1)
    rw [GatherDims.batchCoord_eq_zero _ _ _ (hb _), GatherDims.offCoord_eq_zero _ _ _ hk, Nat.add_zero]
    unfold GatherDims.start
    rw [dif_pos hm]
    -- the start index of result entry (p, q) is read at row p of the column
    have hsi : d.siIdx (ix2 p q) ⟨List.idxOf (0 : Fin 2) d.startIndexMap, List.idxOf_lt_length_iff.2 hm⟩ = ixP p := by
      funext b
      apply Fin.ext
      match b with
      | ⟨0, _⟩ =>
        unfold GatherDims.siIdx
        rw [dif_neg (by rw [hivd]; simp)]
        unfold GatherDims.siCoord
        simp only [Fin.val_cast]
        -- the result's one batch axis (the one that is not the offset axis) is axis 0
        have e : ∀ X : Fin 2, X ∈ d.batchDims → ((ix2 p q : (⟨2, ![n, C]⟩ : Shape).Idx) X).val = p.val := by
          intro X hX
          have hX1 : X ∉ d.offsetDims := by
            have := hX
            simp only [GatherDims.batchDims, Shape.kept, List.mem_filter, List.mem_finRange, true_and,
              decide_eq_true_eq] at this
            exact this
          rw [hoff] at hX1
          have hX0 : X = 0 := by
            match X with
            | ⟨0, _⟩ => rfl
            | ⟨1, _⟩ => exact absurd (List.mem_singleton.mpr rfl) hX1
          subst hX0; rfl
        exact e _ (List.getElem_mem _)
      | ⟨1, _⟩ =>
        unfold GatherDims.siIdx
        rw [dif_pos (by rw [hivd])]
        show List.idxOf (0 : Fin 2) d.startIndexMap = 0
        rw [hsim]; simp
    rw [hsi, hsl]
    rfl
  | ⟨1, _⟩ =>
    -- the entry axis: not start-indexed (start 0), not batching, the offset axis: the result's coordinate 1
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hb _), Nat.add_zero]
    unfold GatherDims.start
    rw [dif_neg hm, Nat.zero_add]
    unfold GatherDims.offCoord
    rw [dif_pos hk]
    have e : ∀ X : Fin 2, X ∈ d.offsetDims → ((ix2 p q : (⟨2, ![n, C]⟩ : Shape).Idx) X).val = q.val := by
      intro X hX
      rw [hoff] at hX
      obtain rfl : X = 1 := List.mem_singleton.mp hX
      rfl
    exact e _ (List.getElem_mem _)

/-! ## Adding into the rows of a table

Update (p, q') lands at (row number of p read signed, q') when that row number is one of 0 … N - 1, and nowhere
otherwise: its start is the row number on axis 0 and 0 on axis 1, its window coordinate 0 on axis 0 and q' on axis 1. -/

section Rows
variable {N C n w : Nat} (d : ScatterDims ⟨2, ![N, C]⟩ ⟨2, ![n, 1]⟩ ⟨2, ![n, C]⟩)

/-- On the row axis the start is the row number of the update's position, read signed. -/
theorem rows_start0 (huw : d.updateWindowDims = [1]) (hsd : d.scatterDimsToOperandDims = [0])
    (hivd : d.indexVectorDim = 1) (idx : IVec ⟨2, ![n, 1]⟩ w) (j : (⟨2, ![n, C]⟩ : Shape).Idx) :
    d.start j idx 0 = (idx (ixP (j 0))).toInt := by
  have hm : (0 : Fin 2) ∈ d.scatterDimsToOperandDims := by rw [hsd]; exact List.mem_singleton.mpr rfl
  unfold ScatterDims.start
  rw [dif_pos hm]
  congr 2
  funext b
  apply Fin.ext
  match b with
  | ⟨0, _⟩ =>
    unfold ScatterDims.siIdx
    rw [dif_neg (by rw [hivd]; simp)]
    unfold ScatterDims.siCoord
    simp only [Fin.val_cast]
    -- the update's one scatter axis (the one that is not the window axis) is axis 0
    have e : ∀ X : Fin 2, X ∈ d.uScatter → (j X).val = (j 0).val := by
      intro X hX
      have hX1 : X ∉ d.updateWindowDims := by
        have := hX
        simp only [ScatterDims.uScatter, Shape.kept, List.mem_filter, List.mem_finRange, true_and,
          decide_eq_true_eq] at this
        exact this
      rw [huw] at hX1
      have hX0 : X = 0 := by
        match X with
        | ⟨0, _⟩ => rfl
        | ⟨1, _⟩ => exact absurd (List.mem_singleton.mpr rfl) hX1
      subst hX0; rfl
    exact e _ (List.getElem_mem _)
  | ⟨1, _⟩ =>
    unfold ScatterDims.siIdx
    rw [dif_pos (by rw [hivd])]
    show List.idxOf (0 : Fin 2) d.scatterDimsToOperandDims = 0
    rw [hsd]; simp

/-- On the entry axis, which the index map does not name, the start is 0. -/
theorem rows_start1 (hsd : d.scatterDimsToOperandDims = [0]) (idx : IVec ⟨2, ![n, 1]⟩ w)
    (j : (⟨2, ![n, C]⟩ : Shape).Idx) : d.start j idx 1 = 0 := by
  unfold ScatterDims.start
  rw [dif_neg (by rw [hsd]; simp)]

/-- The row axis is inserted: no window coordinate. -/
theorem rows_window0 (hiw : d.insertedWindowDims = [0]) (j : (⟨2, ![n, C]⟩ : Shape).Idx) : d.window j 0 = 0 := by
  unfold ScatterDims.window
  rw [dif_neg (by simp [ScatterDims.sKept, Shape.kept, hiw])]

/-- The entry axis takes the update's window coordinate, its coordinate 1. -/
theorem rows_window1 (huw : d.updateWindowDims = [1]) (hiw : d.insertedWindowDims = [0])
    (j : (⟨2, ![n, C]⟩ : Shape).Idx) : d.window j 1 = (j 1).val := by
  unfold ScatterDims.window
  rw [dif_pos (by simp [ScatterDims.sKept, Shape.kept, hiw])]
  have e : ∀ X : Fin 2, X ∈ d.updateWindowDims → (j X).val = (j 1).val := by
    intro X hX
    rw [huw] at hX
    obtain rfl : X = 1 := List.mem_singleton.mp hX
    rfl
  exact e _ (List.getElem_mem _)

/-- Update `j` lands at (r, q) exactly when its position's row number, read signed, is r and its coordinate 1 is q. -/
theorem rows_resultIdx_iff (huw : d.updateWindowDims = [1]) (hiw : d.insertedWindowDims = [0])
    (hsd : d.scatterDimsToOperandDims = [0]) (hivd : d.indexVectorDim = 1)
    (idx : IVec ⟨2, ![n, 1]⟩ w) (j : (⟨2, ![n, C]⟩ : Shape).Idx) (r : Fin N) (q : Fin C) :
    d.resultIdx? j idx = some (ix2 r q) ↔ (idx (ixP (j 0))).toInt = (r.val : ℤ) ∧ j 1 = q := by
  have hs0 := rows_start0 d huw hsd hivd idx j
  have hs1 := rows_start1 d hsd idx j
  have hw0 := rows_window0 d hiw j
  have hw1 := rows_window1 d huw hiw j
  unfold ScatterDims.resultIdx?
  constructor
  · intro h
    split at h
    · next hc =>
      have hf := Option.some.inj h
      have h0 := congrArg (fun f => (f 0).val) hf
      have h1 := congrArg (fun f => (f 1).val) hf
      have hc0 := hc 0
      simp only [hs0, hs1, hw0, hw1] at h0 h1 hc0
      change _ = r.val at h0
      change _ = q.val at h1
      exact ⟨by omega, Fin.ext (by omega)⟩
    · exact absurd h (by simp)
  · rintro ⟨h0, h1⟩
    have hc : ∀ a : Fin 2, 0 ≤ d.start j idx a + ↑(d.window j a)
        ∧ d.start j idx a + ↑(d.window j a) < ↑((⟨2, ![N, C]⟩ : Shape).size a) := by
      intro a
      match a with
      | ⟨0, _⟩ =>
        show 0 ≤ d.start j idx 0 + ↑(d.window j 0) ∧ d.start j idx 0 + ↑(d.window j 0) < (N : ℤ)
        rw [hs0, hw0, h0]; have := r.isLt; omega
      | ⟨1, _⟩ =>
        show 0 ≤ d.start j idx 1 + ↑(d.window j 1) ∧ d.start j idx 1 + ↑(d.window j 1) < (C : ℤ)
        rw [hs1, hw1]; have := idx2_lt1 j; omega
    rw [dif_pos hc]
    congr 1
    funext a
    apply Fin.ext
    match a with
    | ⟨0, _⟩ => show (d.start j idx 0 + ↑(d.window j 0)).toNat = r.val; rw [hs0, hw0, h0]; omega
    | ⟨1, _⟩ => show (d.start j idx 1 + ↑(d.window j 1)).toNat = q.val; rw [hs1, hw1, ← h1]; omega

end Rows

/-- Updates added into the rows of a table, at the extended reals. -/
theorem scatterAdd_rows {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![n, 1]⟩ w) (upd : (⟨2, ![n, C]⟩ : Shape).Idx → EReal)
    (r : Fin N) (q : Fin C) :
    Ideal.hostScatterAdd d x idx upd (ix2 r q)
      = x (ix2 r q) + ∑ p : Fin n, if (idx (ixP p)).toInt = (r.val : ℤ) then upd (ix2 p q) else 0 := by
  unfold Ideal.hostScatterAdd
  congr 1
  -- the sum over the updates that land at (r, q), as a double sum over positions and entries
  rw [Finset.sum_filter, sum_idx2]
  refine Finset.sum_congr rfl fun p _ => ?_
  have hcond : ∀ q' : Fin C, d.resultIdx? (ix2 p q') idx = some (ix2 r q)
      ↔ ((idx (ixP p)).toInt = (r.val : ℤ) ∧ q' = q) :=
    fun q' => rows_resultIdx_iff d huw hiw hsd hivd idx (ix2 p q') r q
  -- of position p's entries only entry q can land there, and it does exactly when p's row number is r
  by_cases hp : (idx (ixP p)).toInt = (r.val : ℤ)
  · rw [if_pos hp, Finset.sum_congr rfl (fun q' _ => if_congr ((hcond q').trans (and_iff_right hp)) rfl rfl)]
    exact (Finset.sum_ite_eq' Finset.univ q _).trans (if_pos (Finset.mem_univ _))
  · rw [if_neg hp]
    exact Finset.sum_eq_zero fun q' _ => if_neg (fun h => hp ((hcond q').1 h).1)

/-! ## Adding into the entries of a vector

Update p lands at entry (row number of p read signed) when that is one of 0 … N - 1, and nowhere otherwise: the
operand's one axis is inserted (no window coordinate) and start-indexed. -/

section Vec
variable {N n w : Nat} (d : ScatterDims ⟨1, ![N]⟩ ⟨2, ![n, 1]⟩ ⟨1, ![n]⟩)

/-- The start is the row number of the update's position, read signed. -/
theorem vec_start0 (hsd : d.scatterDimsToOperandDims = [0]) (hivd : d.indexVectorDim = 1)
    (idx : IVec ⟨2, ![n, 1]⟩ w) (j : (⟨1, ![n]⟩ : Shape).Idx) :
    d.start j idx 0 = (idx (ixP (j 0))).toInt := by
  have hm : (0 : Fin 1) ∈ d.scatterDimsToOperandDims := by rw [hsd]; exact List.mem_singleton.mpr rfl
  unfold ScatterDims.start
  rw [dif_pos hm]
  congr 2
  funext b
  apply Fin.ext
  match b with
  | ⟨0, _⟩ =>
    unfold ScatterDims.siIdx
    rw [dif_neg (by rw [hivd]; simp)]
    unfold ScatterDims.siCoord
    simp only [Fin.val_cast]
    have e : ∀ X : Fin 1, (j X).val = (j 0).val := fun X => by
      obtain rfl : X = 0 := Subsingleton.elim _ _
      rfl
    exact e _
  | ⟨1, _⟩ =>
    unfold ScatterDims.siIdx
    rw [dif_pos (by rw [hivd])]
    show List.idxOf (0 : Fin 1) d.scatterDimsToOperandDims = 0
    rw [hsd]; simp

/-- The operand's one axis is inserted: no window coordinate. -/
theorem vec_window0 (hiw : d.insertedWindowDims = [0]) (j : (⟨1, ![n]⟩ : Shape).Idx) : d.window j 0 = 0 := by
  unfold ScatterDims.window
  rw [dif_neg (by simp [ScatterDims.sKept, Shape.kept, hiw])]

/-- Update `j` lands at entry r exactly when its position's row number, read signed, is r. -/
theorem vec_resultIdx_iff (hiw : d.insertedWindowDims = [0]) (hsd : d.scatterDimsToOperandDims = [0])
    (hivd : d.indexVectorDim = 1) (idx : IVec ⟨2, ![n, 1]⟩ w) (j : (⟨1, ![n]⟩ : Shape).Idx) (r : Fin N) :
    d.resultIdx? j idx = some (ix1 r) ↔ (idx (ixP (j 0))).toInt = (r.val : ℤ) := by
  have hs0 := vec_start0 d hsd hivd idx j
  have hw0 := vec_window0 d hiw j
  unfold ScatterDims.resultIdx?
  constructor
  · intro h
    split at h
    · next hc =>
      have hf := Option.some.inj h
      have h0 := congrArg (fun f => (f 0).val) hf
      have hc0 := hc 0
      simp only [hs0, hw0] at h0 hc0
      change _ = r.val at h0
      omega
    · exact absurd h (by simp)
  · intro h0
    have hc : ∀ a : Fin 1, 0 ≤ d.start j idx a + ↑(d.window j a)
        ∧ d.start j idx a + ↑(d.window j a) < ↑((⟨1, ![N]⟩ : Shape).size a) := by
      intro a
      obtain rfl : a = 0 := Subsingleton.elim _ _
      show 0 ≤ d.start j idx 0 + ↑(d.window j 0) ∧ d.start j idx 0 + ↑(d.window j 0) < (N : ℤ)
      rw [hs0, hw0, h0]; have := r.isLt; omega
    rw [dif_pos hc]
    congr 1
    funext a
    apply Fin.ext
    obtain rfl : a = 0 := Subsingleton.elim _ _
    show (d.start j idx 0 + ↑(d.window j 0)).toNat = r.val
    rw [hs0, hw0, h0]; omega

end Vec

/-- A sum over a rank-1 index set is the sum over its coordinate range. -/
theorem sum_idx1 {M : Type*} [AddCommMonoid M] {m : Nat} (f : (⟨1, ![m]⟩ : Shape).Idx → M) :
    ∑ i, f i = ∑ a : Fin m, f (ix1 a) :=
  (Equiv.sum_comp (⟨fun i => i 0, ix1, fun i => (eq_ix1 i).symm, fun _ => rfl⟩ :
    (⟨1, ![m]⟩ : Shape).Idx ≃ Fin m).symm f).symm

/-- Updates added into the entries of a vector, at the extended reals. -/
theorem scatterAdd_vec {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![n, 1]⟩ w) (upd : (⟨1, ![n]⟩ : Shape).Idx → EReal)
    (r : Fin N) :
    Ideal.hostScatterAdd d x idx upd (ix1 r)
      = x (ix1 r) + ∑ p : Fin n, if (idx (ixP p)).toInt = (r.val : ℤ) then upd (ix1 p) else 0 := by
  unfold Ideal.hostScatterAdd
  congr 1
  rw [Finset.sum_filter, sum_idx1]
  exact Finset.sum_congr rfl fun p _ => if_congr (vec_resultIdx_iff d hiw hsd hivd idx (ix1 p) r) rfl rfl

end Cert.LibIndexed

end
-- ==== Proof.RefStats.lean ====
/-
  The reference's per-label statistics, read at an index, for labels in range: the clamped count (a scatter of
  ones), the mean (a scatter of the features over the count), each row centred by its own label's mean (a take of the
  mean's rows), and the variance (a scatter of the centred squares over the count).
-/
import proofs.«412241_j70480413328182_3_alg».proof.Proof.Gen.ReferenceIdeal.Read
import proofs.«412241_j70480413328182_3_alg».proof.Proof.Spec
import proofs.«412241_j70480413328182_3_alg».proof.Proof.LibIndexed
import Idealize.ShloMosaic.Lib.ValueIdx
import Idealize.ShloMosaic.Lib.Pipeline.Value
import Idealize.ShloMosaic.PureOps.Ideal.Laws
import Idealize.ShloMosaic.Lib.StableHlo.Predicate

noncomputable section

namespace Cert.ReferenceIdeal.RefStats

open Idealize.ShloMosaic Idealize.ShloMosaic.TcCoe Idealize.SL.Sem Idealize.ShloMosaic.ValueIdx
open Idealize.ShloMosaic.StableHlo.Predicate
open Cert.ReferenceIdeal Cert.ReferenceIdeal.Gen Cert.ReferenceIdeal.Read

variable (x : Spec.XArr) (seg : Spec.SegArr)

/-! ## Indices, the label column, and the label test -/

/-- The column index of position p is the pair (p, 0). -/
theorem ixP_eq (p : Fin 262144) : (ixP p : (⟨2, ![262144, 1]⟩ : Shape).Idx) = ix2 p 0 := by
  funext a; match a with | ⟨0, _⟩ => rfl | ⟨1, _⟩ => rfl

/-- Flattening the label column and spreading it back into a column reads position p at (p, 0). -/
theorem idx_col (p : Fin 262144) : idx_main_v0 (idx_main_v3 (ixP p)) = ix2 p 0 := by
  funext a
  match a with
  | ⟨0, _⟩ => exact Fin.ext (Nat.div_one _)
  | ⟨1, _⟩ => rfl

/-- The three copies of the label column the scatters index by are the label column itself. -/
theorem col3 (p : Fin 262144) : val_main_v3 (F := Ideal) seg (ixP p) = seg (ix2 p 0) := by
  rw [val_main_v3_apply, val_main_v0_apply, idx_col]
theorem col8 (p : Fin 262144) : val_main_v8 (F := Ideal) seg (ixP p) = seg (ix2 p 0) := col3 seg p
theorem col23 (p : Fin 262144) : val_main_v23 (F := Ideal) seg (ixP p) = seg (ix2 p 0) := col3 seg p

/-- For a label in 0 … 7, reading it signed and comparing with d is comparing the word with the word of d. -/
theorem label_test (hseg : Spec.InRange seg) (t : Fin 262144) (d : Fin 8) :
    ((seg (ix2 t 0)).toInt = (d.val : ℤ)) ↔ (seg (ix2 t 0) = BitVec.ofNat 32 d.val) := by
  obtain ⟨d0, h0⟩ := hseg t
  have h1 := d0.isLt
  have h2 := d.isLt
  rw [h0, toInt_ofNat_small d0.val (by omega)]
  constructor
  · intro h
    have h3 : d0.val = d.val := by exact_mod_cast h
    rw [h3]
  · intro h
    have h3 := congrArg BitVec.toNat h
    rw [BitVec.toNat_ofNat, BitVec.toNat_ofNat] at h3
    have h4 : d0.val = d.val := by omega
    rw [h4]

/-! ## The clamped counts across a row, and the row a position takes -/

/-- Spreading the clamped counts first into a column and then across the 256 features reads row d. -/
theorem idx_row (d : Fin 8) (f : Fin 256) : idx_main_v10 (idx_main_v11 (ix2 d f)) = ix1 d := by
  funext a; match a with | ⟨0, _⟩ => rfl
theorem idx_row' (d : Fin 8) (f : Fin 256) : idx_main_v25 (idx_main_v26 (ix2 d f)) = ix1 d := idx_row d f
theorem idx_col' (p : Fin 262144) : idx_main_v0 (idx_main_v18 (ixP p)) = ix2 p 0 := idx_col p

/-- A label in 0 … 7 is not negative, so the wrap-around of negative labels leaves it as it is. -/
theorem norm_label (hseg : Spec.InRange seg) (t : Fin 262144) :
    val_main_v18 (F := Ideal) seg (ixP t) = seg (ix2 t 0) := by
  obtain ⟨d0, h0⟩ := hseg t
  have h1 := d0.isLt
  rw [val_main_v18_apply, val_main_v17_apply, val_main_v14_apply, val_main_v13_apply, val_main_c_apply,
    val_main_v0_apply, idx_col']
  have hlt : (seg (ix2 t 0)).toNat < 2 ^ 31 := by rw [h0, BitVec.toNat_ofNat]; omega
  have hc : ¬ (IntOp.cmpi .slt (seg (ix2 t 0)) 0#32 = 1#1) := by
    rw [slt_iff_toNat hlt (by decide)]; simp
  exact if_neg hc

/-- The row the take reads for position t (its label read signed, clamped into 0 … 7) is the label's own row. -/
theorem row_eq (hseg : Spec.InRange seg) (t : Fin 262144)
    (h : min (val_main_v18 (F := Ideal) seg (ixP t)).toInt.toNat (8 - 1) < 8) :
    (⟨min (val_main_v18 (F := Ideal) seg (ixP t)).toInt.toNat (8 - 1), h⟩ : Fin 8) = Spec.dom seg t := by
  obtain ⟨d0, h0⟩ := hseg t
  have h1 := d0.isLt
  apply Fin.ext
  show min (val_main_v18 (F := Ideal) seg (ixP t)).toInt.toNat (8 - 1) = (seg (ix2 t 0)).toNat % 8
  rw [norm_label seg hseg t, h0, toInt_ofNat_small d0.val (by omega), BitVec.toNat_ofNat, Int.toNat_natCast]
  omega

/-! ## The four statistics -/

theorem ref_cnt (hseg : Spec.InRange seg) (d : Fin 8) :
    val_main_v6 (F := Ideal) seg (ix1 d) = Spec.rN seg d := by
  rw [val_main_v6_apply, val_main_v5_apply, val_main_cst_1_apply, Ideal.maximumf_def, Ideal.ofBits_def]
  unfold val_main_v4 Host.scatterAdd
  rw [Ideal.hostScatterAdd_def, Cert.LibIndexed.scatterAdd_vec _ rfl rfl rfl rfl]
  unfold Spec.rN Spec.rCnt
  refine congrArg₂ max (congrArg₂ HAdd.hAdd ?_ (Finset.sum_congr rfl fun p _ => ?_)) rfl
  · rw [val_main_v2_apply, val_main_cst_0_apply, Ideal.ofBits_def]; rfl
  · rw [col3, val_main_v1_apply, val_main_cst_apply, Ideal.ofBits_def]
    exact if_congr (label_test seg hseg p d) rfl rfl

theorem ref_mean (hseg : Spec.InRange seg) (d : Fin 8) (f : Fin 256) :
    val_main_v12 (F := Ideal) x seg (ix2 d f) = Spec.rMean x seg d f := by
  rw [val_main_v12_apply, Ideal.hostDivf_def, val_main_v11_apply, val_main_v10_apply, idx_row, ref_cnt seg hseg d]
  unfold val_main_v9 Host.scatterAdd
  rw [Ideal.hostScatterAdd_def, Cert.LibIndexed.scatterAdd_rows _ rfl rfl rfl rfl]
  unfold Spec.rMean Spec.rS1
  refine congrArg₂ Ideal.div (congrArg₂ HAdd.hAdd ?_ (Finset.sum_congr rfl fun p _ => ?_)) rfl
  · rw [val_main_v7_apply, val_main_cst_2_apply, Ideal.ofBits_def]; rfl
  · rw [col8]
    exact if_congr (label_test seg hseg p d) rfl rfl

theorem ref_cen (hseg : Spec.InRange seg) (t : Fin 262144) (f : Fin 256) :
    val_main_v20 (F := Ideal) x seg (ix2 t f) = Spec.rCen x seg t f := by
  rw [val_main_v20_apply, Ideal.subf_def]
  unfold val_main_v19
  rw [Cert.LibIndexed.gather_rows _ rfl rfl rfl rfl rfl rfl rfl _ _ t f (by decide),
    ref_mean x seg hseg, row_eq seg hseg t]
  rfl

theorem ref_var (hseg : Spec.InRange seg) (d : Fin 8) (f : Fin 256) :
    val_main_v27 (F := Ideal) x seg (ix2 d f) = Spec.rVar x seg d f := by
  rw [val_main_v27_apply, Ideal.hostDivf_def, val_main_v26_apply, val_main_v25_apply, idx_row', ref_cnt seg hseg d]
  unfold val_main_v24 Host.scatterAdd
  rw [Ideal.hostScatterAdd_def, Cert.LibIndexed.scatterAdd_rows _ rfl rfl rfl rfl]
  unfold Spec.rVar Spec.rS2
  refine congrArg₂ Ideal.div (congrArg₂ HAdd.hAdd ?_ (Finset.sum_congr rfl fun p _ => ?_)) rfl
  · rw [val_main_v22_apply, val_main_cst_4_apply, Ideal.ofBits_def]; rfl
  · rw [col23, val_main_v21_apply, Ideal.mulf_def, ref_cen x seg hseg p f]
    exact if_congr (label_test seg hseg p d) rfl rfl

end Cert.ReferenceIdeal.RefStats

end
-- ==== Proof.RefValue.lean ====
/-
  The reference's result array, index by index, for labels in range: the centred row times the guarded inverse square
  root of its label's variance (a take of the variance's rows), times the global scale times its label's scale (a take
  from the per-label scales), plus the global shift, plus its label's shift (a take from the per-label shifts).
-/
import proofs.«412241_j70480413328182_3_alg».proof.Proof.Gen.ReferenceIdeal.Read
import proofs.«412241_j70480413328182_3_alg».proof.Proof.Spec
import proofs.«412241_j70480413328182_3_alg».proof.Proof.LibIndexed
import proofs.«412241_j70480413328182_3_alg».proof.Proof.RefStats
import Idealize.ShloMosaic.Lib.ValueIdx
import Idealize.ShloMosaic.Lib.Pipeline.Value
import Idealize.ShloMosaic.PureOps.Ideal.Laws
import Idealize.ShloMosaic.Lib.StableHlo.Predicate

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

open Idealize.ShloMosaic.StableHlo.Predicate

/-- The one-coordinate index of a vector, in its two spellings. -/
theorem ofFin_eq_ix1 {n : Nat} (p : Fin n) : (Shape.Idx.ofFin p : (⟨1, ![n]⟩ : Shape).Idx) = ix1 p := by
  funext a
  match a with
  | ⟨0, _⟩ => rfl

/-- In range, the normalised label of row t (the label plus 8 where it reads negative, else the label) is the label. -/
theorem norm_label (seg : Spec.SegArr) (hseg : Spec.InRange seg) (t : Fin 262144) :
    val_main_v33 (F := Ideal) seg (ixP t) = seg (ix2 t 0) := by
  obtain ⟨d, hd⟩ := hseg t
  rw [val_main_v33_apply, val_main_v32_apply, val_main_v29_apply, val_main_v31_apply, val_main_v0_apply,
    val_main_v28_apply, val_main_c_5_apply]
  have hi : idx_main_v0 (idx_main_v33 (ixP t)) = ix2 t 0 := by
    funext a
    match a with
    | ⟨0, _⟩ => exact Fin.ext (Nat.div_one _)
    | ⟨1, _⟩ => rfl
  rw [hi, hd]
  have hc : IntOp.cmpi CmpIPredicate.slt (BitVec.ofNat 32 d.val) 0#32 = 0#1 := by
    apply eq_zero_of_ne_one
    intro h
    have hlt := (slt_iff_toNat (by have := d.isLt; rw [BitVec.toNat_ofNat]; omega) (by decide)).mp h
    exact Nat.not_lt_zero _ hlt
  rw [hc, select_zero]

/-- In range, the position a take reads for row t (the normalised label read signed, clamped into 0 … 7) is the row's
    label. -/
theorem take_pos (seg : Spec.SegArr) (hseg : Spec.InRange seg) (t : Fin 262144)
    (h : min (val_main_v33 (F := Ideal) seg (ixP t)).toInt.toNat (8 - 1) < 8) :
    (⟨min (val_main_v33 (F := Ideal) seg (ixP t)).toInt.toNat (8 - 1), h⟩ : Fin 8) = Spec.dom seg t := by
  apply Fin.ext
  show min (val_main_v33 (F := Ideal) seg (ixP t)).toInt.toNat (8 - 1) = (seg (ix2 t 0)).toNat % 8
  rw [norm_label seg hseg t]
  obtain ⟨d, hd⟩ := hseg t
  have hd8 := d.isLt
  rw [hd, toInt_ofNat_small d.val (by omega), BitVec.toNat_ofNat]
  show min d.val (8 - 1) = d.val % 2 ^ 32 % 8
  omega

/-- The three takes are one take: the normalised label is computed three times by the same operations. -/
theorem v44_eq (seg : Spec.SegArr) : val_main_v44 (F := Ideal) seg = val_main_v33 (F := Ideal) seg := rfl
theorem v60_eq (seg : Spec.SegArr) : val_main_v60 (F := Ideal) seg = val_main_v33 (F := Ideal) seg := rfl

/-- The variance's row taken for row t is its label's. -/
theorem v34_at (x : Spec.XArr) (seg : Spec.SegArr) (hseg : Spec.InRange seg) (t : Fin 262144) (f : Fin 256) :
    val_main_v34 (F := Ideal) x seg (ix2 t f) = val_main_v27 (F := Ideal) x seg (ix2 (Spec.dom seg t) f) := by
  unfold val_main_v34
  rw [LibIndexed.gather_rows gather_S8x256_S262144x1_S262144x256_1_0_n_n_0_1_1256 rfl rfl rfl rfl rfl rfl rfl _ _ t f (by decide),
    take_pos seg hseg t]

/-- The per-label entry taken for row t is its label's. -/
theorem v45_at (seg : Spec.SegArr) (hseg : Spec.InRange seg) (dg : Spec.Vec8) (t : Fin 262144) :
    val_main_v45 (F := Ideal) seg dg (Shape.Idx.ofFin t) = dg (ix1 (Spec.dom seg t)) := by
  unfold val_main_v45
  rw [gather_take gather_S8_S262144x1_S262144_n_0_n_n_0_1_1 rfl rfl rfl rfl _ _ t (by decide), v44_eq,
    take_pos seg hseg t, ofFin_eq_ix1]

theorem v61_at (seg : Spec.SegArr) (hseg : Spec.InRange seg) (db : Spec.Vec8) (t : Fin 262144) :
    val_main_v61 (F := Ideal) seg db (Shape.Idx.ofFin t) = db (ix1 (Spec.dom seg t)) := by
  unfold val_main_v61
  rw [gather_take gather_S8_S262144x1_S262144_n_0_n_n_0_1_1 rfl rfl rfl rfl _ _ t (by decide), v60_eq,
    take_pos seg hseg t, ofFin_eq_ix1]

theorem ref_value (x : Spec.XArr) (seg : Spec.SegArr) (gg gb : Spec.Vec1) (dg db : Spec.Vec8) (hseg : Spec.InRange seg) :
    val_main_v64 (F := Ideal) x seg gg gb dg db = Spec.Rfun x seg gg gb dg db := by
  funext i
  obtain ⟨t, f, rfl⟩ : ∃ t f, i = ix2 t f := ⟨i 0, i 1, eq_ix2 i⟩
  show _ = Spec.rOut x seg gg gb dg db t f
  rw [val_main_v64_apply, val_main_v54_apply, val_main_v51_apply, val_main_v50_apply, val_main_v49_apply,
    val_main_v48_apply, val_main_v47_apply, val_main_v46_apply, val_main_v38_apply, val_main_v37_apply,
    val_main_v36_apply, val_main_v35_apply, val_main_cst_7_apply, val_main_v63_apply, val_main_v62_apply,
    val_main_v53_apply, val_main_v52_apply]
  have h47 : idx_main_v47 (idx_main_v48 (idx_main_v50 (ix2 t f))) = ix1 0 := by
    funext a
    match a with
    | ⟨0, _⟩ => rfl
  have h52 : idx_main_v52 (idx_main_v53 (ix2 t f)) = ix1 0 := by
    funext a
    match a with
    | ⟨0, _⟩ => rfl
  have h46 : idx_main_v46 (idx_main_v50 (ix2 t f)) = Shape.Idx.ofFin t := by
    funext a
    match a with
    | ⟨0, _⟩ => rfl
  have h62 : idx_main_v62 (idx_main_v63 (ix2 t f)) = Shape.Idx.ofFin t := by
    funext a
    match a with
    | ⟨0, _⟩ => rfl
  rw [h47, h52, h46, h62, v45_at seg hseg dg t, v61_at seg hseg db t, v34_at x seg hseg t f,
    RefStats.ref_cen x seg hseg t f, RefStats.ref_var x seg hseg (Spec.dom seg t) f]
  unfold Spec.rOut Spec.wEps
  simp only [Ideal.addf_def, Ideal.mulf_def, Ideal.hostUnary_rsqrt_def, Ideal.ofBits_def]

end Cert.ReferenceIdeal.RefValue

end
-- ==== Proof.BridgeSums.lean ====
/-
  Sums over the rows, rearranged. The 262144 rows are 2 halves of 32 tiles of 4096 rows, so a sum over halves, tiles
  and rows within a tile is the sum over all rows; a product with a row's one-hot label selects that label's entry;
  and with these the one-pass form's totals are the two-pass form's count and sum (the word 0 is the number 0, the
  word 1 the number 1).
-/
import proofs.«412241_j70480413328182_3_alg».proof.Proof.Spec

import Idealize.ShloMosaic.PureOps.Ideal
import Idealize.ShloMosaic.PureOps.Ideal.Laws
import Idealize.ShloMosaic.Lib.ValueIdx

noncomputable section

namespace Cert.BridgeSums

open Idealize.ShloMosaic Idealize.ShloMosaic.ValueIdx Cert.Spec

/-- The map (half, tile, row in tile) ↦ row is one-to-one: the three coordinates are the digits of the row number
    in the mixed base (2, 32, 4096). -/
theorem rowOf_injective :
    Function.Injective (fun p : Fin 2 × Fin 32 × Fin 4096 => rowOf p.1 p.2.1 p.2.2) := by
  rintro ⟨c, s, k⟩ ⟨c', s', k'⟩ h
  have h' : (c.val * 32 + s.val) * 4096 + k.val = (c'.val * 32 + s'.val) * 4096 + k'.val := congrArg Fin.val h
  have := c.isLt; have := s.isLt; have := k.isLt
  have := c'.isLt; have := s'.isLt; have := k'.isLt
  have hc : c.val = c'.val := by omega
  have hs : s.val = s'.val := by omega
  have hk : k.val = k'.val := by omega
  exact Prod.ext (Fin.ext hc) (Prod.ext (Fin.ext hs) (Fin.ext hk))

/-- Both sides have 262144 elements, so the one-to-one map is onto as well. -/
theorem rowOf_bijective :
    Function.Bijective (fun p : Fin 2 × Fin 32 × Fin 4096 => rowOf p.1 p.2.1 p.2.2) := by
  rw [Fintype.bijective_iff_injective_and_card]
  exact ⟨rowOf_injective, by simp⟩

/-- Halves, tiles and rows within a tile enumerate every row once. -/
theorem sum_rowOf (g : Fin 262144 → EReal) :
    ∑ c : Fin 2, ∑ s : Fin 32, ∑ k : Fin 4096, g (rowOf c s k) = ∑ t : Fin 262144, g t := by
  rw [← Fintype.sum_bijective _ rowOf_bijective (fun p => g (rowOf p.1 p.2.1 p.2.2)) g (fun _ => rfl)]
  simp only [Fintype.sum_prod_type]

theorem wZero_eq : wZero = 0 := Ideal.ofBits_zero_f32
theorem wOne_eq : wOne = 1 := by
  simp [wOne, Ideal.ofBits, Ideal.ieee, -EReal.coe_mul]; norm_num
/-- The variance guard is a positive real. -/
theorem wEps_pos : ∃ e : ℝ, 0 < e ∧ wEps = (e : EReal) := by
  simp [wEps, Ideal.ofBits, Ideal.ieee, -EReal.coe_mul]

/-- In range, the row's table position is its label. -/
theorem seg_eq_dom (seg : SegArr) (hseg : InRange seg) (t : Fin 262144) :
    seg (ix2 t 0) = BitVec.ofNat 32 (dom seg t).val := by
  obtain ⟨d, hd⟩ := hseg t
  have hd8 := d.isLt
  have h1 : (seg (ix2 t 0)).toNat % 8 = d.val := by
    rw [hd, BitVec.toNat_ofNat]; omega
  show seg (ix2 t 0) = BitVec.ofNat 32 ((seg (ix2 t 0)).toNat % 8)
  rw [h1]; exact hd

/-- Two labels below 8 are the same word exactly when they are the same number. -/
theorem ofNat_eq_iff (a b : Fin 8) : BitVec.ofNat 32 a.val = BitVec.ofNat 32 b.val ↔ a = b := by
  constructor
  · intro h
    have h2 := congrArg BitVec.toNat h
    simp only [BitVec.toNat_ofNat] at h2
    have := a.isLt; have := b.isLt
    exact Fin.ext (by omega)
  · intro h; rw [h]

theorem hot_eq (seg : SegArr) (hseg : InRange seg) (t : Fin 262144) (d : Fin 8) :
    hot seg t d = if dom seg t = d then 1 else 0 := by
  unfold hot
  rw [seg_eq_dom seg hseg t]
  simp only [ofNat_eq_iff]

/-- A one-hot product selects the label's entry. -/
theorem hot_select (seg : SegArr) (hseg : InRange seg) (t : Fin 262144) (T : Fin 8 → EReal) :
    ∑ d : Fin 8, hot seg t d * T d = T (dom seg t) := by
  simp only [hot_eq seg hseg t, ite_mul, one_mul, zero_mul]
  rw [Finset.sum_ite_eq]
  simp

/-- The one-pass totals are sums over all rows. -/
theorem kCnt_eq (seg : SegArr) (d : Fin 8) : kCnt seg d = ∑ t : Fin 262144, hot seg t d := by
  unfold kCnt pCnt
  simp only [wZero_eq, zero_add]
  exact sum_rowOf (fun t => hot seg t d)
theorem kS1_eq (x : XArr) (seg : SegArr) (d : Fin 8) (f : Fin 256) :
    kS1 x seg d f = ∑ t : Fin 262144, hot seg t d * x (ix2 t f) := by
  unfold kS1 pSum1
  simp only [wZero_eq, zero_add]
  exact sum_rowOf (fun t => hot seg t d * x (ix2 t f))
theorem kS2_eq (x : XArr) (seg : SegArr) (d : Fin 8) (f : Fin 256) :
    kS2 x seg d f = ∑ t : Fin 262144, hot seg t d * (x (ix2 t f) * x (ix2 t f)) := by
  unfold kS2 pSum2
  simp only [wZero_eq, zero_add]
  exact sum_rowOf (fun t => hot seg t d * (x (ix2 t f) * x (ix2 t f)))

/-- Choosing between a value and 0 is multiplying the value by 1 or by 0. -/
theorem ite_eq_hot_mul (seg : SegArr) (t : Fin 262144) (d : Fin 8) (a : EReal) :
    (if seg (ix2 t 0) = BitVec.ofNat 32 d.val then a else 0) = hot seg t d * a := by
  unfold hot
  by_cases h : seg (ix2 t 0) = BitVec.ofNat 32 d.val
  · rw [if_pos h, if_pos h, one_mul]
  · rw [if_neg h, if_neg h, zero_mul]

/-- And so are the two-pass ones, with the same one-hot factor. -/
theorem rCnt_eq (seg : SegArr) (d : Fin 8) : rCnt seg d = ∑ t : Fin 262144, hot seg t d := by
  unfold rCnt
  rw [wZero_eq, wOne_eq, zero_add]
  rfl
theorem rS1_eq (x : XArr) (seg : SegArr) (d : Fin 8) (f : Fin 256) :
    rS1 x seg d f = ∑ t : Fin 262144, hot seg t d * x (ix2 t f) := by
  unfold rS1
  rw [wZero_eq, zero_add]
  exact Finset.sum_congr rfl (fun t _ => ite_eq_hot_mul seg t d _)
theorem rS2_eq (x : XArr) (seg : SegArr) (d : Fin 8) (f : Fin 256) :
    rS2 x seg d f = ∑ t : Fin 262144, hot seg t d * (rCen x seg t f * rCen x seg t f) := by
  unfold rS2
  rw [wZero_eq, zero_add]
  exact Finset.sum_congr rfl (fun t _ => ite_eq_hot_mul seg t d _)

end Cert.BridgeSums

end
-- ==== Proof.Bridge.lean ====
/-
  The one-pass and the two-pass forms agree on finite features and parameters with labels in range. With n the
  clamped count of a label, mu = S1 / n its mean and the sums real numbers: the centred squares add up to
  S2 - n mu^2 (the label's rows are exactly n when there is any, and none contributes otherwise), so the two
  variances agree and are not negative (the clamp at 0 does nothing); a finite slope or intercept minus itself is 0,
  so the second table of each pair adds nothing; and x s + (b - s mu) = g ((x - mu) r) + gb + db with s = g r and
  b = gb + db.
-/
import proofs.«412241_j70480413328182_3_alg».proof.Proof.Spec
import proofs.«412241_j70480413328182_3_alg».proof.Proof.BridgeSums
import Idealize.ShloMosaic.PureOps.Ideal
import Idealize.ShloMosaic.PureOps.Ideal.Laws
import Idealize.ShloMosaic.Lib.ValueIdx
import Mathlib.Data.EReal.Basic
import Mathlib.Data.EReal.Operations
import Mathlib.Algebra.BigOperators.Group.Finset.Basic
import Mathlib.Algebra.Order.BigOperators.Group.Finset
import Mathlib.Algebra.BigOperators.Ring.Finset
import Mathlib.Order.MinMax
import Mathlib.Analysis.Real.Sqrt
import Mathlib.Tactic.Ring

noncomputable section

namespace Cert.Bridge

open Idealize.ShloMosaic Idealize.ShloMosaic.ValueIdx Cert.Spec Cert.BridgeSums

/-! ## Real numbers inside the extended reals -/

/-- A finite sum of real numbers is the same number in the extended reals. -/
theorem coe_sum {ι : Type} (s : Finset ι) (g : ι → ℝ) :
    ∑ i ∈ s, ((g i : ℝ) : EReal) = ((∑ i ∈ s, g i : ℝ) : EReal) := by
  classical
  induction s using Finset.induction_on with
  | empty => rw [Finset.sum_empty, Finset.sum_empty, EReal.coe_zero]
  | insert a s ha ih => rw [Finset.sum_insert ha, Finset.sum_insert ha, ih, EReal.coe_add]

theorem coe_max (a b : ℝ) : max (a : EReal) (b : EReal) = ((max a b : ℝ) : EReal) :=
  (EReal.coe_strictMono.monotone.map_max).symm

/-- A real number minus itself is 0 in the extended reals. -/
theorem coe_sub_self (a : ℝ) : (a : EReal) - (a : EReal) = 0 := by
  rw [← EReal.coe_sub, sub_self, EReal.coe_zero]

/-- Division by a real number that is not 0. -/
theorem div_coe_coe (a b : ℝ) (hb : b ≠ 0) : Ideal.div (a : EReal) (b : EReal) = ((a / b : ℝ) : EReal) := by
  rw [Ideal.div_coe hb, ← EReal.coe_mul, mul_one_div]

/-- The reciprocal square root of a positive real number. -/
theorem rsqrt_coe_pos (a : ℝ) (ha : 0 < a) : Ideal.rsqrt (a : EReal) = (((Real.sqrt a)⁻¹ : ℝ) : EReal) := by
  rw [Ideal.rsqrt_coe, if_neg (not_lt.mpr ha.le), if_neg ha.ne']

/-! ## The real one-hot factor and the real sums -/

/-- 1 when row t's table position is d, else 0. -/
def hR (seg : SegArr) (t : Fin 262144) (d : Fin 8) : ℝ := if dom seg t = d then 1 else 0

theorem hot_coe (seg : SegArr) (hseg : InRange seg) (t : Fin 262144) (d : Fin 8) :
    hot seg t d = ((hR seg t d : ℝ) : EReal) := by
  rw [hot_eq seg hseg t d, hR]
  split_ifs
  · exact EReal.coe_one.symm
  · exact EReal.coe_zero.symm

theorem hR_nonneg (seg : SegArr) (t : Fin 262144) (d : Fin 8) : 0 ≤ hR seg t d := by
  rw [hR]; split_ifs
  · exact zero_le_one
  · exact le_refl 0

theorem hR_self (seg : SegArr) (t : Fin 262144) : hR seg t (dom seg t) = 1 := by
  rw [hR, if_pos rfl]

/-- The count, the clamped count, the sum, the sum of squares and the mean of label d at feature f. -/
def nR (seg : SegArr) (d : Fin 8) : ℝ := ∑ t : Fin 262144, hR seg t d
def NR (seg : SegArr) (d : Fin 8) : ℝ := max (nR seg d) 1
def s1R (xr : (⟨2, ![262144, 256]⟩ : Shape).Idx → ℝ) (seg : SegArr) (d : Fin 8) (f : Fin 256) : ℝ :=
  ∑ t : Fin 262144, hR seg t d * xr (ix2 t f)
def s2R (xr : (⟨2, ![262144, 256]⟩ : Shape).Idx → ℝ) (seg : SegArr) (d : Fin 8) (f : Fin 256) : ℝ :=
  ∑ t : Fin 262144, hR seg t d * (xr (ix2 t f) * xr (ix2 t f))
def muR (xr : (⟨2, ![262144, 256]⟩ : Shape).Idx → ℝ) (seg : SegArr) (d : Fin 8) (f : Fin 256) : ℝ :=
  s1R xr seg d f / NR seg d

theorem NR_pos (seg : SegArr) (d : Fin 8) : 0 < NR seg d := lt_of_lt_of_le zero_lt_one (le_max_right _ _)
theorem NR_ne (seg : SegArr) (d : Fin 8) : NR seg d ≠ 0 := (NR_pos seg d).ne'

/-- A label that some row carries has a count of at least 1, so the clamp leaves it alone. -/
theorem one_le_nR (seg : SegArr) (t : Fin 262144) : 1 ≤ nR seg (dom seg t) := by
  rw [nR, ← hR_self seg t]
  exact Finset.single_le_sum (f := fun t' => hR seg t' (dom seg t)) (fun t' _ => hR_nonneg seg t' _) (Finset.mem_univ t)
theorem NR_dom (seg : SegArr) (t : Fin 262144) : NR seg (dom seg t) = nR seg (dom seg t) := by
  rw [NR, max_eq_left (one_le_nR seg t)]

/-! ## Each quantity of the two forms as a real number -/

/-- The row's centred value, the sum of centred squares of a label, and the two variances. -/
def cR (xr : (⟨2, ![262144, 256]⟩ : Shape).Idx → ℝ) (seg : SegArr) (t : Fin 262144) (f : Fin 256) : ℝ :=
  xr (ix2 t f) - muR xr seg (dom seg t) f
def ssR (xr : (⟨2, ![262144, 256]⟩ : Shape).Idx → ℝ) (seg : SegArr) (d : Fin 8) (f : Fin 256) : ℝ :=
  ∑ t : Fin 262144, hR seg t d * (cR xr seg t f * cR xr seg t f)
def rvR (xr : (⟨2, ![262144, 256]⟩ : Shape).Idx → ℝ) (seg : SegArr) (d : Fin 8) (f : Fin 256) : ℝ :=
  ssR xr seg d f / NR seg d
def kvR (xr : (⟨2, ![262144, 256]⟩ : Shape).Idx → ℝ) (seg : SegArr) (d : Fin 8) (f : Fin 256) : ℝ :=
  max (s2R xr seg d f / NR seg d - muR xr seg d f * muR xr seg d f) 0

section Coe
variable (x : XArr) (xr : (⟨2, ![262144, 256]⟩ : Shape).Idx → ℝ) (seg : SegArr)
  (hxr : ∀ i, x i = ((xr i : ℝ) : EReal)) (hseg : InRange seg)
include hseg

theorem kCnt_coe (d : Fin 8) : kCnt seg d = ((nR seg d : ℝ) : EReal) := by
  rw [kCnt_eq, nR, ← coe_sum]
  exact Finset.sum_congr rfl (fun t _ => hot_coe seg hseg t d)
theorem rCnt_coe (d : Fin 8) : rCnt seg d = ((nR seg d : ℝ) : EReal) := by
  rw [rCnt_eq, nR, ← coe_sum]
  exact Finset.sum_congr rfl (fun t _ => hot_coe seg hseg t d)
theorem kN_coe (d : Fin 8) : kN seg d = ((NR seg d : ℝ) : EReal) := by
  rw [kN, kCnt_coe seg hseg, wOne_eq, ← EReal.coe_one, coe_max, NR]
theorem rN_coe (d : Fin 8) : rN seg d = ((NR seg d : ℝ) : EReal) := by
  rw [rN, rCnt_coe seg hseg, wOne_eq, ← EReal.coe_one, coe_max, NR]

include hxr

theorem kS1_coe (d : Fin 8) (f : Fin 256) : kS1 x seg d f = ((s1R xr seg d f : ℝ) : EReal) := by
  rw [kS1_eq, s1R, ← coe_sum]
  refine Finset.sum_congr rfl (fun t _ => ?_)
  rw [hot_coe seg hseg, hxr, EReal.coe_mul]
theorem rS1_coe (d : Fin 8) (f : Fin 256) : rS1 x seg d f = ((s1R xr seg d f : ℝ) : EReal) := by
  rw [rS1_eq, s1R, ← coe_sum]
  refine Finset.sum_congr rfl (fun t _ => ?_)
  rw [hot_coe seg hseg, hxr, EReal.coe_mul]
theorem kS2_coe (d : Fin 8) (f : Fin 256) : kS2 x seg d f = ((s2R xr seg d f : ℝ) : EReal) := by
  rw [kS2_eq, s2R, ← coe_sum]
  refine Finset.sum_congr rfl (fun t _ => ?_)
  rw [hot_coe seg hseg, hxr, EReal.coe_mul, EReal.coe_mul]
theorem kMean_coe (d : Fin 8) (f : Fin 256) : kMean x seg d f = ((muR xr seg d f : ℝ) : EReal) := by
  rw [kMean, kS1_coe x xr seg hxr hseg, kN_coe seg hseg, div_coe_coe _ _ (NR_ne seg d), muR]
theorem rMean_coe (d : Fin 8) (f : Fin 256) : rMean x seg d f = ((muR xr seg d f : ℝ) : EReal) := by
  rw [rMean, rS1_coe x xr seg hxr hseg, rN_coe seg hseg, div_coe_coe _ _ (NR_ne seg d), muR]
theorem rCen_coe (t : Fin 262144) (f : Fin 256) : rCen x seg t f = ((cR xr seg t f : ℝ) : EReal) := by
  rw [rCen, rMean_coe x xr seg hxr hseg, hxr, cR, EReal.coe_sub]
theorem rS2_coe (d : Fin 8) (f : Fin 256) : rS2 x seg d f = ((ssR xr seg d f : ℝ) : EReal) := by
  rw [rS2_eq, ssR, ← coe_sum]
  refine Finset.sum_congr rfl (fun t _ => ?_)
  rw [hot_coe seg hseg, rCen_coe x xr seg hxr hseg, EReal.coe_mul, EReal.coe_mul]
theorem rVar_coe (d : Fin 8) (f : Fin 256) : rVar x seg d f = ((rvR xr seg d f : ℝ) : EReal) := by
  rw [rVar, rS2_coe x xr seg hxr hseg, rN_coe seg hseg, div_coe_coe _ _ (NR_ne seg d), rvR]
theorem kVar_coe (d : Fin 8) (f : Fin 256) : kVar x seg d f = ((kvR xr seg d f : ℝ) : EReal) := by
  rw [kVar, kS2_coe x xr seg hxr hseg, kN_coe seg hseg, div_coe_coe _ _ (NR_ne seg d), kMean_coe x xr seg hxr hseg,
    ← EReal.coe_mul, ← EReal.coe_sub, wZero_eq, ← EReal.coe_zero, coe_max, kvR]

end Coe

/-! ## The two variances agree where the label occurs -/

/-- Weighted squares about a point, expanded. -/
theorem centred_squares {ι : Type} (s : Finset ι) (w y : ι → ℝ) (μ : ℝ) :
    ∑ t ∈ s, w t * ((y t - μ) * (y t - μ)) =
      (∑ t ∈ s, w t * (y t * y t)) - 2 * μ * (∑ t ∈ s, w t * y t) + μ * μ * (∑ t ∈ s, w t) := by
  rw [Finset.mul_sum, Finset.mul_sum, ← Finset.sum_sub_distrib, ← Finset.sum_add_distrib]
  exact Finset.sum_congr rfl (fun t _ => by ring)

/-- On the rows of label d the centring mean is label d's. -/
theorem ssR_eq (xr : (⟨2, ![262144, 256]⟩ : Shape).Idx → ℝ) (seg : SegArr) (d : Fin 8) (f : Fin 256) :
    ssR xr seg d f = ∑ t : Fin 262144, hR seg t d * ((xr (ix2 t f) - muR xr seg d f) * (xr (ix2 t f) - muR xr seg d f)) := by
  rw [ssR]
  refine Finset.sum_congr rfl (fun t _ => ?_)
  by_cases h : dom seg t = d
  · rw [cR, h]
  · rw [hR, if_neg h, zero_mul, zero_mul]

theorem rvR_nonneg (xr : (⟨2, ![262144, 256]⟩ : Shape).Idx → ℝ) (seg : SegArr) (d : Fin 8) (f : Fin 256) :
    0 ≤ rvR xr seg d f :=
  div_nonneg (Finset.sum_nonneg fun t _ => mul_nonneg (hR_nonneg seg t d) (mul_self_nonneg _)) (NR_pos seg d).le

theorem kvR_nonneg (xr : (⟨2, ![262144, 256]⟩ : Shape).Idx → ℝ) (seg : SegArr) (d : Fin 8) (f : Fin 256) :
    0 ≤ kvR xr seg d f := le_max_right _ _

/-- With n ≥ 1 rows of label d: the centred squares add up to S2 - n mu², their average is S2 / n - mu², and it is
    not negative, so the clamp at 0 leaves it alone. -/
theorem var_eq (xr : (⟨2, ![262144, 256]⟩ : Shape).Idx → ℝ) (seg : SegArr) (d : Fin 8) (f : Fin 256)
    (hn : 1 ≤ nR seg d) : rvR xr seg d f = kvR xr seg d f := by
  have hN : NR seg d = nR seg d := max_eq_left hn
  have hn0 : nR seg d ≠ 0 := (lt_of_lt_of_le zero_lt_one hn).ne'
  have hS1 : s1R xr seg d f = muR xr seg d f * nR seg d := by
    rw [muR, hN, div_mul_cancel₀ _ hn0]
  have hss : ssR xr seg d f = s2R xr seg d f - muR xr seg d f * muR xr seg d f * nR seg d := by
    rw [ssR_eq, centred_squares]
    change s2R xr seg d f - 2 * muR xr seg d f * s1R xr seg d f + muR xr seg d f * muR xr seg d f * nR seg d = _
    rw [hS1]; ring
  have hv : rvR xr seg d f = s2R xr seg d f / NR seg d - muR xr seg d f * muR xr seg d f := by
    rw [rvR, hss, hN, sub_div, mul_div_assoc, div_self hn0, mul_one]
  rw [kvR, ← hv, max_eq_left (rvR_nonneg xr seg d f)]

/-! ## Slope and intercept are real, the selection, and the last identity -/

/-- The real slope of label d at feature f, with e the variance guard. -/
def slR (xr : (⟨2, ![262144, 256]⟩ : Shape).Idx → ℝ) (seg : SegArr) (g : ℝ) (e : ℝ) (d : Fin 8) (f : Fin 256) : ℝ :=
  g * (Real.sqrt (kvR xr seg d f + e))⁻¹

section Tables
variable (x : XArr) (xr : (⟨2, ![262144, 256]⟩ : Shape).Idx → ℝ) (seg : SegArr)
  (hxr : ∀ i, x i = ((xr i : ℝ) : EReal)) (hseg : InRange seg) (e : ℝ) (he : 0 < e) (hE : wEps = (e : EReal))
include hxr hseg he hE

theorem kInv_coe (d : Fin 8) (f : Fin 256) :
    kInv x seg d f = (((Real.sqrt (kvR xr seg d f + e))⁻¹ : ℝ) : EReal) := by
  rw [kInv, kVar_coe x xr seg hxr hseg, hE, ← EReal.coe_add,
    rsqrt_coe_pos _ (add_pos_of_nonneg_of_pos (kvR_nonneg xr seg d f) he)]

theorem kScale_coe (gg : Vec1) (dg : Vec8) (ggr : (⟨1, ![1]⟩ : Shape).Idx → ℝ) (dgr : (⟨1, ![8]⟩ : Shape).Idx → ℝ)
    (hggr : ∀ i, gg i = ((ggr i : ℝ) : EReal)) (hdgr : ∀ i, dg i = ((dgr i : ℝ) : EReal)) (d : Fin 8) (f : Fin 256) :
    kScale x seg gg dg d f = ((slR xr seg (ggr (ix1 0) * dgr (ix1 d)) e d f : ℝ) : EReal) := by
  rw [kScale, hggr, hdgr, kInv_coe x xr seg hxr hseg e he hE, ← EReal.coe_mul, ← EReal.coe_mul, slR]

theorem kBias_coe (gg gb : Vec1) (dg db : Vec8) (ggr gbr : (⟨1, ![1]⟩ : Shape).Idx → ℝ)
    (dgr dbr : (⟨1, ![8]⟩ : Shape).Idx → ℝ)
    (hggr : ∀ i, gg i = ((ggr i : ℝ) : EReal)) (hgbr : ∀ i, gb i = ((gbr i : ℝ) : EReal))
    (hdgr : ∀ i, dg i = ((dgr i : ℝ) : EReal)) (hdbr : ∀ i, db i = ((dbr i : ℝ) : EReal)) (d : Fin 8) (f : Fin 256) :
    kBias x seg gg gb dg db d f
      = (((gbr (ix1 0) + dbr (ix1 d)) - slR xr seg (ggr (ix1 0) * dgr (ix1 d)) e d f * muR xr seg d f : ℝ) : EReal) := by
  rw [kBias, hgbr, hdbr, kScale_coe x xr seg hxr hseg e he hE gg dg ggr dgr hggr hdgr, kMean_coe x xr seg hxr hseg,
    ← EReal.coe_add, ← EReal.coe_mul, ← EReal.coe_sub]

end Tables

theorem kernel_eq_reference (x : XArr) (seg : SegArr) (gg gb : Vec1) (dg db : Vec8)
    (hx : ∀ i, ∃ r : ℝ, x i = (r : EReal)) (hgg : ∀ i, ∃ r : ℝ, gg i = (r : EReal)) (hgb : ∀ i, ∃ r : ℝ, gb i = (r : EReal))
    (hdg : ∀ i, ∃ r : ℝ, dg i = (r : EReal)) (hdb : ∀ i, ∃ r : ℝ, db i = (r : EReal)) (hseg : InRange seg) :
    Kfun x seg gg gb dg db = Rfun x seg gg gb dg db := by
  choose xr hxr using hx
  choose ggr hggr using hgg
  choose gbr hgbr using hgb
  choose dgr hdgr using hdg
  choose dbr hdbr using hdb
  obtain ⟨e, he, hE⟩ := wEps_pos
  funext i
  obtain ⟨t, f, rfl⟩ : ∃ a b, i = ix2 a b := ⟨_, _, eq_ix2 i⟩
  show normAt seg x _ _ _ _ t f = rOut x seg gg gb dg db t f
  -- the four one-hot products select the row's label
  have h2 : ∑ d : Fin 8, hot seg t d * arr2 (kScale x seg gg dg) (ix2 d f) = kScale x seg gg dg (dom seg t) f :=
    hot_select seg hseg t (fun d => kScale x seg gg dg d f)
  have h3 : ∑ d : Fin 8, hot seg t d * arr2 (fun d f => kScale x seg gg dg d f - kScale x seg gg dg d f) (ix2 d f)
      = kScale x seg gg dg (dom seg t) f - kScale x seg gg dg (dom seg t) f :=
    hot_select seg hseg t (fun d => kScale x seg gg dg d f - kScale x seg gg dg d f)
  have h4 : ∑ d : Fin 8, hot seg t d * arr2 (kBias x seg gg gb dg db) (ix2 d f) = kBias x seg gg gb dg db (dom seg t) f :=
    hot_select seg hseg t (fun d => kBias x seg gg gb dg db d f)
  have h5 : ∑ d : Fin 8, hot seg t d * arr2 (fun d f => kBias x seg gg gb dg db d f - kBias x seg gg gb dg db d f) (ix2 d f)
      = kBias x seg gg gb dg db (dom seg t) f - kBias x seg gg gb dg db (dom seg t) f :=
    hot_select seg hseg t (fun d => kBias x seg gg gb dg db d f - kBias x seg gg gb dg db d f)
  rw [normAt, h2, h3, h4, h5, kScale_coe x xr seg hxr hseg e he hE gg dg ggr dgr hggr hdgr,
    kBias_coe x xr seg hxr hseg e he hE gg gb dg db ggr gbr dgr dbr hggr hgbr hdgr hdbr, coe_sub_self, coe_sub_self,
    add_zero, add_zero, hxr, ← EReal.coe_mul, ← EReal.coe_add]
  -- the two-pass side, with the same variance
  rw [rOut, rCen_coe x xr seg hxr hseg, rVar_coe x xr seg hxr hseg, hE, ← EReal.coe_add,
    var_eq xr seg (dom seg t) f (one_le_nR seg t),
    rsqrt_coe_pos _ (add_pos_of_nonneg_of_pos (kvR_nonneg xr seg (dom seg t) f) he), hggr, hdgr, hgbr, hdbr,
    ← EReal.coe_mul, ← EReal.coe_mul, ← EReal.coe_mul, ← EReal.coe_add, ← EReal.coe_add]
  congr 1
  rw [slR, cR]
  ring

end Cert.Bridge

end
-- ==== Proof.PreDecode.lean ====
/-
  The precondition read back: every entry of the five float arguments is a real number, and every label is one of
  0 … 7.
-/
import proofs.«412241_j70480413328182_3_alg».proof.Pre_finite_inputs
import proofs.«412241_j70480413328182_3_alg».proof.Proof.Gen.Pre_finite_inputs
import proofs.«412241_j70480413328182_3_alg».proof.Proof.Spec
import Idealize.ShloMosaic.PureOps.Ideal
import Idealize.ShloMosaic.PureOps.Ideal.Laws
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx Cert.Pre_finite_inputs

/-- The scalar shape has one index. -/
instance : Subsingleton S_.Idx := ⟨fun a b => funext fun d => d.elim0⟩

/-- The f32 word with all exponent bits set and no fraction bit denotes +∞. -/
theorem inf_word : Ideal.ofBits .f32 0x7F800000#32 = (⊤ : EReal) := by
  simp [Ideal.ofBits, Ideal.ieee]

/-- An extended real whose absolute value max a (-a) lies strictly below +∞ is a real number: at -∞ the
    absolute value is +∞, and so it is at +∞. -/
theorem real_of_abs_lt_top (a : EReal) (h : max a (-a) < ⊤) : ∃ r : ℝ, a = (r : EReal) := by
  induction a using EReal.rec with
  | bot => exact absurd h (by simp)
  | top => exact absurd h (by simp)
  | coe r => exact ⟨r, rfl⟩

/-- A 32-bit word that is at least 0 and below 8 as a signed number is one of the words 0 … 7. -/
theorem label_of_range (a : BitVec 32) (h0 : IntOp.cmpi .sge a 0#32 = 1#1) (h8 : IntOp.cmpi .slt a 8#32 = 1#1) :
    ∃ d : Fin 8, a = BitVec.ofNat 32 d.val := by
  rw [IntOp.cmpi_sge] at h0
  rw [IntOp.cmpi_slt] at h8
  have z0 : (0#32 : BitVec 32).toInt = 0 := by decide
  have z8 : (8#32 : BitVec 32).toInt = 8 := by decide
  rw [z0] at h0
  rw [z8] at h8
  have hc := BitVec.toInt_eq_toNat_cond a
  have hlt := a.isLt
  have hn : a.toNat < 8 := by
    split at hc <;> omega
  refine ⟨⟨a.toNat, hn⟩, BitVec.eq_of_toNat_eq ?_⟩
  simp only [BitVec.toNat_ofNat]
  omega

/-- Every |entry| of a float array lies below +∞ (the conjunction over all its indices holds): every entry is a
    real number. -/
theorem finite_of_all {s : Shape} {axes : List (Fin s.rank)} (v : FVec Ideal s .f32)
    (hb : S_.BroadcastsInDim s (![] : Fin 0 → Fin s.rank)) (hr : s.ReducesTo axes S_) (hu : 0 < S_.numel)
    (init : IVec S_ 1)
    (e : Host.reduce IntOp.andi
      (cmpf .olt (Host.absf v) (broadcastInDim s ![] hb (constant S_ .f32 0x7F800000#32))) init hr hu ix0 = 1#1)
    (i : s.Idx) : ∃ r : ℝ, v i = (r : EReal) := by
  have hi := Host.reduce_andi_all _ init hr hu ix0 e i
  have hi' : Ideal.cmp .olt (max (v i) (-(v i))) (Ideal.ofBits .f32 0x7F800000#32) = 1#1 := hi
  rw [inf_word] at hi'
  exact real_of_abs_lt_top (v i) (of_decide_eq_true ((StableHlo.Predicate.ofBool_eq_one_iff _).1 hi'))

/-- Every label is at least 0 and every label is below 8, as signed numbers: every label is one of 0 … 7. A row's
    label sits at column 0 of its row. -/
theorem label_all (seg : IVec S262144x1 32) (hb : S_.BroadcastsInDim S262144x1 (![] : Fin 0 → Fin S262144x1.rank))
    {axes : List (Fin S262144x1.rank)} (hr : S262144x1.ReducesTo axes S_) (hu : 0 < S_.numel) (i0 i8 : IVec S_ 1)
    (e0 : Host.reduce IntOp.andi (cmpi .sge seg (broadcastInDim S262144x1 ![] hb (constantI S_ 32 0#32))) i0 hr hu ix0
      = 1#1)
    (e8 : Host.reduce IntOp.andi (cmpi .slt seg (broadcastInDim S262144x1 ![] hb (constantI S_ 32 8#32))) i8 hr hu ix0
      = 1#1) : Cert.Spec.InRange seg := by
  intro t
  have a0 := Host.reduce_andi_all _ i0 hr hu ix0 e0 (ix2 t 0)
  have a8 := Host.reduce_andi_all _ i8 hr hu ix0 e8 (ix2 t 0)
  exact label_of_range (seg (ix2 t 0)) a0 a8

theorem pre_decode [Cert.Pre_finite_inputs.Facts] (x : FVec Ideal S262144x256 .f32) (seg : IVec S262144x1 32)
    (gg gb : FVec Ideal S1 .f32) (dg db : FVec Ideal S8 .f32)
    (h : Cert.Pre_finite_inputs.fn (F := Ideal) x seg gg gb dg db = fun _ => 1#1) :
    (∀ i, ∃ r : ℝ, x i = (r : EReal)) ∧ (∀ i, ∃ r : ℝ, gg i = (r : EReal)) ∧ (∀ i, ∃ r : ℝ, gb i = (r : EReal))
      ∧ (∀ i, ∃ r : ℝ, dg i = (r : EReal)) ∧ (∀ i, ∃ r : ℝ, db i = (r : EReal)) ∧ Cert.Spec.InRange seg := by
  have h0 := congrFun h ValueIdx.ix0
  dsimp only [fn, fn_part1] at h0
  obtain ⟨h0, l8⟩ := IntOp.andi_eq_one.1 (show IntOp.andi _ _ = 1#1 from h0)
  obtain ⟨h0, l0⟩ := IntOp.andi_eq_one.1 (show IntOp.andi _ _ = 1#1 from h0)
  obtain ⟨h0, edb⟩ := IntOp.andi_eq_one.1 (show IntOp.andi _ _ = 1#1 from h0)
  obtain ⟨h0, edg⟩ := IntOp.andi_eq_one.1 (show IntOp.andi _ _ = 1#1 from h0)
  obtain ⟨h0, egb⟩ := IntOp.andi_eq_one.1 (show IntOp.andi _ _ = 1#1 from h0)
  obtain ⟨ex, egg⟩ := IntOp.andi_eq_one.1 (show IntOp.andi _ _ = 1#1 from h0)
  exact ⟨finite_of_all x _ _ _ _ ex, finite_of_all gg _ _ _ _ egg, finite_of_all gb _ _ _ _ egb,
    finite_of_all dg _ _ _ _ edg, finite_of_all db _ _ _ _ edb, label_all seg _ _ _ _ _ l0 l8⟩

end Cert.PreDecode

end
-- ==== Proof.lean ====
/-
  Per-domain batch normalisation with an affine map: a two-pass Pallas kernel against its jnp reference, equal over
  the extended reals on finite features and parameters whose domain labels lie in 0 … 7.

  The kernel's first pass accumulates, per half of the rows and per label, the count, the sum and the sum of squares
  by one-hot products; the host turns them into the mean, the one-pass variance E[x²] − mean² clamped at 0, and from
  its guarded inverse square root a per-label slope s = (gg · dg) · r and intercept b = (gb + db) − s · mean, each
  handed on as itself plus the remainder after itself; the second pass forms x · s + b with the label's s and b selected
  by one-hot products. The reference scatters the rows into per-label sums, centres each row by its label's mean,
  scatters the centred squares into the variance, and forms (gg · dg) · ((x − mean) · r) + gb + db by taking each
  label's entries. Over the reals the centred squares of a label's n rows add up to its sum of squares minus n · mean²,
  so the two variances agree (and are not negative); a finite number minus itself is 0; and the two affine forms are one
  polynomial identity. A label outside 0 … 7 selects nothing in the kernel and a clamped entry in the reference, which
  is why the labels' range is part of the precondition.

  The three frames are the generated ones (the reference's is its generated run with the result dropped); the ideal
  pass rewrote nothing, so the kernel's idealization has nothing to preserve.
-/
import proofs.«412241_j70480413328182_3_alg».proof.Defs
import proofs.«412241_j70480413328182_3_alg».proof.Proof.Gen.Kernel
import proofs.«412241_j70480413328182_3_alg».proof.Proof.Gen.Kernel.Skeleton
import proofs.«412241_j70480413328182_3_alg».proof.Proof.Gen.Kernel.Launch
import proofs.«412241_j70480413328182_3_alg».proof.Proof.Gen.Kernel.Points
import proofs.«412241_j70480413328182_3_alg».proof.Proof.Gen.Kernel.Frame
import proofs.«412241_j70480413328182_3_alg».proof.Proof.Gen.KernelIdeal
import proofs.«412241_j70480413328182_3_alg».proof.Proof.Gen.KernelIdeal.Skeleton
import proofs.«412241_j70480413328182_3_alg».proof.Proof.Gen.KernelIdeal.Launch
import proofs.«412241_j70480413328182_3_alg».proof.Proof.Gen.KernelIdeal.Points
import proofs.«412241_j70480413328182_3_alg».proof.Proof.Gen.KernelIdeal.Frame
import proofs.«412241_j70480413328182_3_alg».proof.Proof.Gen.ReferenceIdeal
import proofs.«412241_j70480413328182_3_alg».proof.Proof.Gen.ReferenceIdeal.Run
import proofs.«412241_j70480413328182_3_alg».proof.Proof.Gen.ReferenceIdeal.Read
import proofs.«412241_j70480413328182_3_alg».proof.Proof.Gen.Pre_finite_inputs
import proofs.«412241_j70480413328182_3_alg».proof.Proof.KValue
import proofs.«412241_j70480413328182_3_alg».proof.Proof.RefValue
import proofs.«412241_j70480413328182_3_alg».proof.Proof.Bridge
import proofs.«412241_j70480413328182_3_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end at the one-pass function of the arguments: the kernel's by its two passes and the host stretch
    between them, the reference's because under the precondition its two-pass function is the same. -/
theorem algebraic : Cert.algebraic_KernelIdeal_ReferenceIdeal := by
  intro m ρ m' ρ' hpre hagree
  refine ⟨fun c => Cert.Spec.Kfun (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hgg, hgb, hdg, hdb, hseg⟩ := Cert.PreDecode.pre_decode _ _ _ _ _ _ (hpre c)
  rw [Cert.ReferenceIdeal.Read.val_main_v64_eq, (hagree c).1, (hagree c).2.1, (hagree c).2.2.1, (hagree c).2.2.2.1,
    (hagree c).2.2.2.2.1, (hagree c).2.2.2.2.2]
  exact (Cert.ReferenceIdeal.RefValue.ref_value _ _ _ _ _ _ hseg).trans
    (Cert.Bridge.kernel_eq_reference _ _ _ _ _ _ hx hgg hgb hdg hdb hseg).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
